-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S8192x1024 .f32) (main_arg1 : FVec F S3072x1024 .f32) (main_arg2 : FVec F S3072 .f32) (main_arg3 : FVec F S1024x1024 .f32) (main_arg4 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S8192x1024 : Shape := ⟨2, ![8192, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S1x3072 : Shape := ⟨2, ![1, 3072]⟩
abbrev S8192x3072 : Shape := ⟨2, ![8192, 3072]⟩
abbrev S512x1024 : Shape := ⟨2, ![512, 1024]⟩
abbrev S1x1024 : Shape := ⟨2, ![1, 1024]⟩
abbrev S1024x1 : Shape := ⟨2, ![1024, 1]⟩
abbrev S1024x512 : Shape := ⟨2, ![1024, 512]⟩

abbrev nBuf : Space → Nat
  | .hbm => 11
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S3072x1024, .bf16⟩
  | .hbm, ⟨6, _⟩ => ⟨S1024x1024, .bf16⟩
  | .hbm, ⟨7, _⟩ => ⟨S1x3072, .f32⟩
  | .hbm, ⟨8, _⟩ => ⟨S8192x3072, .bf16⟩
  | .hbm, ⟨9, _⟩ => ⟨S1x1024, .f32⟩
  | .hbm, ⟨10, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S1024x1024, .bf16⟩
  | .local _ .vmem, ⟨9, _⟩ => ⟨S1024x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S1x1024, .f32⟩
  | .local _ .vmem, ⟨16, _⟩ => ⟨S1024x1024, .f32⟩
  | .local _ .vmem, ⟨17, _⟩ => ⟨S1024x1024, .f32⟩
  | .local _ .vmem, ⟨18, _⟩ => ⟨S1024x1, .f32⟩
  | .local _ .vmem, ⟨19, _⟩ => ⟨S1024x1, .f32⟩
  | .local _ .vmem, ⟨20, _⟩ => ⟨S1024x1024, .f32⟩
  | .local _ .vmem, ⟨21, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc1_scratch0 : Ref sig .tc := ⟨.vmem, 18, rfl⟩
abbrev cc1_scratch1 : Ref sig .tc := ⟨.vmem, 19, rfl⟩
abbrev cc1_scratch2 : Ref sig .tc := ⟨.vmem, 20, rfl⟩
abbrev cc1_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨2, ![16, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![8, 16], ![false, false]⟩

def k1_cond2 (i : grid1.Coords) : BitVec 1 :=
  let arg1 : BitVec 32 := BitVec.ofNat 32 (i 1).val
  let c15_i32 : BitVec 32 := 15#32
  let v39 : BitVec 1 := Scalar.cmpi .eq arg1 c15_i32
  let v40 : BitVec 32 := Scalar.extui v39
  let c0_i32_23 : BitVec 32 := 0#32
  let v41 : BitVec 1 := Scalar.cmpi .ne v40 c0_i32_23
  v41

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, c1_i32.toNat]

def cc1_transform_2 (i : grid1.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg1.toNat, c2_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1024x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  bitsLt_bf16_f32 : FTy.bits .bf16 < FTy.bits .f32
  shapeCasts_S3072_S1x3072 : S3072.ShapeCasts S1x3072
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  shapeCasts_S1024_S1x1024 : S1024.ShapeCasts S1x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  packedbf16_S1024x1024_S1024x1024_0_0 : (Rect.unit (s := S1024x1024) ![0, 0] S1024x1024.size inb_S1024x1024_S1024x1024_0_0).PackedRows (EltTy.packing .bf16)
  shapeCasts_S512x1024_S512x1024 : S512x1024.ShapeCasts S512x1024
  reduces_S1024x512_S1024 : S1024x512.Reduces [1] S1024
  shapeCasts_S1024_S1024x1 : S1024.ShapeCasts S1024x1
  broadcasts_S1024x1_S1024x512 : S1024x1.Broadcasts S1024x512
  broadcasts_S1024x1_S1024x1024 : S1024x1.Broadcasts S1024x1024
  broadcasts_S1x1024_S1024x1024 : S1x1024.Broadcasts S1024x1024
  dot_S512x1024_S1024x1024_S512x1024_1_1_0_0_n_n_wf : DotDims.WF S512x1024 S1024x1024 S512x1024 [1] [1] [0] [0] [] []
  dot_S1024x1024_S512x1024_S1024x512_1_1_0_0_n_n_wf : DotDims.WF S1024x1024 S512x1024 S1024x512 [1] [1] [0] [0] [] []
  dot_S1024x512_S512x1024_S1024x1024_1_0_0_1_n_n_wf : DotDims.WF S1024x512 S512x1024 S1024x1024 [1] [0] [0] [1] [] []
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S3072x1024.size a
  hwx0_1 : ∀ i : grid0.Coords, EltTy.bits .bf16 = 32 ∨ (Rect.block (s := S3072x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x3072.size a
  hwx0_2 : ∀ i : grid0.Coords, EltTy.bits .f32 = 32 ∨ (Rect.block (s := S1x3072) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x3072.size a
  hwx0_3 : ∀ i : grid0.Coords, EltTy.bits .bf16 = 32 ∨ (Rect.block (s := S8192x3072) S512x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x3072.size a
  hwx1_0 : ∀ i : grid1.Coords, EltTy.bits .bf16 = 32 ∨ (Rect.block (s := S8192x3072) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S8192x3072.size a
  hwx1_1 : ∀ i : grid1.Coords, EltTy.bits .bf16 = 32 ∨ (Rect.block (s := S8192x3072) S512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S8192x3072.size a
  hwx1_2 : ∀ i : grid1.Coords, EltTy.bits .bf16 = 32 ∨ (Rect.block (s := S8192x3072) S512x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .bf16 = 32 ∨ (Rect.block (s := S1024x1024) S1024x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x1024.size a ≤ S8192x1024.size a
  hwx1_5 : ∀ i : grid1.Coords, EltTy.bits .f32 = 32 ∨ (Rect.block (s := S8192x1024) S1024x1024.size (cc1_transform_5 i) (hinb1_5 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v3) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S1024x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S8192x1024 : Shape := ⟨2, ![8192, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S1024x3072 : Shape := ⟨2, ![1024, 3072]⟩
abbrev S8192x3072 : Shape := ⟨2, ![8192, 3072]⟩
abbrev S1x3072 : Shape := ⟨2, ![1, 3072]⟩
abbrev S1024x8192 : Shape := ⟨2, ![1024, 8192]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 38
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S1024x3072, .f32⟩
  | .hbm, ⟨6, _⟩ => ⟨S8192x3072, .f32⟩
  | .hbm, ⟨7, _⟩ => ⟨S1x3072, .f32⟩
  | .hbm, ⟨8, _⟩ => ⟨S8192x3072, .f32⟩
  | .hbm, ⟨9, _⟩ => ⟨S8192x3072, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S1024x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x1, .f32⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S8192x8192, .f32⟩
  | .hbm, ⟨31, _⟩ => ⟨S8192x8192, .f32⟩
  | .hbm, ⟨32, _⟩ => ⟨S8192x1024, .f32⟩
  | .hbm, ⟨33, _⟩ => ⟨S1024x1024, .f32⟩
  | .hbm, ⟨34, _⟩ => ⟨S8192x1024, .f32⟩
  | .hbm, ⟨35, _⟩ => ⟨S1x1024, .f32⟩
  | .hbm, ⟨36, _⟩ => ⟨S8192x1024, .f32⟩
  | .hbm, ⟨37, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]

class Facts₀ : Prop where
  transposes_S3072x1024_S1024x3072_1_0 : S3072x1024.Transposes [1, 0] S1024x3072
  bcast_S3072_S1x3072_1 : S3072.BroadcastsInDim S1x3072 (![1] : Fin 1 → Fin S1x3072.rank)
  bcast_S1x3072_S8192x3072_0_1 : S1x3072.BroadcastsInDim S8192x3072 (![0, 1] : Fin 2 → Fin S8192x3072.rank)
  slices_S8192x3072_S8192x1024_0_0 : S8192x3072.Slices ![0, 0] S8192x1024
  slices_S8192x3072_S8192x1024_0_1024 : S8192x3072.Slices ![0, 1024] S8192x1024
  slices_S8192x3072_S8192x1024_0_2048 : S8192x3072.Slices ![0, 2048] S8192x1024
  transposes_S8192x1024_S1024x8192_1_0 : S8192x1024.Transposes [1, 0] S1024x8192
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  transposes_S1024x1024_S1024x1024_1_0 : S1024x1024.Transposes [1, 0] S1024x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  dot_S8192x1024_S1024x3072_S8192x3072_1_0_0_1_n_n_wf : DotDims.WF S8192x1024 S1024x3072 S8192x3072 [1] [0] [0] [1] [] []
  dot_S8192x1024_S1024x8192_S8192x8192_1_0_0_1_n_n_wf : DotDims.WF S8192x1024 S1024x8192 S8192x8192 [1] [0] [0] [1] [] []
  dot_S8192x8192_S8192x1024_S8192x1024_1_0_0_1_n_n_wf : DotDims.WF S8192x8192 S8192x1024 S8192x1024 [1] [0] [0] [1] [] []
  dot_S8192x1024_S1024x1024_S8192x1024_1_0_0_1_n_n_wf : DotDims.WF S8192x1024 S1024x1024 S8192x1024 [1] [0] [0] [1] [] []

variable [Facts₀]

def dot_S8192x1024_S1024x3072_S8192x3072_1_0_0_1_n_n : DotDims S8192x1024 S1024x3072 S8192x3072 where
  lhsContracting := [1]
  rhsContracting := [0]
  lhsNonContracting := [0]
  rhsNonContracting := [1]
  lhsBatch := []
  rhsBatch := []
  wf := dot_S8192x1024_S1024x3072_S8192x3072_1_0_0_1_n_n_wf
def dot_S8192x1024_S1024x8192_S8192x8192_1_0_0_1_n_n : DotDims S8192x1024 S1024x8192 S8192x8192 where
  lhsContracting := [1]
  rhsContracting := [0]
  lhsNonContracting := [0]
  rhsNonContracting := [1]
  lhsBatch := []
  rhsBatch := []
  wf := dot_S8192x1024_S1024x8192_S8192x8192_1_0_0_1_n_n_wf
def dot_S8192x8192_S8192x1024_S8192x1024_1_0_0_1_n_n : DotDims S8192x8192 S8192x1024 S8192x1024 where
  lhsContracting := [1]
  rhsContracting := [0]
  lhsNonContracting := [0]
  rhsNonContracting := [1]
  lhsBatch := []
  rhsBatch := []
  wf := dot_S8192x8192_S8192x1024_S8192x1024_1_0_0_1_n_n_wf
def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf

class Facts : Prop extends Facts₀ where

variable [Facts]
-- ==== Proof.K.Lin.lean ====
/-
  The projection kernel, one grid point at a time.

  The first launch computes `qkv = x · wᵀ + b` in 16 × 3 tiles: at the point `(i, j)` it is handed rows `512 i …` of `x`, rows
  `1024 j …` of the weight and columns `1024 j …` of the bias, and stores the tile `(i, j)` of the result whole. So what the
  body leaves in the result window's buffer is one function of the three input blocks (`out0_3`: the single store read
  back), whatever the buffers held before; nothing is carried from point to point. This module states that as the
  launch's proof data at ANY contents `V` of the core's buffers when the launch is entered, and proves the body's
  obligation at every point.
-/
import proofs.«422776_j21586505630422_3_alg».proof.Proof.Gen.Kernel.Launch
import proofs.«422776_j21586505630422_3_alg».proof.Proof.Gen.Kernel.Skeleton
import proofs.«422776_j21586505630422_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the core's buffer contents when the launch is entered
variable (V : (c : Dev nD) → (b : Ref sig .tc) → Buf (Elt F) ((c : Thread nD τ).loc b))

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles the body loads and stores through. -/
abbrev rX : Rect S512x1024 := Rect.unit (s := S512x1024) ![0, 0] S512x1024.size inb_S512x1024_S512x1024_0_0
abbrev rW : Rect S1024x1024 := Rect.unit (s := S1024x1024) ![0, 0] S1024x1024.size inb_S1024x1024_S1024x1024_0_0
abbrev rB : Rect S1x1024 := Rect.unit (s := S1x1024) ![0, 0] S1x1024.size inb_S1x1024_S1x1024_0_0

/-- The result window's buffer after the body, from the three input blocks: its one store, read back. -/
def out0_3 (x0 : Vec F S512x1024 .f32) (x1 : Vec F S1024x1024 .bf16) (x2 : Vec F S1x1024 .f32) : Vec F S512x1024 .bf16 :=
  View.canon [⟨rX, k0_pay1 (View.ld x0 rX) (View.ld x1 rW) (View.ld x2 rB)⟩]

/-- The launch's proof data on core `c`: the arrays as the launch finds them; after the body each input's buffer at its
    block and the result's at `out0_3` of the input blocks; nothing of the body's own between points but the buffers
    it never touches and the generator register; nothing owed; every array held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-! ## What the body is handed in the three input windows -/

/-- The rows of `x` the body is handed at a point are that point's block of the array as the launch found it. The
    pipeline fetches this window only when the row index moves (every third point); in between the body has left
    the buffer as it found it and the block index has not moved, so the buffer still holds the point's block. The
    window is not cut and never idle. -/
theorem found0_0 (c : Dev nD) (t : Fin cfg0.N) (d) : (dat0 V c).before 0 t d = iblk0 V c 0 t := by
  have hkeep : ∀ s, (cfg0.win 0).cut (cfg0.grid.coords s) ((dat0 V c).after 0 s) = (dat0 V c).blockOf 0 s := fun s => by
    rw [after0_0]; rfl
  rw [(dat0 V c).before_in_eq_fetched 0 rfl (fun _ => rfl) (fun _ _ _ => rfl) hkeep t d]
  rfl

/-- The weight's rows at a point: fetched at every point, uncut, never idle. -/
theorem found0_1 (c : Dev nD) (t : Fin cfg0.N) (d) : (dat0 V c).before 1 t d = iblk0 V c 1 t := by
  have hkeep : ∀ s, (cfg0.win 1).cut (cfg0.grid.coords s) ((dat0 V c).after 1 s) = (dat0 V c).blockOf 1 s := fun s => by
    rw [after0_1]; rfl
  rw [(dat0 V c).before_in_eq_fetched 1 rfl (fun _ => rfl) (fun _ _ _ => rfl) hkeep t d]
  rfl

/-- The bias's columns at a point: fetched at every point, uncut, never idle. -/
theorem found0_2 (c : Dev nD) (t : Fin cfg0.N) (d) : (dat0 V c).before 2 t d = iblk0 V c 2 t := by
  have hkeep : ∀ s, (cfg0.win 2).cut (cfg0.grid.coords s) ((dat0 V c).after 2 s) = (dat0 V c).blockOf 2 s := fun s => by
    rw [after0_2]; rfl
  rw [(dat0 V c).before_in_eq_fetched 2 rfl (fun _ => rfl) (fun _ _ _ => rfl) hkeep t d]
  rfl

/-! ## The one store covers the result window's buffer -/

/-- The body's single store is through the whole-buffer rectangle, so every index of the buffer lies in it. -/
theorem cover0_3 (p : Vec F S512x1024 .bf16) (y : S512x1024.Idx) :
    ∃ pc ∈ ([⟨rX, p⟩] : List (View.Piece (Elt F) S512x1024 .bf16)), y ∈ pc.1.set :=
  View.cover_of_tiled [⟨rX, p⟩] S512x1024.size (by rfl) y

/-! ## The body's run -/

set_option maxHeartbeats 1000000 in
/-- The kernel body on whole buffers. Given `x`'s, the weight's and the bias's buffers at contents it reads as
    `x0`, `x1`, `x2` and the result's buffer at anything, it runs to any continuation that accepts the three inputs
    unchanged and the result's buffer at `out0_3 x0 x1 x2`. The three whole-buffer loads read `x0`, `x1`, `x2`
    through the rectangles; the load of the result's buffer reads a value the body never uses; the one store
    writes the payload over the whole buffer, so reading it back gives the store's canonical form. -/
theorem run_kernel0 (c : Dev nD) (E : Set ℕ) (i : grid0.Coords)
    (arg2 : Memref sig .tc .vmem S512x1024 .f32) (harg2 : arg2.IsWhole)
    (arg3 : Memref sig .tc .vmem S1024x1024 .bf16) (harg3 : arg3.IsWhole)
    (arg4 : Memref sig .tc .vmem S1x1024 .f32) (harg4 : arg4.IsWhole)
    (arg5 : Memref sig .tc .vmem S512x1024 .bf16) (harg5 : arg5.IsWhole)
    (x0 : Vec F S512x1024 .f32) (x1 : Vec F S1024x1024 .bf16) (x2 : Vec F S1x1024 .f32) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ (iprop(owns (c : Thread nD τ) arg2 fullShare x0 ∗ owns (c : Thread nD τ) arg3 fullShare x1
            ∗ owns (c : Thread nD τ) arg4 fullShare x2 ∗ owns (c : Thread nD τ) arg5 fullShare (out0_3 x0 x1 x2)) -∗ K ⟨⟩))
      ⊢ wp frame (wpE (defs₀ (F := F)) Variants.none c none) E
          (cc0__linear_kernel i arg2 harg2 arg3 harg3 arg4 harg4 arg5 harg5) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr
    · ipureintro; rfl
    · iexact H0
  isplitl [H1]
  · iexists f1; isplitr
    · ipureintro; rfl
    · iexact H1
  isplitl [H2]
  · iexists f2; isplitr
    · ipureintro; rfl
    · iexact H2
  iexists _; isplitr
  rotate_left
  · iexact H3
  ipureintro
  exact View.read_writes_eq_canon _ _ _ (cover0_3 _)

/-! ## The obligation at a point -/

/-- What the pipeline hands the body at point `t`: the launch's invariant, nothing owed, and each window's current
    buffer whole at what the point finds there. -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What the body hands back: the same invariant, nothing owed, and each buffer at what the proof data says the
    body leaves in it. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at point `t`. The three input buffers hold the point's blocks (`found0_0` … `found0_2`), so the
    kernel's run applies with the result's buffer at whatever it held; the invariant and the owed amounts are the
    same before and after (neither depends on the point) and pass around the run untouched. -/
theorem run_body0 (c : Dev nD) (t : Fin cfg0.N) :
    pre0 V c t ⊢ wp frame (wpE (defs₀ (F := F)) Variants.none c none) Set.univ (bodyAt0 t) (fun _ => post0 V c t) := by
  unfold pre0 post0 bodyAt0
  simp only [found0_0, found0_1, found0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (run_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation at every point of the launch. -/
theorem body_obligation0 (c : Dev nD) : BodyObligation (dat0 (F := F) V c) (defs₀ (F := F)) Variants.none () Set.univ := by
  intro t
  rw [bigSep_W0, bigSep_W0]
  exact run_body0 V c t

end Cert.Kernel.Hand

end
-- ==== Proof.K.FlashRuns.lean ====
/-
  The attention kernel's body, case by case.

  The second launch walks a grid of 8 query tiles × 16 key/value blocks. Its body branches twice on the block number
  alone: at block 0 it resets the running maximum to `-∞`, the running denominator and numerator to `0`, and stores the
  query tile scaled by `1/32`; at block 15 it divides numerator by denominator, projects through the output weight, adds
  the bias and stores the output tile. So a grid point is in one of three cases — FIRST block, a MIDDLE block, LAST
  block — decided by its position modulo 16 (`hcond1_0`, `hcond1_1`). In every case the body updates the four scratch
  buffers (maximum, denominator, numerator; the scaled query tile is stored in the first case only and read in all);
  the output window's buffer is stored in the last case only and left untouched — the window is idle — in the others.

  This module fixes the vocabulary the three cases share: the conditions in closed form, where the output window is idle,
  the buffers the body is called with, and the launch's between-points resources when nothing is known of the scratch.
-/
import proofs.«422776_j21586505630422_3_alg».proof.Proof.Gen.Kernel.Launch
import proofs.«422776_j21586505630422_3_alg».proof.Proof.Gen.Kernel.Skeleton
import proofs.«422776_j21586505630422_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two branch conditions, in closed form over the grid -/

/-- "This is block 0": the condition of the body's first `if`, from the grid coordinates. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)

/-- "This is block 15": the condition of the body's second `if`. -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Away from block 15 the output window is idle and is not written back; at block 15 it is live. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel

/-! ## The buffers the body is called with -/

abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x1024 .f32 := win1_5.stage (cfg1.slots t 5)
abbrev hs1_5 (t : Fin cfg1.N) : (ms1_5 t).IsWhole := hstage1_5 ((cfg1.slots t 5).cast nbuf1_5)
/-- The four scratch buffers: running maximum, running denominator, running numerator, scaled query tile. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1024 .f32 := Memref.whole cc1_scratch2
abbrev scM1_3 : Memref sig .tc .vmem S1024x1024 .bf16 := Memref.whole cc1_scratch3
/-- One staging buffer of the output window, and the scratch buffers, as views: contents are stated through them. -/
abbrev VO1_5 : View sig .tc .vmem S1024x1024 .f32 := (Memref.whole cc1_stg5_0 : Memref sig .tc .vmem S1024x1024 .f32).view
abbrev VS1_0 : View sig .tc .vmem S1024x1 .f32 := scM1_0.view
abbrev VS1_1 : View sig .tc .vmem S1024x1 .f32 := scM1_1.view
abbrev VS1_2 : View sig .tc .vmem S1024x1024 .f32 := scM1_2.view
abbrev VS1_3 : View sig .tc .vmem S1024x1024 .bf16 := scM1_3.view

/-- The scoped buffers this launch never touches (the first launch's staging buffers), each at some contents. -/
def Rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

/-- What the launch hands the body between points when nothing is known of the scratch: the untouched buffers, the four
    scratch buffers at some contents, the generator register at some state. -/
theorem PhiA1_eq (c : Dev nD) :
    (Pipeline.ΦA spec1 c : sProp 𝕄)
      ⊣⊢ iprop(Rest1 (F := F) c ∗ (∃ d, owns (c : Thread nD τ) scM1_0 fullShare d) ∗ (∃ d, owns (c : Thread nD τ) scM1_1 fullShare d)
          ∗ (∃ d, owns (c : Thread nD τ) scM1_2 fullShare d) ∗ (∃ d, owns (c : Thread nD τ) scM1_3 fullShare d) ∗ (∃ r, prngReg c r)) := by
  -- the class's invariant is the twelve scoped buffers, each at some contents, then the generator register; a whole
  -- buffer owned at some contents is its cells at some contents, so the two sides hold the same thirteen resources,
  -- grouped differently
  unfold Pipeline.ΦA Rest1; rw [scopedRest1_eq]; simp only [scM1_0, scM1_1, scM1_2, scM1_3, owns_whole]
  constructor
  · iintro ⟨⟨H0, H1, H2, H3, H4, H5, H6, H7, S0, S1, S2, S3⟩, Hg⟩
    iframe
  · iintro ⟨⟨H0, H1, H2, H3, H4, H5, H6, H7⟩, S0, S1, S2, S3, Hg⟩
    iframe

end Cert.Kernel.Hand

end
-- ==== Proof.K.FlashRunA.lean ====
/-
  The attention kernel's body in its FIRST-block case: the body's triple on whole buffers — the pieces each written buffer ends
  with, found by running the body symbolically, with the proof that the body runs from the buffers at the stated contents
  to the continuation holding the inputs as they were and each written buffer with its pieces written.
-/
import proofs.«422776_j21586505630422_3_alg».proof.Proof.K.FlashRuns

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- FIRST block (`cond1_0`, not `cond1_1`): every scratch buffer is stored whole before it is read, so they are taken at
    anything; the output buffer is handed back untouched. -/
noncomputable def kernelRun1_A (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .bf16) (harg11 : arg11.IsWhole) (hc0 : cond1_0 i) (hc1 : ¬cond1_1 i)
    (x0 : Vec F S1024x1024 .bf16) (x1 : Vec F S512x1024 .bf16) (x2 : Vec F S512x1024 .bf16) (x3 : Vec F S1024x1024 .bf16) (x4 : Vec F S1x1024 .f32) :
    Σ' (LS0 : List (View.Piece (Elt F) S1024x1 .f32)) (LS1 : List (View.Piece (Elt F) S1024x1 .f32)) (LS2 : List (View.Piece (Elt F) S1024x1024 .f32)), { LS3 : List (View.Piece (Elt F) S1024x1024 .bf16) //
      ∀ (xi5 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
            ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc1__flash_fused_kernel i arg2 harg2 arg3 harg3 arg4 harg4 arg5 harg5 arg6 harg6 arg7 harg7 arg8 harg8 arg9 harg9 arg10 harg10 arg11 harg11) K } := by
  -- the four piece lists are the witnesses the symbolic run finds: left open here, fixed when each written buffer is handed
  -- to the continuation
  refine ⟨?_, ?_, ?_, ?_, fun xi5 E K => ?run⟩
  case run =>
    -- the printed function and its part of statements 1–60 are their sequences of memory operations over named payloads
    simp only [cc1__flash_fused_kernel_eq_skeleton]; unfold cc1__flash_fused_kernel_skel
    simp only [k1_part1_eq_skeleton]
    -- a buffer owned at contents `x` is its cells at some `f` that reads back as `x`; a whole buffer's `f` is then the
    -- unread of `x`
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    -- block 0: the first branch is taken (the three accumulators are reset and the scaled query tile stored, each store
    -- covering its whole buffer, so what the scratch held before is never read), the second is not (nothing touches the
    -- output buffer, the weight or the bias)
    sl_exec (disch := first | exact hc0 | exact hc1)
    sl_step
    iapply Hk
    -- the six window buffers go back at the contents they came with
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    -- the scratch buffers go back with their stores written, the later store first: maximum, denominator and numerator were
    -- stored twice (reset, then updated), the query tile once
    isplitl [HS0]
    · iexists _; iexact HS0
    isplitl [HS1]
    · iexists _; iexact HS1
    isplitl [HS2]
    · iexists _; iexact HS2
    iexists _; iexact HS3

end Cert.Kernel.Hand

end
-- ==== Proof.K.FlashRunB.lean ====
/-
  The attention kernel's body in its MIDDLE-block case: the body's triple on whole buffers — the pieces each written buffer ends
  with, found by running the body symbolically, with the proof that the body runs from the buffers at the stated contents
  to the continuation holding the inputs as they were and each written buffer with its pieces written.
-/
import proofs.«422776_j21586505630422_3_alg».proof.Proof.K.FlashRuns

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
/-- A MIDDLE block (neither condition): the scratch buffers are taken at what the point before left (`xs·`); the scaled
    query tile is only read; the output buffer is handed back untouched. -/
noncomputable def kernelRun1_B (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .bf16) (harg11 : arg11.IsWhole) (hc0 : ¬cond1_0 i) (hc1 : ¬cond1_1 i)
    (x0 : Vec F S1024x1024 .bf16) (x1 : Vec F S512x1024 .bf16) (x2 : Vec F S512x1024 .bf16) (x3 : Vec F S1024x1024 .bf16) (x4 : Vec F S1x1024 .f32) (xs0 : Vec F S1024x1 .f32) (xs1 : Vec F S1024x1 .f32) (xs2 : Vec F S1024x1024 .f32) (xs3 : Vec F S1024x1024 .bf16) :
    Σ' (LS0 : List (View.Piece (Elt F) S1024x1 .f32)) (LS1 : List (View.Piece (Elt F) S1024x1 .f32)), { LS2 : List (View.Piece (Elt F) S1024x1024 .f32) //
      ∀ (xi5 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
            ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ owns (c : Thread nD τ) arg11 fullShare xs3) -∗ K ⟨⟩))
          ⊢ wp frame (wpE (defs₀ (F := F)) Variants.none c none) E (cc1__flash_fused_kernel i arg2 harg2 arg3 harg3 arg4 harg4 arg5 harg5 arg6 harg6 arg7 harg7 arg8 harg8 arg9 harg9 arg10 harg10 arg11 harg11) K } := by
  refine ⟨?_, ?_, ?_, fun xi5 E K => ?run⟩
  case run =>
    simp only [cc1__flash_fused_kernel_eq_skeleton]; unfold cc1__flash_fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hfs0; obtain rfl := harg9.eq_unread hfs1; obtain rfl := harg10.eq_unread hfs2
    obtain rfl := harg11.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]
    · iexists _; iexact HS0
    isplitl [HS1]
    · iexists _; iexact HS1
    isplitl [HS2]
    · iexists _; iexact HS2
    iexists _; isplitr; · ipureintro; exact harg11.read_unread _
    iexact HS3

end Cert.Kernel.Hand

end
-- ==== Proof.K.FlashRunC.lean ====
/-
  The attention kernel's body in its LAST-block case: the body's triple on whole buffers — the pieces each written buffer ends
  with, found by running the body symbolically, with the proof that the body runs from the buffers at the stated contents
  to the continuation holding the inputs as they were and each written buffer with its pieces written.
-/
import proofs.«422776_j21586505630422_3_alg».proof.Proof.K.FlashRuns

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The LAST block (`cond1_1`, not `cond1_0`): as a middle block, and the output buffer, taken at anything, ends with
    its pieces written. -/
noncomputable def kernelRun1_C (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .bf16) (harg11 : arg11.IsWhole) (hc0 : ¬cond1_0 i) (hc1 : cond1_1 i)
    (x0 : Vec F S1024x1024 .bf16) (x1 : Vec F S512x1024 .bf16) (x2 : Vec F S512x1024 .bf16) (x3 : Vec F S1024x1024 .bf16) (x4 : Vec F S1x1024 .f32) (xs0 : Vec F S1024x1 .f32) (xs1 : Vec F S1024x1 .f32) (xs2 : Vec F S1024x1024 .f32) (xs3 : Vec F S1024x1024 .bf16) :
    Σ' (L5 : List (View.Piece (Elt F) S1024x1024 .f32)) (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
            ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ owns (c : Thread nD τ) arg11 fullShare xs3) -∗ K ⟨⟩))
          ⊢ wp frame (wpE (defs₀ (F := F)) Variants.none c none) E (cc1__flash_fused_kernel i arg2 harg2 arg3 harg3 arg4 harg4 arg5 harg5 arg6 harg6 arg7 harg7 arg8 harg8 arg9 harg9 arg10 harg10 arg11 harg11) K } := by
  -- The piece lists are left open and found by the run itself: each is fixed at the moment the written buffer is handed
  -- to the continuation. With the first branch not taken and the second taken, the body reads the key and value blocks
  -- and the carried scratch, stores the new denominator, numerator and maximum (one piece each), then reads numerator
  -- and denominator back from those stores, the output weight and the bias, and stores the output tile (one piece).
  -- The inputs and the scaled query tile are only read, so they come back at the contents they were given at.
  refine ⟨?_, ?_, ?_, ?_, fun E K => ?run⟩
  case run =>
    rw [cc1__flash_fused_kernel_eq_skeleton]; unfold cc1__flash_fused_kernel_skel
    rw [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2
    obtain rfl := harg5.eq_unread hf3; obtain rfl := harg6.eq_unread hf4
    obtain rfl := harg8.eq_unread hfs0; obtain rfl := harg9.eq_unread hfs1; obtain rfl := harg10.eq_unread hfs2
    obtain rfl := harg11.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    isplitl [HS1]; · iexists _; iexact HS1
    isplitl [HS2]; · iexists _; iexact HS2
    iexists _; isplitr; · ipureintro; exact harg11.read_unread _
    iexact HS3

end Cert.Kernel.Hand

end
-- ==== Proof.K.FlashOuts.lean ====
/-
  What the attention kernel's buffers hold after each grid point.

  The state the kernel carries from point to point is the contents of its four scratch buffers — running maximum,
  running denominator, running numerator, scaled query tile — and, at the last block of a query tile, what it stored in
  the output window's buffer. Per case (first / middle / last block) those contents are the pieces the case's run
  found, read back; each list of pieces covers its buffer, so reading back needs no knowledge of what the buffer
  held before. `outsAt1` strings the cases along the grid: the first-block case starts afresh from the point's query
  block, the other two continue from what the point before left.
-/
import proofs.«422776_j21586505630422_3_alg».proof.Proof.K.FlashRunA
import proofs.«422776_j21586505630422_3_alg».proof.Proof.K.FlashRunB
import proofs.«422776_j21586505630422_3_alg».proof.Proof.K.FlashRunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the core's buffer contents when the launch is entered
variable (V : (c : Dev nD) → (b : Ref sig .tc) → Buf (Elt F) ((c : Thread nD τ).loc b))

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The carried state: the output window's buffer, then the four scratch buffers (maximum, denominator, numerator,
    scaled query tile). -/
abbrev St1 (F : FTy → Type) [FloatOps F] : Type := Vec F S1024x1024 .f32 × Vec F S1024x1 .f32 × Vec F S1024x1 .f32 × Vec F S1024x1024 .f32 × Vec F S1024x1024 .bf16

/-- A placeholder for the output buffer's contents at the points that do not store into it (nothing consults it: the
    window is idle there and is not written back). -/
def outJunk : Vec F S1024x1024 .f32 := VO1_5.read (Elt F) (VO1_5.junk)

/-! ## The pieces cover their buffers -/

section Covers
variable (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .bf16) (harg11 : arg11.IsWhole)
  (x0 : Vec F S1024x1024 .bf16) (x1 : Vec F S512x1024 .bf16) (x2 : Vec F S512x1024 .bf16) (x3 : Vec F S1024x1024 .bf16) (x4 : Vec F S1x1024 .f32)

theorem scover1_A_0 (hc0 : cond1_0 i) (hc1 : ¬cond1_1 i) (y : S1024x1.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3 x4).1, y ∈ pc.1.set := by
  exact View.cover_of_tiledL (kernelRun1_A c i arg2 harg2 arg3 harg3 arg4 harg4 arg5 harg5 arg6 harg6 arg7 harg7 arg8 harg8 arg9 harg9 arg10 harg10 arg11 harg11 hc0 hc1 x0 x1 x2 x3 x4).1 S1024x1.size (by sl_kernel_rfl) y
theorem scover1_A_1 (hc0 : cond1_0 i) (hc1 : ¬cond1_1 i) (y : S1024x1.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3 x4).2.1, y ∈ pc.1.set := by
  exact View.cover_of_tiledL (kernelRun1_A c i arg2 harg2 arg3 harg3 arg4 harg4 arg5 harg5 arg6 harg6 arg7 harg7 arg8 harg8 arg9 harg9 arg10 harg10 arg11 harg11 hc0 hc1 x0 x1 x2 x3 x4).2.1 S1024x1.size (by sl_kernel_rfl) y
theorem scover1_A_2 (hc0 : cond1_0 i) (hc1 : ¬cond1_1 i) (y : S1024x1024.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3 x4).2.2.1, y ∈ pc.1.set := by
  exact View.cover_of_tiledL (kernelRun1_A c i arg2 harg2 arg3 harg3 arg4 harg4 arg5 harg5 arg6 harg6 arg7 harg7 arg8 harg8 arg9 harg9 arg10 harg10 arg11 harg11 hc0 hc1 x0 x1 x2 x3 x4).2.2.1 S1024x1024.size (by sl_kernel_rfl) y
theorem scover1_A_3 (hc0 : cond1_0 i) (hc1 : ¬cond1_1 i) (y : S1024x1024.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3 x4).2.2.2.1, y ∈ pc.1.set := by
  exact View.cover_of_tiledL (kernelRun1_A c i arg2 harg2 arg3 harg3 arg4 harg4 arg5 harg5 arg6 harg6 arg7 harg7 arg8 harg8 arg9 harg9 arg10 harg10 arg11 harg11 hc0 hc1 x0 x1 x2 x3 x4).2.2.2.1 S1024x1024.size (by sl_kernel_rfl) y

variable (xs0 : Vec F S1024x1 .f32) (xs1 : Vec F S1024x1 .f32) (xs2 : Vec F S1024x1024 .f32) (xs3 : Vec F S1024x1024 .bf16)

theorem scover1_B_0 (hc0 : ¬cond1_0 i) (hc1 : ¬cond1_1 i) (y : S1024x1.Idx) :
    ∃ pc ∈ (kernelRun1_B c i arg2 harg2 arg3 harg3 arg4 harg4 arg5 harg5 arg6 harg6 arg7 harg7 arg8 harg8 arg9 harg9 arg10 harg10 arg11 harg11 hc0 hc1 x0 x1 x2 x3 x4 xs0 xs1 xs2 xs3).1, y ∈ pc.1.set := by
  exact View.cover_of_tiledL (kernelRun1_B c i arg2 harg2 arg3 harg3 arg4 harg4 arg5 harg5 arg6 harg6 arg7 harg7 arg8 harg8 arg9 harg9 arg10 harg10 arg11 harg11 hc0 hc1 x0 x1 x2 x3 x4 xs0 xs1 xs2 xs3).1 S1024x1.size (by sl_kernel_rfl) y
theorem scover1_B_1 (hc0 : ¬cond1_0 i) (hc1 : ¬cond1_1 i) (y : S1024x1.Idx) :
    ∃ pc ∈ (kernelRun1_B c i arg2 harg2 arg3 harg3 arg4 harg4 arg5 harg5 arg6 harg6 arg7 harg7 arg8 harg8 arg9 harg9 arg10 harg10 arg11 harg11 hc0 hc1 x0 x1 x2 x3 x4 xs0 xs1 xs2 xs3).2.1, y ∈ pc.1.set := by
  exact View.cover_of_tiledL (kernelRun1_B c i arg2 harg2 arg3 harg3 arg4 harg4 arg5 harg5 arg6 harg6 arg7 harg7 arg8 harg8 arg9 harg9 arg10 harg10 arg11 harg11 hc0 hc1 x0 x1 x2 x3 x4 xs0 xs1 xs2 xs3).2.1 S1024x1.size (by sl_kernel_rfl) y
theorem scover1_B_2 (hc0 : ¬cond1_0 i) (hc1 : ¬cond1_1 i) (y : S1024x1024.Idx) :
    ∃ pc ∈ (kernelRun1_B c i arg2 harg2 arg3 harg3 arg4 harg4 arg5 harg5 arg6 harg6 arg7 harg7 arg8 harg8 arg9 harg9 arg10 harg10 arg11 harg11 hc0 hc1 x0 x1 x2 x3 x4 xs0 xs1 xs2 xs3).2.2.1, y ∈ pc.1.set := by
  exact View.cover_of_tiledL (kernelRun1_B c i arg2 harg2 arg3 harg3 arg4 harg4 arg5 harg5 arg6 harg6 arg7 harg7 arg8 harg8 arg9 harg9 arg10 harg10 arg11 harg11 hc0 hc1 x0 x1 x2 x3 x4 xs0 xs1 xs2 xs3).2.2.1 S1024x1024.size (by sl_kernel_rfl) y

theorem cover1_C_5 (hc0 : ¬cond1_0 i) (hc1 : cond1_1 i) (y : S1024x1024.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 xs0 xs1 xs2 xs3).1, y ∈ pc.1.set := by
  exact View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 xs0 xs1 xs2 xs3).1 S1024x1024.size (by sl_kernel_rfl) y
theorem scover1_C_0 (hc0 : ¬cond1_0 i) (hc1 : cond1_1 i) (y : S1024x1.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 xs0 xs1 xs2 xs3).2.1, y ∈ pc.1.set := by
  exact View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 xs0 xs1 xs2 xs3).2.1 S1024x1.size (by sl_kernel_rfl) y
theorem scover1_C_1 (hc0 : ¬cond1_0 i) (hc1 : cond1_1 i) (y : S1024x1.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 xs0 xs1 xs2 xs3).2.2.1, y ∈ pc.1.set := by
  exact View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 xs0 xs1 xs2 xs3).2.2.1 S1024x1.size (by sl_kernel_rfl) y
theorem scover1_C_2 (hc0 : ¬cond1_0 i) (hc1 : cond1_1 i) (y : S1024x1024.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 xs0 xs1 xs2 xs3).2.2.2.1, y ∈ pc.1.set := by
  exact View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 xs0 xs1 xs2 xs3).2.2.2.1 S1024x1024.size (by sl_kernel_rfl) y

end Covers

/-! ## What each case leaves -/

/-- After a FIRST-block point: the scratch buffers at the case's pieces read back; the output buffer untouched. -/
def stA (c : Dev nD) (t : Fin cfg1.N) (hc0 : cond1_0 (grid1.coords t)) (hc1 : ¬cond1_1 (grid1.coords t)) : St1 F :=
  let R := kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t) (iblk1 V c 4 t)
  (outJunk,
   VS1_0.read (Elt F) (VS1_0.writes (Elt F) (VS1_0.junk) R.1),
   VS1_1.read (Elt F) (VS1_1.writes (Elt F) (VS1_1.junk) R.2.1),
   VS1_2.read (Elt F) (VS1_2.writes (Elt F) (VS1_2.junk) R.2.2.1),
   VS1_3.read (Elt F) (VS1_3.writes (Elt F) (VS1_3.junk) R.2.2.2.1))

/-- After a MIDDLE-block point, over what the point before left: maximum, denominator and numerator at the case's pieces
    read back; the scaled query tile as it was; the output buffer untouched. -/
def stB (c : Dev nD) (t : Fin cfg1.N) (hc0 : ¬cond1_0 (grid1.coords t)) (hc1 : ¬cond1_1 (grid1.coords t)) (p : St1 F) : St1 F :=
  let R := kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t) (iblk1 V c 4 t) p.2.1 p.2.2.1 p.2.2.2.1 p.2.2.2.2
  (outJunk,
   VS1_0.read (Elt F) (VS1_0.writes (Elt F) (VS1_0.junk) R.1),
   VS1_1.read (Elt F) (VS1_1.writes (Elt F) (VS1_1.junk) R.2.1),
   VS1_2.read (Elt F) (VS1_2.writes (Elt F) (VS1_2.junk) R.2.2.1),
   p.2.2.2.2)

/-- After a LAST-block point, over what the point before left: as a middle block, and the output buffer at the case's
    pieces read back. -/
def stC (c : Dev nD) (t : Fin cfg1.N) (hc0 : ¬cond1_0 (grid1.coords t)) (hc1 : cond1_1 (grid1.coords t)) (p : St1 F) : St1 F :=
  let R := kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t) (iblk1 V c 4 t) p.2.1 p.2.2.1 p.2.2.2.1 p.2.2.2.2
  (VO1_5.read (Elt F) (VO1_5.writes (Elt F) (VO1_5.junk) R.1),
   VS1_0.read (Elt F) (VS1_0.writes (Elt F) (VS1_0.junk) R.2.1),
   VS1_1.read (Elt F) (VS1_1.writes (Elt F) (VS1_1.junk) R.2.2.1),
   VS1_2.read (Elt F) (VS1_2.writes (Elt F) (VS1_2.junk) R.2.2.2.1),
   p.2.2.2.2)

/-! ## Point by point -/

/-- The carried state after the body at position `n`: the case the position selects (its remainder modulo 16), the
    first-block case afresh, the others over what position `n - 1` left. -/
def outsAt1 (c : Dev nD) : (n : ℕ) → n < cfg1.N → St1 F
  | 0, hn => stA V c ⟨0, hn⟩ ((hcond1_0 ⟨0, hn⟩).mpr (Nat.zero_mod _)) (fun h => by have := (hcond1_1 ⟨0, hn⟩).mp h; simp at this)
  | n + 1, hn =>
    if h0 : (n + 1) % 16 = 0 then
      stA V c ⟨n + 1, hn⟩ ((hcond1_0 ⟨n + 1, hn⟩).mpr h0) (fun h => by have := (hcond1_1 ⟨n + 1, hn⟩).mp h; dsimp only at this; omega)
    else if h1 : (n + 1) % 16 = 15 then
      stC V c ⟨n + 1, hn⟩ (fun h => h0 ((hcond1_0 ⟨n + 1, hn⟩).mp h)) ((hcond1_1 ⟨n + 1, hn⟩).mpr h1) (outsAt1 c n (Nat.lt_of_succ_lt hn))
    else
      stB V c ⟨n + 1, hn⟩ (fun h => h0 ((hcond1_0 ⟨n + 1, hn⟩).mp h)) (fun h => h1 ((hcond1_1 ⟨n + 1, hn⟩).mp h)) (outsAt1 c n (Nat.lt_of_succ_lt hn))

/-- At a first-block point: that case's contents. -/
theorem outsAt1_A (c : Dev nD) (t : Fin cfg1.N) (h0 : t.val % 16 = 0) (hc0 : cond1_0 (grid1.coords t)) (hc1 : ¬cond1_1 (grid1.coords t)) :
    outsAt1 V c t.val t.isLt = stA V c t hc0 hc1 := by
  -- the two sides differ only in the proofs of the case's conditions
  obtain ⟨n, hn⟩ := t
  cases n with
  | zero => exact rfl
  | succ n => exact (dif_pos h0).trans rfl

/-- At a middle-block point: that case's contents over what the point before left. -/
theorem outsAt1_B (c : Dev nD) (t : Fin cfg1.N) (h0 : ¬t.val % 16 = 0) (h1 : ¬t.val % 16 = 15) (hc0 : ¬cond1_0 (grid1.coords t)) (hc1 : ¬cond1_1 (grid1.coords t)) :
    outsAt1 V c t.val t.isLt = stB V c t hc0 hc1 (outsAt1 V c (t.val - 1) (Nat.lt_of_le_of_lt (Nat.sub_le _ _) t.isLt)) := by
  -- position 0 is a first block; at a successor the position before is its predecessor
  obtain ⟨n, hn⟩ := t
  cases n with
  | zero => exact absurd (Nat.zero_mod _) h0
  | succ n => exact (dif_neg h0).trans ((dif_neg h1).trans rfl)

/-- At a last-block point: that case's contents over what the point before left. -/
theorem outsAt1_C (c : Dev nD) (t : Fin cfg1.N) (h0 : ¬t.val % 16 = 0) (h1 : t.val % 16 = 15) (hc0 : ¬cond1_0 (grid1.coords t)) (hc1 : cond1_1 (grid1.coords t)) :
    outsAt1 V c t.val t.isLt = stC V c t hc0 hc1 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

end Cert.Kernel.Hand

end
-- ==== Proof.K.Flash.lean ====
/-
  The attention launch's proof data and its body's obligation.

  Between two grid points the launch holds, beside the buffers it never touches and the generator register, its four
  scratch buffers: before the first point at anything, afterwards at what the point before left (`outsAt1`'s scratch
  components) — that is what lets a middle or last block continue the running maximum, denominator and numerator. Three
  of the launch's input windows (query, key and value blocks) look into ONE array, the first launch's result: the launch
  holds that array three times, at three shares that together make the whole. The output window is written back at the
  last block of each query tile only and is idle elsewhere. With that, the body's obligation at a point is the run of
  the case the point is in.
-/
import proofs.«422776_j21586505630422_3_alg».proof.Proof.K.FlashOuts

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The launch's invariant before position `n`: before the first point nothing is known of the scratch; afterwards the
    four scratch buffers hold what the point before left. -/
def PhiS1 (c : Dev nD) : (n : ℕ) → n ≤ cfg1.N → sProp 𝕄
  | 0, _ => Pipeline.ΦA spec1 c
  | n + 1, hn => iprop(Rest1 (F := F) c ∗ owns (c : Thread nD τ) scM1_0 fullShare (outsAt1 V c n hn).2.1
      ∗ owns (c : Thread nD τ) scM1_1 fullShare (outsAt1 V c n hn).2.2.1 ∗ owns (c : Thread nD τ) scM1_2 fullShare (outsAt1 V c n hn).2.2.2.1
      ∗ owns (c : Thread nD τ) scM1_3 fullShare (outsAt1 V c n hn).2.2.2.2 ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(Rest1 (F := F) c ∗ owns (c : Thread nD τ) scM1_0 fullShare (outsAt1 V c n hn).2.1
      ∗ owns (c : Thread nD τ) scM1_1 fullShare (outsAt1 V c n hn).2.2.1 ∗ owns (c : Thread nD τ) scM1_2 fullShare (outsAt1 V c n hn).2.2.2.1
      ∗ owns (c : Thread nD τ) scM1_3 fullShare (outsAt1 V c n hn).2.2.2.2 ∗ (∃ r, prngReg c r)) := rfl

theorem PhiS1_pos (c : Dev nD) (n : ℕ) (h : n ≤ cfg1.N) (hz : n ≠ 0) :
    PhiS1 V c n h = iprop(Rest1 (F := F) c ∗ owns (c : Thread nD τ) scM1_0 fullShare (outsAt1 V c (n - 1) (by omega)).2.1
      ∗ owns (c : Thread nD τ) scM1_1 fullShare (outsAt1 V c (n - 1) (by omega)).2.2.1 ∗ owns (c : Thread nD τ) scM1_2 fullShare (outsAt1 V c (n - 1) (by omega)).2.2.2.1
      ∗ owns (c : Thread nD τ) scM1_3 fullShare (outsAt1 V c (n - 1) (by omega)).2.2.2.2 ∗ (∃ r, prngReg c r)) := by
  cases n with
  | zero => exact absurd rfl hz
  | succ n => rfl

/-- The launch's proof data on core `c`: the arrays as the launch finds them; after the body each input's buffer at its
    block and the output's at `outsAt1`'s first component; the invariant `PhiS1`; the array the query, key and value
    windows share held at three shares that make the whole, every other array whole; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q w := match w with
    | ⟨0, _⟩ => fullShare.left
    | ⟨1, _⟩ => fullShare.right.left
    | ⟨2, _⟩ => fullShare.right.right
    | ⟨3, _⟩ => fullShare
    | ⟨4, _⟩ => fullShare
    | ⟨5, _⟩ => fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

/-! ## What the body is handed and what it hands back -/

/-- An input window's staging buffer holds the window's block at every point, fetched there or not: where it is not
    fetched the block index has not moved and the body left the block in place. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)

/-- Whatever the position, the invariant holds the scratch buffers at SOME contents: the contents it names after the
    first point can be forgotten. -/
theorem PhiS1_forget (c : Dev nD) (n : ℕ) (h : n ≤ cfg1.N) :
    PhiS1 V c n h ⊢ iprop(Rest1 (F := F) c ∗ (∃ d, owns (c : Thread nD τ) scM1_0 fullShare d) ∗ (∃ d, owns (c : Thread nD τ) scM1_1 fullShare d)
      ∗ (∃ d, owns (c : Thread nD τ) scM1_2 fullShare d) ∗ (∃ d, owns (c : Thread nD τ) scM1_3 fullShare d) ∗ (∃ r, prngReg c r)) := by
  cases n with
  | zero => exact (PhiA1_eq c).1
  | succ n =>
    rw [PhiS1_succ]
    iintro ⟨HR, HS0, HS1, HS2, HS3, Hg⟩
    isplitl [HR]; · iexact HR
    isplitl [HS0]; · iexists _; iexact HS0
    isplitl [HS1]; · iexists _; iexact HS1
    isplitl [HS2]; · iexists _; iexact HS2
    isplitl [HS3]; · iexists _; iexact HS3
    iexact Hg

/-- The same beside anything else the core holds: what follows from the scratch buffers at some contents follows from
    the invariant. -/
theorem PhiS1_forget_frame (c : Dev nD) (n : ℕ) (h : n ≤ cfg1.N) (Q R : sProp 𝕄)
    (hR : iprop((Rest1 (F := F) c ∗ (∃ d, owns (c : Thread nD τ) scM1_0 fullShare d) ∗ (∃ d, owns (c : Thread nD τ) scM1_1 fullShare d)
      ∗ (∃ d, owns (c : Thread nD τ) scM1_2 fullShare d) ∗ (∃ d, owns (c : Thread nD τ) scM1_3 fullShare d) ∗ (∃ r, prngReg c r)) ∗ Q) ⊢ R) :
    iprop(PhiS1 V c n h ∗ Q) ⊢ R :=
  (sep_mono_l (PhiS1_forget V c n h)).trans hR

/-- What the body is called with at point `t`: the invariant, what the core owes, each window's current buffer. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- What the body returns at point `t`. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

/-- An input window is live everywhere: the body leaves its buffer at the block. -/
theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]
theorem leaves1_3 (c : Dev nD) (t : Fin cfg1.N) : (dat1 V c).leavesExact 3 t = owns (c : Thread nD τ) (ms1_3 t) fullShare (iblk1 V c 3 t) := by
  unfold Dat.leavesExact; rw [liveAt1_3 t, after1_3]
theorem leaves1_4 (c : Dev nD) (t : Fin cfg1.N) : (dat1 V c).leavesExact 4 t = owns (c : Thread nD τ) (ms1_4 t) fullShare (iblk1 V c 4 t) := by
  unfold Dat.leavesExact; rw [liveAt1_4 t, after1_4]
/-- The output window away from the last block: idle and not written back, its buffer comes back as it was found. -/
theorem leaves1_5_idle (c : Dev nD) (t : Fin cfg1.N) (hc1 : ¬cond1_1 (grid1.coords t)) :
    (dat1 V c).leavesExact 5 t = iprop(∃ d, owns (c : Thread nD τ) (ms1_5 t) fullShare ((dat1 V c).before 5 t d)) :=
  Dat.leavesExact_idle (dat1 V c) 5 t (idleAt1_5 t hc1) (noFlush1_5 t hc1)
/-- The output window at the last block: live, its buffer at what the point stored. -/
theorem leaves1_5_live (c : Dev nD) (t : Fin cfg1.N) (hc1 : cond1_1 (grid1.coords t)) :
    (dat1 V c).leavesExact 5 t = owns (c : Thread nD τ) (ms1_5 t) fullShare (outsAt1 V c t.val t.isLt).1 := by
  unfold Dat.leavesExact; rw [liveAt1_5 t hc1, after1_5]

set_option maxHeartbeats 4800000 in
/-- The body at any point. Its position modulo 16 says which case it is in, and that case's run applies: the inputs'
    buffers hold their blocks; the invariant hands over the scratch buffers at what the point before left (at anything
    before the first point, which is a first block and asks no more) and takes them back at this point's contents, each
    written buffer read back through its covering pieces; the untouched buffers, the generator register and what the core
    owes pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3, leaves1_4]
  have hN : t.val < 128 := lt_of_lt_of_eq t.isLt (show cfg1.N = 128 from N_1)
  by_cases h0 : t.val % 16 = 0
  · have hc0 : cond1_0 (grid1.coords t) := (hcond1_0 t).mpr h0
    have hc1 : ¬cond1_1 (grid1.coords t) := fun h => by have := (hcond1_1 t).mp h; omega
    rw [leaves1_5_idle V c t hc1, outsAt1_A V c t h0 hc0 hc1]
    unfold stA; dsimp only
    rw [PhiS1_castSucc V c t]
    refine PhiS1_forget_frame V c _ _ _ _ ?_
    iintro ⟨⟨HR, HS0, HS1, HS2, HS3, Hg⟩, Ho, ⟨%d0, H0⟩, ⟨%d1, H1⟩, ⟨%d2, H2⟩, ⟨%d3, H3⟩, ⟨%d4, H4⟩, ⟨%d5, H5⟩⟩
    iapply ((kernelRun1_A c (grid1.coords t) _ _ _ _ _ _ _ _ _ _ _ _ _ _ _ _ _ _ _ _ hc0 hc1 (iblk1 V c 0 t) (iblk1 V c 1 t) (iblk1 V c 2 t) (iblk1 V c 3 t) (iblk1 V c 4 t)).2.2.2.2 _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    isplitl [HS3]; · iexact HS3
    iintro ⟨H0, H1, H2, H3, H4, H5, ⟨%e0, HS0⟩, ⟨%e1, HS1⟩, ⟨%e2, HS2⟩, ⟨%e3, HS3⟩⟩
    isplitl [HR HS0 HS1 HS2 HS3 Hg]
    · isplitl [HR]; · iexact HR
      isplitl [HS0]
      · unfold owns; iexists _; isplitr
        swap; · iexact HS0
        ipureintro; exact View.read_writes_of_cover _ _ _ _ _ (scover1_A_0 c _ _ _ _ _ _ _ _ _ _ _ _ _ _ _ _ _ _ _ _ _ _ _ _ _ _ hc0 hc1)
      isplitl [HS1]
      · unfold owns; iexists _; isplitr
        swap; · iexact HS1
        ipureintro; exact View.read_writes_of_cover _ _ _ _ _ (scover1_A_1 c _ _ _ _ _ _ _ _ _ _ _ _ _ _ _ _ _ _ _ _ _ _ _ _ _ _ hc0 hc1)
      isplitl [HS2]
      · unfold owns; iexists _; isplitr
        swap; · iexact HS2
        ipureintro; exact View.read_writes_of_cover _ _ _ _ _ (scover1_A_2 c _ _ _ _ _ _ _ _ _ _ _ _ _ _ _ _ _ _ _ _ _ _ _ _ _ _ hc0 hc1)
      isplitl [HS3]
      · unfold owns; iexists _; isplitr
        swap; · iexact HS3
        ipureintro; exact View.read_writes_of_cover _ _ _ _ _ (scover1_A_3 c _ _ _ _ _ _ _ _ _ _ _ _ _ _ _ _ _ _ _ _ _ _ _ _ _ _ hc0 hc1)
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hc0 : ¬cond1_0 (grid1.coords t) := fun h => h0 ((hcond1_0 t).mp h)
    have hz : t.val ≠ 0 := fun h => h0 (by rw [h])
    by_cases h1 : t.val % 16 = 15
    · have hc1 : cond1_1 (grid1.coords t) := (hcond1_1 t).mpr h1
      rw [leaves1_5_live V c t hc1, outsAt1_C V c t h0 h1 hc0 hc1]
      unfold stC; dsimp only
      rw [PhiS1_castSucc V c t, PhiS1_pos V c _ _ hz]
      iintro ⟨⟨HR, HS0, HS1, HS2, HS3, Hg⟩, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ _ _ _ _ _ _ _ _ hc0 hc1 (iblk1 V c 0 t) (iblk1 V c 1 t) (iblk1 V c 2 t) (iblk1 V c 3 t) (iblk1 V c 4 t) _ _ _ _).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      isplitl [HS3]; · iexact HS3
      iintro ⟨H0, H1, H2, H3, H4, ⟨%e5, H5⟩, ⟨%e0, HS0⟩, ⟨%e1, HS1⟩, ⟨%e2, HS2⟩, HS3⟩
      isplitl [HR HS0 HS1 HS2 HS3 Hg]
      · isplitl [HR]; · iexact HR
        isplitl [HS0]
        · unfold owns; iexists _; isplitr
          swap; · iexact HS0
          ipureintro; exact View.read_writes_of_cover _ _ _ _ _ (scover1_C_0 c _ _ _ _ _ _ _ _ _ _ _ _ _ _ _ _ _ _ _ _ _ _ _ _ _ _ _ _ _ _ hc0 hc1)
        isplitl [HS1]
        · unfold owns; iexists _; isplitr
          swap; · iexact HS1
          ipureintro; exact View.read_writes_of_cover _ _ _ _ _ (scover1_C_1 c _ _ _ _ _ _ _ _ _ _ _ _ _ _ _ _ _ _ _ _ _ _ _ _ _ _ _ _ _ _ hc0 hc1)
        isplitl [HS2]
        · unfold owns; iexists _; isplitr
          swap; · iexact HS2
          ipureintro; exact View.read_writes_of_cover _ _ _ _ _ (scover1_C_2 c _ _ _ _ _ _ _ _ _ _ _ _ _ _ _ _ _ _ _ _ _ _ _ _ _ _ _ _ _ _ hc0 hc1)
        isplitl [HS3]; · iexact HS3
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_C_5 c _ _ _ _ _ _ _ _ _ _ _ _ _ _ _ _ _ _ _ _ _ _ _ _ _ _ _ _ _ _ hc0 hc1)
    · have hc1 : ¬cond1_1 (grid1.coords t) := fun h => h1 ((hcond1_1 t).mp h)
      rw [leaves1_5_idle V c t hc1, outsAt1_B V c t h0 h1 hc0 hc1]
      unfold stB; dsimp only
      rw [PhiS1_castSucc V c t, PhiS1_pos V c _ _ hz]
      iintro ⟨⟨HR, HS0, HS1, HS2, HS3, Hg⟩, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ _ _ _ _ _ _ _ _ hc0 hc1 (iblk1 V c 0 t) (iblk1 V c 1 t) (iblk1 V c 2 t) (iblk1 V c 3 t) (iblk1 V c 4 t) _ _ _ _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H2, H3, H4, H5, ⟨%e0, HS0⟩, ⟨%e1, HS1⟩, ⟨%e2, HS2⟩, HS3⟩
      isplitl [HR HS0 HS1 HS2 HS3 Hg]
      · isplitl [HR]; · iexact HR
        isplitl [HS0]
        · unfold owns; iexists _; isplitr
          swap; · iexact HS0
          ipureintro; exact View.read_writes_of_cover _ _ _ _ _ (scover1_B_0 c _ _ _ _ _ _ _ _ _ _ _ _ _ _ _ _ _ _ _ _ _ _ _ _ _ _ _ _ _ _ hc0 hc1)
        isplitl [HS1]
        · unfold owns; iexists _; isplitr
          swap; · iexact HS1
          ipureintro; exact View.read_writes_of_cover _ _ _ _ _ (scover1_B_1 c _ _ _ _ _ _ _ _ _ _ _ _ _ _ _ _ _ _ _ _ _ _ _ _ _ _ _ _ _ _ hc0 hc1)
        isplitl [HS2]
        · unfold owns; iexists _; isplitr
          swap; · iexact HS2
          ipureintro; exact View.read_writes_of_cover _ _ _ _ _ (scover1_B_2 c _ _ _ _ _ _ _ _ _ _ _ _ _ _ _ _ _ _ _ _ _ _ _ _ _ _ _ _ _ _ hc0 hc1)
        isplitl [HS3]; · iexact HS3
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The body's obligation at every point of the launch. -/
theorem body_obligation1 (c : Dev nD) : BodyObligation (dat1 (F := F) V c) (defs₀ (F := F)) Variants.none () Set.univ := fun t => by
  rw [bigSep_W1, bigSep_W1]
  exact sound_body1 V c t

/-- What the launch hands the body before the first point is the invariant there. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- Between any two points, and after the last, the invariant gives the launch's resources back: the scratch contents
    are forgotten. -/
theorem Phi_out1 (c : Dev nD) (t : Fin (cfg1.N + 1)) : (dat1 V c).Φ t ⊢ Pipeline.ΦA spec1 c := by
  rw [show (dat1 V c).Φ t = PhiS1 V c t.val (Nat.le_of_lt_succ t.isLt) from rfl]
  exact (PhiS1_forget V c _ _).trans (PhiA1_eq c).2

/-- After the last point the invariant gives the launch's resources back, the scratch contents forgotten. -/
theorem hout1 (c : Dev nD) : (dat1 V c).Φ (Fin.last cfg1.N) ⊢ Pipeline.ΦA spec1 c :=
  Phi_out1 V c _

end Cert.Kernel.Hand

end
-- ==== Proof.K.Shares.lean ====
/-
  One array behind three windows.

  The attention launch looks into the projection's result through its query, key and value windows, so the launch's
  proof data hold that array three times, at three shares that together are the whole (a left half, and the two halves of
  the right half). At the launch's entry the buffer, held whole, is split into those shares; at its exit — the three
  windows are inputs, so each still holds the entry contents — the shares are joined back. The other three arrays (output
  weight, output bias, result) stand behind one window each and are held whole throughout.
-/
import proofs.«422776_j21586505630422_3_alg».proof.Proof.K.Flash

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The four distinct buffers behind the launch's six windows. -/
theorem arrImage1 : Finset.univ.image (Pipeline.arrRef spec1) = ([main_v3, main_v1, main_v4, main_v5] : List (Ref sig .tc)).toFinset := by
  decide

/-- A whole array's view covers the array. -/
theorem whole_set (b : Ref sig .tc) : (Memref.whole b).view.set = Finset.univ := (Memref.isWhole_whole b).set_eq_univ

/-- ENTRY: the buffers behind the launch's arrays, each held whole at the entry contents, are the launch's arrays at its
    shares. -/
theorem arrays_of_arrBufs1 (c : Dev nD) :
    (Pipeline.arrBufs (Ix := Unit) (Name := ℕ) (U := UR sig nD τ) (Lvl := ℕ) spec1 c (V c) : sProp 𝕄)
      ⊢ (dat1 V c).arrays ((dat1 V c).arrAt · 0) := by
  unfold Pipeline.arrBufs Pipeline.Dat.arrays
  rw [bigSep_eq_bigSepL_of_eq _ arrImage1 (by decide), bigSep_W1]
  simp only [bigSepL_cons_cons, bigSepL_singleton]
  have e3 := whole_set main_v3
  have e1 := whole_set main_v1
  have e4 := whole_set main_v4
  have e5 := whole_set main_v5
  show iprop((((c : Thread nD τ).loc main_v3) ↦{fullShare} V c main_v3) ∗ (((c : Thread nD τ).loc main_v1) ↦{fullShare} V c main_v1)
        ∗ (((c : Thread nD τ).loc main_v4) ↦{fullShare} V c main_v4) ∗ (((c : Thread nD τ).loc main_v5) ↦{fullShare} V c main_v5))
    ⊢ iprop((((c : Thread nD τ).loc main_v3) ↦[(Memref.whole main_v3).view.set]{fullShare.left} V c main_v3)
      ∗ (((c : Thread nD τ).loc main_v3) ↦[(Memref.whole main_v3).view.set]{fullShare.right.left} V c main_v3)
      ∗ (((c : Thread nD τ).loc main_v3) ↦[(Memref.whole main_v3).view.set]{fullShare.right.right} V c main_v3)
      ∗ (((c : Thread nD τ).loc main_v1) ↦[(Memref.whole main_v1).view.set]{fullShare} V c main_v1)
      ∗ (((c : Thread nD τ).loc main_v4) ↦[(Memref.whole main_v4).view.set]{fullShare} V c main_v4)
      ∗ (((c : Thread nD τ).loc main_v5) ↦[(Memref.whole main_v5).view.set]{fullShare} V c main_v5))
  rw [e3, e1, e4, e5]
  refine (sep_mono ((pointsTo_share (PosShare.mem_left_op_right fullShare)).1.trans
    (sep_mono .rfl (pointsTo_share (PosShare.mem_left_op_right fullShare.right)).1)) .rfl).trans ?_
  iintro ⟨⟨Ha, Hb, Hc⟩, H1, H4, H5⟩
  isplitl [Ha]; · iexact Ha
  isplitl [Hb]; · iexact Hb
  isplitl [Hc]; · iexact Hc
  isplitl [H1]; · iexact H1
  isplitl [H4]; · iexact H4
  iexact H5

/-- EXIT: the launch's arrays after its last point — the three shares of the projection's result joined again, the result
    array at what the write-backs left — and the buffers no window looks into are every outside buffer at any contents
    `V'` that has the result array there and agrees with the entry contents elsewhere. -/
theorem unscopedBufs_of_arrays1' (c : Dev nD) (V' : (b : Ref sig .tc) → Buf (Elt F) ((c : Thread nD τ).loc b))
    (hout : V' main_v5 = (dat1 V c).arrAt 5 cfg1.N) (hrest : ∀ b, b ≠ main_v5 → V' b = V c b) :
    iprop((dat1 V c).arrays ((dat1 V c).arrAt · cfg1.N)
        ∗ Pipeline.unscopedRest (Ix := Unit) (Name := ℕ) (U := UR sig nD τ) (Lvl := ℕ) spec1 c (V c))
      ⊢ (unscopedBufs c V' : sProp 𝕄) := by
  rw [Pipeline.unscopedBufs_split₀ cfgs 1 winFacts₀1.arr_unscoped c V']
  refine sep_mono ?_ (Entails.of_eq ?_)
  · unfold Pipeline.arrBufs Pipeline.Dat.arrays
    show bigSep Finset.univ _ ⊢ bigSep (Finset.univ.image (Pipeline.arrRef spec1)) _
    rw [bigSep_eq_bigSepL_of_eq _ arrImage1 (by decide), bigSep_W1]
    simp only [bigSepL_cons_cons, bigSepL_singleton]
    have e3 := whole_set main_v3
    have e1 := whole_set main_v1
    have e4 := whole_set main_v4
    have e5 := whole_set main_v5
    have a0 : (dat1 V c).arrAt 0 cfg1.N = V c main_v3 := (dat1 V c).arrAt_in 0 rfl _
    have a1 : (dat1 V c).arrAt 1 cfg1.N = V c main_v3 := (dat1 V c).arrAt_in 1 rfl _
    have a2 : (dat1 V c).arrAt 2 cfg1.N = V c main_v3 := (dat1 V c).arrAt_in 2 rfl _
    have a3 : (dat1 V c).arrAt 3 cfg1.N = V c main_v1 := (dat1 V c).arrAt_in 3 rfl _
    have a4 : (dat1 V c).arrAt 4 cfg1.N = V c main_v4 := (dat1 V c).arrAt_in 4 rfl _
    show iprop((((c : Thread nD τ).loc main_v3) ↦[(Memref.whole main_v3).view.set]{fullShare.left} (dat1 V c).arrAt 0 cfg1.N)
        ∗ (((c : Thread nD τ).loc main_v3) ↦[(Memref.whole main_v3).view.set]{fullShare.right.left} (dat1 V c).arrAt 1 cfg1.N)
        ∗ (((c : Thread nD τ).loc main_v3) ↦[(Memref.whole main_v3).view.set]{fullShare.right.right} (dat1 V c).arrAt 2 cfg1.N)
        ∗ (((c : Thread nD τ).loc main_v1) ↦[(Memref.whole main_v1).view.set]{fullShare} (dat1 V c).arrAt 3 cfg1.N)
        ∗ (((c : Thread nD τ).loc main_v4) ↦[(Memref.whole main_v4).view.set]{fullShare} (dat1 V c).arrAt 4 cfg1.N)
        ∗ (((c : Thread nD τ).loc main_v5) ↦[(Memref.whole main_v5).view.set]{fullShare} (dat1 V c).arrAt 5 cfg1.N))
      ⊢ iprop((((c : Thread nD τ).loc main_v3) ↦{fullShare} V' main_v3) ∗ (((c : Thread nD τ).loc main_v1) ↦{fullShare} V' main_v1)
        ∗ (((c : Thread nD τ).loc main_v4) ↦{fullShare} V' main_v4) ∗ (((c : Thread nD τ).loc main_v5) ↦{fullShare} V' main_v5))
    rw [e3, e1, e4, e5, a0, a1, a2, a3, a4, hrest main_v3 (by decide), hrest main_v1 (by decide), hrest main_v4 (by decide), hout]
    iintro ⟨Ha, Hb, Hc, H1, H4, H5⟩
    isplitl [Ha Hb Hc]
    · iapply (pointsTo_share (PosShare.mem_left_op_right fullShare)).2
      isplitl [Ha]; · iexact Ha
      iapply (pointsTo_share (PosShare.mem_left_op_right fullShare.right)).2
      isplitl [Hb]; · iexact Hb
      iexact Hc
    isplitl [H1]; · iexact H1
    isplitl [H4]; · iexact H4
    iexact H5
  · unfold Pipeline.unscopedRest
    exact bigSep_congr fun b hb => by
      rw [hrest b (fun e => (Finset.mem_sdiff.mp hb).2 (e ▸ (by decide : main_v5 ∈ Finset.univ.image (Pipeline.arrRef spec1))))]

end Cert.Kernel.Hand

end
-- ==== Proof.K.Run.lean ====
/-
  The whole program's run.

  @main is four items: a stretch of host operations (the two weight narrowings and the bias reshape), the projection
  launch, one more host operation (the output bias reshape), the attention launch. Between items every buffer of the
  core that lives outside the launches is held at known contents: the launch memory, then each host stretch's results,
  then — after a launch — the launch's arrays at what its write-backs leave (`W0 … W4`). Each launch is entered from that
  state and left at the next: its arrays are split out of the buffers at entry and put back at exit. The attention
  launch reads the projection's result through THREE windows, so at its entry the one buffer is split into three shares
  and at its exit joined again. Read at the end, the state says that every argument array is as launched and that the
  result array holds what the attention launch's write-backs leave.
-/
import proofs.«422776_j21586505630422_3_alg».proof.Proof.K.Lin
import proofs.«422776_j21586505630422_3_alg».proof.Proof.K.Flash
import proofs.«422776_j21586505630422_3_alg».proof.Proof.K.Shares
import proofs.«422776_j21586505630422_3_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 (c : Dev nD) : Valuation τ sig (Elt F) := fun b => m (c, b)
/-- After the first host stretch (the projection launch's entry). -/
abbrev W1 (c : Dev nD) : Valuation τ sig (Elt F) := StableHlo.after hostOps0 (W0 m c)
abbrev U1 : (c : Dev nD) → (b : Ref sig .tc) → Buf (Elt F) ((c : Thread nD τ).loc b) := fun c b => W1 m c b
/-- At the projection launch's exit: its arrays at what its write-backs leave, every other buffer as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)
/-- After the second host stretch (the attention launch's entry). -/
abbrev W3 (c : Dev nD) : Valuation τ sig (Elt F) := StableHlo.after hostOps1 (W2 m c)
abbrev U3 : (c : Dev nD) → (b : Ref sig .tc) → Buf (Elt F) ((c : Thread nD τ).loc b) := fun c b => W3 m c b
/-- At the attention launch's exit: the result array at what the launch's write-backs leave, every other buffer as
    entered (the launch's other arrays are inputs). -/
def W4 (c : Dev nD) : Valuation τ sig (Elt F) :=
  Function.update (W3 m c) (Proc.devRef .tc (Pipeline.arrRef spec1 5)) ((dat1 (U3 m) c).arrAt 5 cfg1.N)
theorem W4_out (c : Dev nD) : W4 m c (Proc.devRef .tc (Pipeline.arrRef spec1 5)) = (dat1 (U3 m) c).arrAt 5 cfg1.N := by
  unfold W4; exact Function.update_self ..
theorem W4_of_ne (c : Dev nD) (b : Ref sig .tc) (hb : b ≠ main_v5) : W4 m c (Proc.devRef .tc b) = W3 m c (Proc.devRef .tc b) := by
  unfold W4; exact Function.update_of_ne (StableHlo.devRef_ne_of_ne hb) ..
abbrev U4 : (c : Dev nD) → (b : Ref sig .tc) → Buf (Elt F) ((c : Thread nD τ).loc b) := fun c b => W4 m c b

/-! ### The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_writes_sub hostOps1 _ hostOps1_writes (r := main_arg0) (by decide)
    _ = W1 m c (Proc.devRef .tc main_arg0) := (W2_arr m c 0).trans (((dat0 (U1 m) c).arrAt_in 0 rfl _).trans (A_eq0 (U1 m) c 0))
    _ = W0 m c (Proc.devRef .tc main_arg0) := StableHlo.after_of_writes_sub hostOps0 _ hostOps0_writes (r := main_arg0) (by decide)
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_writes_sub hostOps1 _ hostOps1_writes (r := main_arg1) (by decide)
    _ = W1 m c (Proc.devRef .tc main_arg1) := W2_of_ne m c main_arg1 (by decide)
    _ = W0 m c (Proc.devRef .tc main_arg1) := StableHlo.after_of_writes_sub hostOps0 _ hostOps0_writes (r := main_arg1) (by decide)
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_writes_sub hostOps1 _ hostOps1_writes (r := main_arg2) (by decide)
    _ = W1 m c (Proc.devRef .tc main_arg2) := W2_of_ne m c main_arg2 (by decide)
    _ = W0 m c (Proc.devRef .tc main_arg2) := StableHlo.after_of_writes_sub hostOps0 _ hostOps0_writes (r := main_arg2) (by decide)
    _ = m ((c : Thread nD τ).loc main_arg2) := rfl

theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_writes_sub hostOps1 _ hostOps1_writes (r := main_arg3) (by decide)
    _ = W1 m c (Proc.devRef .tc main_arg3) := W2_of_ne m c main_arg3 (by decide)
    _ = W0 m c (Proc.devRef .tc main_arg3) := StableHlo.after_of_writes_sub hostOps0 _ hostOps0_writes (r := main_arg3) (by decide)
    _ = m ((c : Thread nD τ).loc main_arg3) := rfl

theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := StableHlo.after_of_writes_sub hostOps1 _ hostOps1_writes (r := main_arg4) (by decide)
    _ = W1 m c (Proc.devRef .tc main_arg4) := W2_of_ne m c main_arg4 (by decide)
    _ = W0 m c (Proc.devRef .tc main_arg4) := StableHlo.after_of_writes_sub hostOps0 _ hostOps0_writes (r := main_arg4) (by decide)
    _ = m ((c : Thread nD τ).loc main_arg4) := rfl

/-! ## The proof data family and the thread state -/

/-- Every launch's proof data, each at its launch's entry contents. -/
def pdats : (p : Fin 2) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- A host stretch as a segment over every buffer outside the launches, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, the `owes` apart. -/
abbrev Tₙ (c : Dev nD) : sProp 𝕄 := iprop(StableHlo.held (c : Thread nD τ) (Pipeline.ucRefs τ sig) (W4 m c) ∗ ∃ r, prngReg c r)

/-! ## The projection launch as a segment -/

set_option backward.isDefEq.respectTransparency.types false in
/-- Entered from every outside buffer at `W1`, left at `W2`: its four arrays (all distinct) split out of the buffers and
    put back at the exit contents; the generator register into the body's invariant and out; nothing owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The attention launch as a segment: one array behind three windows -/

/-- ENTRY. The buffers behind the attention launch's arrays, each held whole, are the launch's arrays at its shares:
    the projection's result, read through the query, key and value windows, is split into three shares. -/
theorem arrays_of_arrBufs (c : Dev nD) :
    (Pipeline.arrBufs (Ix := Unit) (Name := ℕ) (U := UR sig nD τ) (Lvl := ℕ) spec1 c (U3 m c) : sProp 𝕄)
      ⊢ (dat1 (U3 m) c).arrays ((dat1 (U3 m) c).arrAt · 0) :=
  arrays_of_arrBufs1 (U3 m) c

/-- EXIT. The launch's arrays after its last point — the three shares of the projection's result joined again, the
    result array at what the write-backs left — and the buffers no window looks into make every outside buffer at `W4`. -/
theorem unscopedBufs_of_arrays1 (c : Dev nD) :
    iprop((dat1 (U3 m) c).arrays ((dat1 (U3 m) c).arrAt · cfg1.N)
        ∗ Pipeline.unscopedRest (Ix := Unit) (Name := ℕ) (U := UR sig nD τ) (Lvl := ℕ) spec1 c (U3 m c))
      ⊢ (unscopedBufs c (U4 m c) : sProp 𝕄) :=
  unscopedBufs_of_arrays1' (U3 m) c (U4 m c) (W4_out m c) (fun b hb => W4_of_ne m c b hb)

set_option backward.isDefEq.respectTransparency.types false in
/-- Entered from every outside buffer at `W3`, left at `W4`. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit : (unscopedBufs c (U3 m c) : sProp 𝕄)
        ⊢ iprop((pdats m 1 c).arrays ((pdats m 1 c).arrAt · 0) ∗ Pipeline.unscopedRest spec1 c (U3 m c)) := by
      rw [Pipeline.unscopedBufs_split₀ cfgs 1 winFacts₀1.arr_unscoped c (U3 m c)]
      exact sep_mono (arrays_of_arrBufs m c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (U3 m) c)
    unfold Pipeline.ΦA
    iintro ⟨Hp, -, Hr⟩
    isplitl [Hr]; · iexact Hr
    iexact Hp
  hout c := by
    rw [Pipeline.ownSems0_none]
    refine BIBase.Entails.trans (hout1 (U3 m) c) ?_
    unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N)
          ∗ Pipeline.unscopedRest (Ix := Unit) (Name := ℕ) (U := UR sig nD τ) (Lvl := ℕ) spec1 c (U3 m c))
        ⊢ (unscopedBufs c (U4 m c) : sProp 𝕄) := unscopedBufs_of_arrays1 m c
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segsH : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segsH m) := (main_chain c).trans (by chain_rfl)

set_option backward.isDefEq.respectTransparency.types false in
/-- THE RUN. From any memory with zero counters every weakly fair execution of @main terminates, nothing faulting, and in
    every final state every buffer outside the launches holds `W4`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segsH m)
    (fun c Q => by rw [main_run m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- THE FRAME, at any instance: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c)⟩) (run_main m ρ)

/-- THE RUN WITH ITS RESULT NAMED: the result array ends at what the attention launch's write-backs leave, the arguments
    as launched. -/
theorem run_value : θ_run defs (onTc (τ := τ) (main (F := F))) ⟨m, fun _ => 0, ρ⟩ (fun r => ∀ c : Dev nD,
      r.2.mem ((c.tc : Thread nD τ).loc main_v5) = (dat1 (U3 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v5 (by decide))).trans (W4_out m c),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c)⟩) (run_main m ρ)

end Cert.Kernel.Hand

end
-- ==== Proof.KI.Lin.lean ====
/-
  The projection kernel, one grid point at a time.

  The first launch computes `qkv = x · wᵀ + b` in 16 × 3 tiles: at the point `(i, j)` it is handed rows `512 i …` of `x`, rows
  `1024 j …` of the weight and columns `1024 j …` of the bias, and stores the tile `(i, j)` of the result whole. So what the
  body leaves in the result window's buffer is one function of the three input blocks (`out0_3`: the single store read
  back), whatever the buffers held before; nothing is carried from point to point. This module states that as the
  launch's proof data at ANY contents `V` of the core's buffers when the launch is entered, and proves the body's
  obligation at every point.
-/
import proofs.«422776_j21586505630422_3_alg».proof.Proof.Gen.KernelIdeal.Launch
import proofs.«422776_j21586505630422_3_alg».proof.Proof.Gen.KernelIdeal.Skeleton
import proofs.«422776_j21586505630422_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the core's buffer contents when the launch is entered
variable (V : (c : Dev nD) → (b : Ref sig .tc) → Buf (Elt F) ((c : Thread nD τ).loc b))

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles the body loads and stores through. -/
abbrev rX : Rect S512x1024 := Rect.unit (s := S512x1024) ![0, 0] S512x1024.size inb_S512x1024_S512x1024_0_0
abbrev rW : Rect S1024x1024 := Rect.unit (s := S1024x1024) ![0, 0] S1024x1024.size inb_S1024x1024_S1024x1024_0_0
abbrev rB : Rect S1x1024 := Rect.unit (s := S1x1024) ![0, 0] S1x1024.size inb_S1x1024_S1x1024_0_0

/-- The result window's buffer after the body, from the three input blocks: its one store, read back. -/
def out0_3 (x0 : Vec F S512x1024 .f32) (x1 : Vec F S1024x1024 .bf16) (x2 : Vec F S1x1024 .f32) : Vec F S512x1024 .bf16 :=
  View.canon [⟨rX, k0_pay1 (View.ld x0 rX) (View.ld x1 rW) (View.ld x2 rB)⟩]

/-- The launch's proof data on core `c`: the arrays as the launch finds them; after the body each input's buffer at its
    block and the result's at `out0_3` of the input blocks; nothing of the body's own between points but the buffers
    it never touches and the generator register; nothing owed; every array held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-! ## What the body is handed in the three input windows -/

/-- The rows of `x` the body is handed at a point are that point's block of the array as the launch found it. The
    pipeline fetches this window only when the row index moves (every third point); in between the body has left
    the buffer as it found it and the block index has not moved, so the buffer still holds the point's block. The
    window is not cut and never idle. -/
theorem found0_0 (c : Dev nD) (t : Fin cfg0.N) (d) : (dat0 V c).before 0 t d = iblk0 V c 0 t := by
  have hkeep : ∀ s, (cfg0.win 0).cut (cfg0.grid.coords s) ((dat0 V c).after 0 s) = (dat0 V c).blockOf 0 s := fun s => by
    rw [after0_0]; rfl
  rw [(dat0 V c).before_in_eq_fetched 0 rfl (fun _ => rfl) (fun _ _ _ => rfl) hkeep t d]
  rfl

/-- The weight's rows at a point: fetched at every point, uncut, never idle. -/
theorem found0_1 (c : Dev nD) (t : Fin cfg0.N) (d) : (dat0 V c).before 1 t d = iblk0 V c 1 t := by
  have hkeep : ∀ s, (cfg0.win 1).cut (cfg0.grid.coords s) ((dat0 V c).after 1 s) = (dat0 V c).blockOf 1 s := fun s => by
    rw [after0_1]; rfl
  rw [(dat0 V c).before_in_eq_fetched 1 rfl (fun _ => rfl) (fun _ _ _ => rfl) hkeep t d]
  rfl

/-- The bias's columns at a point: fetched at every point, uncut, never idle. -/
theorem found0_2 (c : Dev nD) (t : Fin cfg0.N) (d) : (dat0 V c).before 2 t d = iblk0 V c 2 t := by
  have hkeep : ∀ s, (cfg0.win 2).cut (cfg0.grid.coords s) ((dat0 V c).after 2 s) = (dat0 V c).blockOf 2 s := fun s => by
    rw [after0_2]; rfl
  rw [(dat0 V c).before_in_eq_fetched 2 rfl (fun _ => rfl) (fun _ _ _ => rfl) hkeep t d]
  rfl

/-! ## The one store covers the result window's buffer -/

/-- The body's single store is through the whole-buffer rectangle, so every index of the buffer lies in it. -/
theorem cover0_3 (p : Vec F S512x1024 .bf16) (y : S512x1024.Idx) :
    ∃ pc ∈ ([⟨rX, p⟩] : List (View.Piece (Elt F) S512x1024 .bf16)), y ∈ pc.1.set :=
  View.cover_of_tiled [⟨rX, p⟩] S512x1024.size (by rfl) y

/-! ## The body's run -/

set_option maxHeartbeats 1000000 in
/-- The kernel body on whole buffers. Given `x`'s, the weight's and the bias's buffers at contents it reads as
    `x0`, `x1`, `x2` and the result's buffer at anything, it runs to any continuation that accepts the three inputs
    unchanged and the result's buffer at `out0_3 x0 x1 x2`. The three whole-buffer loads read `x0`, `x1`, `x2`
    through the rectangles; the load of the result's buffer reads a value the body never uses; the one store
    writes the payload over the whole buffer, so reading it back gives the store's canonical form. -/
theorem run_kernel0 (c : Dev nD) (E : Set ℕ) (i : grid0.Coords)
    (arg2 : Memref sig .tc .vmem S512x1024 .f32) (harg2 : arg2.IsWhole)
    (arg3 : Memref sig .tc .vmem S1024x1024 .bf16) (harg3 : arg3.IsWhole)
    (arg4 : Memref sig .tc .vmem S1x1024 .f32) (harg4 : arg4.IsWhole)
    (arg5 : Memref sig .tc .vmem S512x1024 .bf16) (harg5 : arg5.IsWhole)
    (x0 : Vec F S512x1024 .f32) (x1 : Vec F S1024x1024 .bf16) (x2 : Vec F S1x1024 .f32) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ (iprop(owns (c : Thread nD τ) arg2 fullShare x0 ∗ owns (c : Thread nD τ) arg3 fullShare x1
            ∗ owns (c : Thread nD τ) arg4 fullShare x2 ∗ owns (c : Thread nD τ) arg5 fullShare (out0_3 x0 x1 x2)) -∗ K ⟨⟩))
      ⊢ wp frame (wpE (defs₀ (F := F)) Variants.none c none) E
          (cc0__linear_kernel i arg2 harg2 arg3 harg3 arg4 harg4 arg5 harg5) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr
    · ipureintro; rfl
    · iexact H0
  isplitl [H1]
  · iexists f1; isplitr
    · ipureintro; rfl
    · iexact H1
  isplitl [H2]
  · iexists f2; isplitr
    · ipureintro; rfl
    · iexact H2
  iexists _; isplitr
  rotate_left
  · iexact H3
  ipureintro
  exact View.read_writes_eq_canon _ _ _ (cover0_3 _)

/-! ## The obligation at a point -/

/-- What the pipeline hands the body at point `t`: the launch's invariant, nothing owed, and each window's current
    buffer whole at what the point finds there. -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What the body hands back: the same invariant, nothing owed, and each buffer at what the proof data says the
    body leaves in it. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at point `t`. The three input buffers hold the point's blocks (`found0_0` … `found0_2`), so the
    kernel's run applies with the result's buffer at whatever it held; the invariant and the owed amounts are the
    same before and after (neither depends on the point) and pass around the run untouched. -/
theorem run_body0 (c : Dev nD) (t : Fin cfg0.N) :
    pre0 V c t ⊢ wp frame (wpE (defs₀ (F := F)) Variants.none c none) Set.univ (bodyAt0 t) (fun _ => post0 V c t) := by
  unfold pre0 post0 bodyAt0
  simp only [found0_0, found0_1, found0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (run_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation at every point of the launch. -/
theorem body_obligation0 (c : Dev nD) : BodyObligation (dat0 (F := F) V c) (defs₀ (F := F)) Variants.none () Set.univ := by
  intro t
  rw [bigSep_W0, bigSep_W0]
  exact run_body0 V c t

end Cert.KernelIdeal.Hand

end
-- ==== Proof.KI.FlashRuns.lean ====
/-
  The attention kernel's body, case by case.

  The second launch walks a grid of 8 query tiles × 16 key/value blocks. Its body branches twice on the block number
  alone: at block 0 it resets the running maximum to `-∞`, the running denominator and numerator to `0`, and stores the
  query tile scaled by `1/32`; at block 15 it divides numerator by denominator, projects through the output weight, adds
  the bias and stores the output tile. So a grid point is in one of three cases — FIRST block, a MIDDLE block, LAST
  block — decided by its position modulo 16 (`hcond1_0`, `hcond1_1`). In every case the body updates the four scratch
  buffers (maximum, denominator, numerator; the scaled query tile is stored in the first case only and read in all);
  the output window's buffer is stored in the last case only and left untouched — the window is idle — in the others.

  This module fixes the vocabulary the three cases share: the conditions in closed form, where the output window is idle,
  the buffers the body is called with, and the launch's between-points resources when nothing is known of the scratch.
-/
import proofs.«422776_j21586505630422_3_alg».proof.Proof.Gen.KernelIdeal.Launch
import proofs.«422776_j21586505630422_3_alg».proof.Proof.Gen.KernelIdeal.Skeleton
import proofs.«422776_j21586505630422_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two branch conditions, in closed form over the grid -/

/-- "This is block 0": the condition of the body's first `if`, from the grid coordinates. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)

/-- "This is block 15": the condition of the body's second `if`. -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Away from block 15 the output window is idle and is not written back; at block 15 it is live. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel

/-! ## The buffers the body is called with -/

abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x1024 .f32 := win1_5.stage (cfg1.slots t 5)
abbrev hs1_5 (t : Fin cfg1.N) : (ms1_5 t).IsWhole := hstage1_5 ((cfg1.slots t 5).cast nbuf1_5)
/-- The four scratch buffers: running maximum, running denominator, running numerator, scaled query tile. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1024 .f32 := Memref.whole cc1_scratch2
abbrev scM1_3 : Memref sig .tc .vmem S1024x1024 .bf16 := Memref.whole cc1_scratch3
/-- One staging buffer of the output window, and the scratch buffers, as views: contents are stated through them. -/
abbrev VO1_5 : View sig .tc .vmem S1024x1024 .f32 := (Memref.whole cc1_stg5_0 : Memref sig .tc .vmem S1024x1024 .f32).view
abbrev VS1_0 : View sig .tc .vmem S1024x1 .f32 := scM1_0.view
abbrev VS1_1 : View sig .tc .vmem S1024x1 .f32 := scM1_1.view
abbrev VS1_2 : View sig .tc .vmem S1024x1024 .f32 := scM1_2.view
abbrev VS1_3 : View sig .tc .vmem S1024x1024 .bf16 := scM1_3.view

/-- The scoped buffers this launch never touches (the first launch's staging buffers), each at some contents. -/
def Rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

/-- What the launch hands the body between points when nothing is known of the scratch: the untouched buffers, the four
    scratch buffers at some contents, the generator register at some state. -/
theorem PhiA1_eq (c : Dev nD) :
    (Pipeline.ΦA spec1 c : sProp 𝕄)
      ⊣⊢ iprop(Rest1 (F := F) c ∗ (∃ d, owns (c : Thread nD τ) scM1_0 fullShare d) ∗ (∃ d, owns (c : Thread nD τ) scM1_1 fullShare d)
          ∗ (∃ d, owns (c : Thread nD τ) scM1_2 fullShare d) ∗ (∃ d, owns (c : Thread nD τ) scM1_3 fullShare d) ∗ (∃ r, prngReg c r)) := by
  -- the class's invariant is the twelve scoped buffers, each at some contents, then the generator register; a whole
  -- buffer owned at some contents is its cells at some contents, so the two sides hold the same thirteen resources,
  -- grouped differently
  unfold Pipeline.ΦA Rest1; rw [scopedRest1_eq]; simp only [scM1_0, scM1_1, scM1_2, scM1_3, owns_whole]
  constructor
  · iintro ⟨⟨H0, H1, H2, H3, H4, H5, H6, H7, S0, S1, S2, S3⟩, Hg⟩
    iframe
  · iintro ⟨⟨H0, H1, H2, H3, H4, H5, H6, H7⟩, S0, S1, S2, S3, Hg⟩
    iframe

end Cert.KernelIdeal.Hand

end
-- ==== Proof.KI.FlashRunA.lean ====
/-
  The attention kernel's body in its FIRST-block case: the body's triple on whole buffers — the pieces each written buffer ends
  with, found by running the body symbolically, with the proof that the body runs from the buffers at the stated contents
  to the continuation holding the inputs as they were and each written buffer with its pieces written.
-/
import proofs.«422776_j21586505630422_3_alg».proof.Proof.KI.FlashRuns

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- FIRST block (`cond1_0`, not `cond1_1`): every scratch buffer is stored whole before it is read, so they are taken at
    anything; the output buffer is handed back untouched. -/
noncomputable def kernelRun1_A (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .bf16) (harg11 : arg11.IsWhole) (hc0 : cond1_0 i) (hc1 : ¬cond1_1 i)
    (x0 : Vec F S1024x1024 .bf16) (x1 : Vec F S512x1024 .bf16) (x2 : Vec F S512x1024 .bf16) (x3 : Vec F S1024x1024 .bf16) (x4 : Vec F S1x1024 .f32) :
    Σ' (LS0 : List (View.Piece (Elt F) S1024x1 .f32)) (LS1 : List (View.Piece (Elt F) S1024x1 .f32)) (LS2 : List (View.Piece (Elt F) S1024x1024 .f32)), { LS3 : List (View.Piece (Elt F) S1024x1024 .bf16) //
      ∀ (xi5 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
            ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc1__flash_fused_kernel i arg2 harg2 arg3 harg3 arg4 harg4 arg5 harg5 arg6 harg6 arg7 harg7 arg8 harg8 arg9 harg9 arg10 harg10 arg11 harg11) K } := by
  -- the four piece lists are the witnesses the symbolic run finds: left open here, fixed when each written buffer is handed
  -- to the continuation
  refine ⟨?_, ?_, ?_, ?_, fun xi5 E K => ?run⟩
  case run =>
    -- the printed function and its part of statements 1–60 are their sequences of memory operations over named payloads
    simp only [cc1__flash_fused_kernel_eq_skeleton]; unfold cc1__flash_fused_kernel_skel
    simp only [k1_part1_eq_skeleton]
    -- a buffer owned at contents `x` is its cells at some `f` that reads back as `x`; a whole buffer's `f` is then the
    -- unread of `x`
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    -- block 0: the first branch is taken (the three accumulators are reset and the scaled query tile stored, each store
    -- covering its whole buffer, so what the scratch held before is never read), the second is not (nothing touches the
    -- output buffer, the weight or the bias)
    sl_exec (disch := first | exact hc0 | exact hc1)
    sl_step
    iapply Hk
    -- the six window buffers go back at the contents they came with
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    -- the scratch buffers go back with their stores written, the later store first: maximum, denominator and numerator were
    -- stored twice (reset, then updated), the query tile once
    isplitl [HS0]
    · iexists _; iexact HS0
    isplitl [HS1]
    · iexists _; iexact HS1
    isplitl [HS2]
    · iexists _; iexact HS2
    iexists _; iexact HS3

end Cert.KernelIdeal.Hand

end
-- ==== Proof.KI.FlashRunB.lean ====
/-
  The attention kernel's body in its MIDDLE-block case: the body's triple on whole buffers — the pieces each written buffer ends
  with, found by running the body symbolically, with the proof that the body runs from the buffers at the stated contents
  to the continuation holding the inputs as they were and each written buffer with its pieces written.
-/
import proofs.«422776_j21586505630422_3_alg».proof.Proof.KI.FlashRuns

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
/-- A MIDDLE block (neither condition): the scratch buffers are taken at what the point before left (`xs·`); the scaled
    query tile is only read; the output buffer is handed back untouched. -/
noncomputable def kernelRun1_B (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .bf16) (harg11 : arg11.IsWhole) (hc0 : ¬cond1_0 i) (hc1 : ¬cond1_1 i)
    (x0 : Vec F S1024x1024 .bf16) (x1 : Vec F S512x1024 .bf16) (x2 : Vec F S512x1024 .bf16) (x3 : Vec F S1024x1024 .bf16) (x4 : Vec F S1x1024 .f32) (xs0 : Vec F S1024x1 .f32) (xs1 : Vec F S1024x1 .f32) (xs2 : Vec F S1024x1024 .f32) (xs3 : Vec F S1024x1024 .bf16) :
    Σ' (LS0 : List (View.Piece (Elt F) S1024x1 .f32)) (LS1 : List (View.Piece (Elt F) S1024x1 .f32)), { LS2 : List (View.Piece (Elt F) S1024x1024 .f32) //
      ∀ (xi5 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
            ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ owns (c : Thread nD τ) arg11 fullShare xs3) -∗ K ⟨⟩))
          ⊢ wp frame (wpE (defs₀ (F := F)) Variants.none c none) E (cc1__flash_fused_kernel i arg2 harg2 arg3 harg3 arg4 harg4 arg5 harg5 arg6 harg6 arg7 harg7 arg8 harg8 arg9 harg9 arg10 harg10 arg11 harg11) K } := by
  refine ⟨?_, ?_, ?_, fun xi5 E K => ?run⟩
  case run =>
    simp only [cc1__flash_fused_kernel_eq_skeleton]; unfold cc1__flash_fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hfs0; obtain rfl := harg9.eq_unread hfs1; obtain rfl := harg10.eq_unread hfs2
    obtain rfl := harg11.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]
    · iexists _; iexact HS0
    isplitl [HS1]
    · iexists _; iexact HS1
    isplitl [HS2]
    · iexists _; iexact HS2
    iexists _; isplitr; · ipureintro; exact harg11.read_unread _
    iexact HS3

end Cert.KernelIdeal.Hand

end
-- ==== Proof.KI.FlashRunC.lean ====
/-
  The attention kernel's body in its LAST-block case: the body's triple on whole buffers — the pieces each written buffer ends
  with, found by running the body symbolically, with the proof that the body runs from the buffers at the stated contents
  to the continuation holding the inputs as they were and each written buffer with its pieces written.
-/
import proofs.«422776_j21586505630422_3_alg».proof.Proof.KI.FlashRuns

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The LAST block (`cond1_1`, not `cond1_0`): as a middle block, and the output buffer, taken at anything, ends with
    its pieces written. -/
noncomputable def kernelRun1_C (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .bf16) (harg11 : arg11.IsWhole) (hc0 : ¬cond1_0 i) (hc1 : cond1_1 i)
    (x0 : Vec F S1024x1024 .bf16) (x1 : Vec F S512x1024 .bf16) (x2 : Vec F S512x1024 .bf16) (x3 : Vec F S1024x1024 .bf16) (x4 : Vec F S1x1024 .f32) (xs0 : Vec F S1024x1 .f32) (xs1 : Vec F S1024x1 .f32) (xs2 : Vec F S1024x1024 .f32) (xs3 : Vec F S1024x1024 .bf16) :
    Σ' (L5 : List (View.Piece (Elt F) S1024x1024 .f32)) (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
            ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ owns (c : Thread nD τ) arg11 fullShare xs3) -∗ K ⟨⟩))
          ⊢ wp frame (wpE (defs₀ (F := F)) Variants.none c none) E (cc1__flash_fused_kernel i arg2 harg2 arg3 harg3 arg4 harg4 arg5 harg5 arg6 harg6 arg7 harg7 arg8 harg8 arg9 harg9 arg10 harg10 arg11 harg11) K } := by
  -- The piece lists are left open and found by the run itself: each is fixed at the moment the written buffer is handed
  -- to the continuation. With the first branch not taken and the second taken, the body reads the key and value blocks
  -- and the carried scratch, stores the new denominator, numerator and maximum (one piece each), then reads numerator
  -- and denominator back from those stores, the output weight and the bias, and stores the output tile (one piece).
  -- The inputs and the scaled query tile are only read, so they come back at the contents they were given at.
  refine ⟨?_, ?_, ?_, ?_, fun E K => ?run⟩
  case run =>
    rw [cc1__flash_fused_kernel_eq_skeleton]; unfold cc1__flash_fused_kernel_skel
    rw [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2
    obtain rfl := harg5.eq_unread hf3; obtain rfl := harg6.eq_unread hf4
    obtain rfl := harg8.eq_unread hfs0; obtain rfl := harg9.eq_unread hfs1; obtain rfl := harg10.eq_unread hfs2
    obtain rfl := harg11.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    isplitl [HS1]; · iexists _; iexact HS1
    isplitl [HS2]; · iexists _; iexact HS2
    iexists _; isplitr; · ipureintro; exact harg11.read_unread _
    iexact HS3

end Cert.KernelIdeal.Hand

end
-- ==== Proof.KI.FlashOuts.lean ====
/-
  What the attention kernel's buffers hold after each grid point.

  The state the kernel carries from point to point is the contents of its four scratch buffers — running maximum,
  running denominator, running numerator, scaled query tile — and, at the last block of a query tile, what it stored in
  the output window's buffer. Per case (first / middle / last block) those contents are the pieces the case's run
  found, read back; each list of pieces covers its buffer, so reading back needs no knowledge of what the buffer
  held before. `outsAt1` strings the cases along the grid: the first-block case starts afresh from the point's query
  block, the other two continue from what the point before left.
-/
import proofs.«422776_j21586505630422_3_alg».proof.Proof.KI.FlashRunA
import proofs.«422776_j21586505630422_3_alg».proof.Proof.KI.FlashRunB
import proofs.«422776_j21586505630422_3_alg».proof.Proof.KI.FlashRunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the core's buffer contents when the launch is entered
variable (V : (c : Dev nD) → (b : Ref sig .tc) → Buf (Elt F) ((c : Thread nD τ).loc b))

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The carried state: the output window's buffer, then the four scratch buffers (maximum, denominator, numerator,
    scaled query tile). -/
abbrev St1 (F : FTy → Type) [FloatOps F] : Type := Vec F S1024x1024 .f32 × Vec F S1024x1 .f32 × Vec F S1024x1 .f32 × Vec F S1024x1024 .f32 × Vec F S1024x1024 .bf16

/-- A placeholder for the output buffer's contents at the points that do not store into it (nothing consults it: the
    window is idle there and is not written back). -/
def outJunk : Vec F S1024x1024 .f32 := VO1_5.read (Elt F) (VO1_5.junk)

/-! ## The pieces cover their buffers -/

section Covers
variable (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .bf16) (harg11 : arg11.IsWhole)
  (x0 : Vec F S1024x1024 .bf16) (x1 : Vec F S512x1024 .bf16) (x2 : Vec F S512x1024 .bf16) (x3 : Vec F S1024x1024 .bf16) (x4 : Vec F S1x1024 .f32)

theorem scover1_A_0 (hc0 : cond1_0 i) (hc1 : ¬cond1_1 i) (y : S1024x1.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3 x4).1, y ∈ pc.1.set := by
  exact View.cover_of_tiledL (kernelRun1_A c i arg2 harg2 arg3 harg3 arg4 harg4 arg5 harg5 arg6 harg6 arg7 harg7 arg8 harg8 arg9 harg9 arg10 harg10 arg11 harg11 hc0 hc1 x0 x1 x2 x3 x4).1 S1024x1.size (by sl_kernel_rfl) y
theorem scover1_A_1 (hc0 : cond1_0 i) (hc1 : ¬cond1_1 i) (y : S1024x1.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3 x4).2.1, y ∈ pc.1.set := by
  exact View.cover_of_tiledL (kernelRun1_A c i arg2 harg2 arg3 harg3 arg4 harg4 arg5 harg5 arg6 harg6 arg7 harg7 arg8 harg8 arg9 harg9 arg10 harg10 arg11 harg11 hc0 hc1 x0 x1 x2 x3 x4).2.1 S1024x1.size (by sl_kernel_rfl) y
theorem scover1_A_2 (hc0 : cond1_0 i) (hc1 : ¬cond1_1 i) (y : S1024x1024.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3 x4).2.2.1, y ∈ pc.1.set := by
  exact View.cover_of_tiledL (kernelRun1_A c i arg2 harg2 arg3 harg3 arg4 harg4 arg5 harg5 arg6 harg6 arg7 harg7 arg8 harg8 arg9 harg9 arg10 harg10 arg11 harg11 hc0 hc1 x0 x1 x2 x3 x4).2.2.1 S1024x1024.size (by sl_kernel_rfl) y
theorem scover1_A_3 (hc0 : cond1_0 i) (hc1 : ¬cond1_1 i) (y : S1024x1024.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3 x4).2.2.2.1, y ∈ pc.1.set := by
  exact View.cover_of_tiledL (kernelRun1_A c i arg2 harg2 arg3 harg3 arg4 harg4 arg5 harg5 arg6 harg6 arg7 harg7 arg8 harg8 arg9 harg9 arg10 harg10 arg11 harg11 hc0 hc1 x0 x1 x2 x3 x4).2.2.2.1 S1024x1024.size (by sl_kernel_rfl) y

variable (xs0 : Vec F S1024x1 .f32) (xs1 : Vec F S1024x1 .f32) (xs2 : Vec F S1024x1024 .f32) (xs3 : Vec F S1024x1024 .bf16)

theorem scover1_B_0 (hc0 : ¬cond1_0 i) (hc1 : ¬cond1_1 i) (y : S1024x1.Idx) :
    ∃ pc ∈ (kernelRun1_B c i arg2 harg2 arg3 harg3 arg4 harg4 arg5 harg5 arg6 harg6 arg7 harg7 arg8 harg8 arg9 harg9 arg10 harg10 arg11 harg11 hc0 hc1 x0 x1 x2 x3 x4 xs0 xs1 xs2 xs3).1, y ∈ pc.1.set := by
  exact View.cover_of_tiledL (kernelRun1_B c i arg2 harg2 arg3 harg3 arg4 harg4 arg5 harg5 arg6 harg6 arg7 harg7 arg8 harg8 arg9 harg9 arg10 harg10 arg11 harg11 hc0 hc1 x0 x1 x2 x3 x4 xs0 xs1 xs2 xs3).1 S1024x1.size (by sl_kernel_rfl) y
theorem scover1_B_1 (hc0 : ¬cond1_0 i) (hc1 : ¬cond1_1 i) (y : S1024x1.Idx) :
    ∃ pc ∈ (kernelRun1_B c i arg2 harg2 arg3 harg3 arg4 harg4 arg5 harg5 arg6 harg6 arg7 harg7 arg8 harg8 arg9 harg9 arg10 harg10 arg11 harg11 hc0 hc1 x0 x1 x2 x3 x4 xs0 xs1 xs2 xs3).2.1, y ∈ pc.1.set := by
  exact View.cover_of_tiledL (kernelRun1_B c i arg2 harg2 arg3 harg3 arg4 harg4 arg5 harg5 arg6 harg6 arg7 harg7 arg8 harg8 arg9 harg9 arg10 harg10 arg11 harg11 hc0 hc1 x0 x1 x2 x3 x4 xs0 xs1 xs2 xs3).2.1 S1024x1.size (by sl_kernel_rfl) y
theorem scover1_B_2 (hc0 : ¬cond1_0 i) (hc1 : ¬cond1_1 i) (y : S1024x1024.Idx) :
    ∃ pc ∈ (kernelRun1_B c i arg2 harg2 arg3 harg3 arg4 harg4 arg5 harg5 arg6 harg6 arg7 harg7 arg8 harg8 arg9 harg9 arg10 harg10 arg11 harg11 hc0 hc1 x0 x1 x2 x3 x4 xs0 xs1 xs2 xs3).2.2.1, y ∈ pc.1.set := by
  exact View.cover_of_tiledL (kernelRun1_B c i arg2 harg2 arg3 harg3 arg4 harg4 arg5 harg5 arg6 harg6 arg7 harg7 arg8 harg8 arg9 harg9 arg10 harg10 arg11 harg11 hc0 hc1 x0 x1 x2 x3 x4 xs0 xs1 xs2 xs3).2.2.1 S1024x1024.size (by sl_kernel_rfl) y

theorem cover1_C_5 (hc0 : ¬cond1_0 i) (hc1 : cond1_1 i) (y : S1024x1024.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 xs0 xs1 xs2 xs3).1, y ∈ pc.1.set := by
  exact View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 xs0 xs1 xs2 xs3).1 S1024x1024.size (by sl_kernel_rfl) y
theorem scover1_C_0 (hc0 : ¬cond1_0 i) (hc1 : cond1_1 i) (y : S1024x1.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 xs0 xs1 xs2 xs3).2.1, y ∈ pc.1.set := by
  exact View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 xs0 xs1 xs2 xs3).2.1 S1024x1.size (by sl_kernel_rfl) y
theorem scover1_C_1 (hc0 : ¬cond1_0 i) (hc1 : cond1_1 i) (y : S1024x1.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 xs0 xs1 xs2 xs3).2.2.1, y ∈ pc.1.set := by
  exact View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 xs0 xs1 xs2 xs3).2.2.1 S1024x1.size (by sl_kernel_rfl) y
theorem scover1_C_2 (hc0 : ¬cond1_0 i) (hc1 : cond1_1 i) (y : S1024x1024.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 xs0 xs1 xs2 xs3).2.2.2.1, y ∈ pc.1.set := by
  exact View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 xs0 xs1 xs2 xs3).2.2.2.1 S1024x1024.size (by sl_kernel_rfl) y

end Covers

/-! ## What each case leaves -/

/-- After a FIRST-block point: the scratch buffers at the case's pieces read back; the output buffer untouched. -/
def stA (c : Dev nD) (t : Fin cfg1.N) (hc0 : cond1_0 (grid1.coords t)) (hc1 : ¬cond1_1 (grid1.coords t)) : St1 F :=
  let R := kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t) (iblk1 V c 4 t)
  (outJunk,
   VS1_0.read (Elt F) (VS1_0.writes (Elt F) (VS1_0.junk) R.1),
   VS1_1.read (Elt F) (VS1_1.writes (Elt F) (VS1_1.junk) R.2.1),
   VS1_2.read (Elt F) (VS1_2.writes (Elt F) (VS1_2.junk) R.2.2.1),
   VS1_3.read (Elt F) (VS1_3.writes (Elt F) (VS1_3.junk) R.2.2.2.1))

/-- After a MIDDLE-block point, over what the point before left: maximum, denominator and numerator at the case's pieces
    read back; the scaled query tile as it was; the output buffer untouched. -/
def stB (c : Dev nD) (t : Fin cfg1.N) (hc0 : ¬cond1_0 (grid1.coords t)) (hc1 : ¬cond1_1 (grid1.coords t)) (p : St1 F) : St1 F :=
  let R := kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t) (iblk1 V c 4 t) p.2.1 p.2.2.1 p.2.2.2.1 p.2.2.2.2
  (outJunk,
   VS1_0.read (Elt F) (VS1_0.writes (Elt F) (VS1_0.junk) R.1),
   VS1_1.read (Elt F) (VS1_1.writes (Elt F) (VS1_1.junk) R.2.1),
   VS1_2.read (Elt F) (VS1_2.writes (Elt F) (VS1_2.junk) R.2.2.1),
   p.2.2.2.2)

/-- After a LAST-block point, over what the point before left: as a middle block, and the output buffer at the case's
    pieces read back. -/
def stC (c : Dev nD) (t : Fin cfg1.N) (hc0 : ¬cond1_0 (grid1.coords t)) (hc1 : cond1_1 (grid1.coords t)) (p : St1 F) : St1 F :=
  let R := kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) hc0 hc1 (iblk1 V c 0 t) (iblk1 V c 1 t) (iblk1 V c 2 t) (iblk1 V c 3 t) (iblk1 V c 4 t) p.2.1 p.2.2.1 p.2.2.2.1 p.2.2.2.2
  (VO1_5.read (Elt F) (VO1_5.writes (Elt F) (VO1_5.junk) R.1),
   VS1_0.read (Elt F) (VS1_0.writes (Elt F) (VS1_0.junk) R.2.1),
   VS1_1.read (Elt F) (VS1_1.writes (Elt F) (VS1_1.junk) R.2.2.1),
   VS1_2.read (Elt F) (VS1_2.writes (Elt F) (VS1_2.junk) R.2.2.2.1),
   p.2.2.2.2)

/-! ## Point by point -/

/-- The carried state after the body at position `n`: the case the position selects (its remainder modulo 16), the
    first-block case afresh, the others over what position `n - 1` left. -/
def outsAt1 (c : Dev nD) : (n : ℕ) → n < cfg1.N → St1 F
  | 0, hn => stA V c ⟨0, hn⟩ ((hcond1_0 ⟨0, hn⟩).mpr (Nat.zero_mod _)) (fun h => by have := (hcond1_1 ⟨0, hn⟩).mp h; simp at this)
  | n + 1, hn =>
    if h0 : (n + 1) % 16 = 0 then
      stA V c ⟨n + 1, hn⟩ ((hcond1_0 ⟨n + 1, hn⟩).mpr h0) (fun h => by have := (hcond1_1 ⟨n + 1, hn⟩).mp h; dsimp only at this; omega)
    else if h1 : (n + 1) % 16 = 15 then
      stC V c ⟨n + 1, hn⟩ (fun h => h0 ((hcond1_0 ⟨n + 1, hn⟩).mp h)) ((hcond1_1 ⟨n + 1, hn⟩).mpr h1) (outsAt1 c n (Nat.lt_of_succ_lt hn))
    else
      stB V c ⟨n + 1, hn⟩ (fun h => h0 ((hcond1_0 ⟨n + 1, hn⟩).mp h)) (fun h => h1 ((hcond1_1 ⟨n + 1, hn⟩).mp h)) (outsAt1 c n (Nat.lt_of_succ_lt hn))

/-- At a first-block point: that case's contents. -/
theorem outsAt1_A (c : Dev nD) (t : Fin cfg1.N) (h0 : t.val % 16 = 0) (hc0 : cond1_0 (grid1.coords t)) (hc1 : ¬cond1_1 (grid1.coords t)) :
    outsAt1 V c t.val t.isLt = stA V c t hc0 hc1 := by
  -- the two sides differ only in the proofs of the case's conditions
  obtain ⟨n, hn⟩ := t
  cases n with
  | zero => exact rfl
  | succ n => exact (dif_pos h0).trans rfl

/-- At a middle-block point: that case's contents over what the point before left. -/
theorem outsAt1_B (c : Dev nD) (t : Fin cfg1.N) (h0 : ¬t.val % 16 = 0) (h1 : ¬t.val % 16 = 15) (hc0 : ¬cond1_0 (grid1.coords t)) (hc1 : ¬cond1_1 (grid1.coords t)) :
    outsAt1 V c t.val t.isLt = stB V c t hc0 hc1 (outsAt1 V c (t.val - 1) (Nat.lt_of_le_of_lt (Nat.sub_le _ _) t.isLt)) := by
  -- position 0 is a first block; at a successor the position before is its predecessor
  obtain ⟨n, hn⟩ := t
  cases n with
  | zero => exact absurd (Nat.zero_mod _) h0
  | succ n => exact (dif_neg h0).trans ((dif_neg h1).trans rfl)

/-- At a last-block point: that case's contents over what the point before left. -/
theorem outsAt1_C (c : Dev nD) (t : Fin cfg1.N) (h0 : ¬t.val % 16 = 0) (h1 : t.val % 16 = 15) (hc0 : ¬cond1_0 (grid1.coords t)) (hc1 : cond1_1 (grid1.coords t)) :
    outsAt1 V c t.val t.isLt = stC V c t hc0 hc1 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

end Cert.KernelIdeal.Hand

end
-- ==== Proof.KI.Flash.lean ====
/-
  The attention launch's proof data and its body's obligation.

  Between two grid points the launch holds, beside the buffers it never touches and the generator register, its four
  scratch buffers: before the first point at anything, afterwards at what the point before left (`outsAt1`'s scratch
  components) — that is what lets a middle or last block continue the running maximum, denominator and numerator. Three
  of the launch's input windows (query, key and value blocks) look into ONE array, the first launch's result: the launch
  holds that array three times, at three shares that together make the whole. The output window is written back at the
  last block of each query tile only and is idle elsewhere. With that, the body's obligation at a point is the run of
  the case the point is in.
-/
import proofs.«422776_j21586505630422_3_alg».proof.Proof.KI.FlashOuts

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The launch's invariant before position `n`: before the first point nothing is known of the scratch; afterwards the
    four scratch buffers hold what the point before left. -/
def PhiS1 (c : Dev nD) : (n : ℕ) → n ≤ cfg1.N → sProp 𝕄
  | 0, _ => Pipeline.ΦA spec1 c
  | n + 1, hn => iprop(Rest1 (F := F) c ∗ owns (c : Thread nD τ) scM1_0 fullShare (outsAt1 V c n hn).2.1
      ∗ owns (c : Thread nD τ) scM1_1 fullShare (outsAt1 V c n hn).2.2.1 ∗ owns (c : Thread nD τ) scM1_2 fullShare (outsAt1 V c n hn).2.2.2.1
      ∗ owns (c : Thread nD τ) scM1_3 fullShare (outsAt1 V c n hn).2.2.2.2 ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(Rest1 (F := F) c ∗ owns (c : Thread nD τ) scM1_0 fullShare (outsAt1 V c n hn).2.1
      ∗ owns (c : Thread nD τ) scM1_1 fullShare (outsAt1 V c n hn).2.2.1 ∗ owns (c : Thread nD τ) scM1_2 fullShare (outsAt1 V c n hn).2.2.2.1
      ∗ owns (c : Thread nD τ) scM1_3 fullShare (outsAt1 V c n hn).2.2.2.2 ∗ (∃ r, prngReg c r)) := rfl

theorem PhiS1_pos (c : Dev nD) (n : ℕ) (h : n ≤ cfg1.N) (hz : n ≠ 0) :
    PhiS1 V c n h = iprop(Rest1 (F := F) c ∗ owns (c : Thread nD τ) scM1_0 fullShare (outsAt1 V c (n - 1) (by omega)).2.1
      ∗ owns (c : Thread nD τ) scM1_1 fullShare (outsAt1 V c (n - 1) (by omega)).2.2.1 ∗ owns (c : Thread nD τ) scM1_2 fullShare (outsAt1 V c (n - 1) (by omega)).2.2.2.1
      ∗ owns (c : Thread nD τ) scM1_3 fullShare (outsAt1 V c (n - 1) (by omega)).2.2.2.2 ∗ (∃ r, prngReg c r)) := by
  cases n with
  | zero => exact absurd rfl hz
  | succ n => rfl

/-- The launch's proof data on core `c`: the arrays as the launch finds them; after the body each input's buffer at its
    block and the output's at `outsAt1`'s first component; the invariant `PhiS1`; the array the query, key and value
    windows share held at three shares that make the whole, every other array whole; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q w := match w with
    | ⟨0, _⟩ => fullShare.left
    | ⟨1, _⟩ => fullShare.right.left
    | ⟨2, _⟩ => fullShare.right.right
    | ⟨3, _⟩ => fullShare
    | ⟨4, _⟩ => fullShare
    | ⟨5, _⟩ => fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

/-! ## What the body is handed and what it hands back -/

/-- An input window's staging buffer holds the window's block at every point, fetched there or not: where it is not
    fetched the block index has not moved and the body left the block in place. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)

/-- Whatever the position, the invariant holds the scratch buffers at SOME contents: the contents it names after the
    first point can be forgotten. -/
theorem PhiS1_forget (c : Dev nD) (n : ℕ) (h : n ≤ cfg1.N) :
    PhiS1 V c n h ⊢ iprop(Rest1 (F := F) c ∗ (∃ d, owns (c : Thread nD τ) scM1_0 fullShare d) ∗ (∃ d, owns (c : Thread nD τ) scM1_1 fullShare d)
      ∗ (∃ d, owns (c : Thread nD τ) scM1_2 fullShare d) ∗ (∃ d, owns (c : Thread nD τ) scM1_3 fullShare d) ∗ (∃ r, prngReg c r)) := by
  cases n with
  | zero => exact (PhiA1_eq c).1
  | succ n =>
    rw [PhiS1_succ]
    iintro ⟨HR, HS0, HS1, HS2, HS3, Hg⟩
    isplitl [HR]; · iexact HR
    isplitl [HS0]; · iexists _; iexact HS0
    isplitl [HS1]; · iexists _; iexact HS1
    isplitl [HS2]; · iexists _; iexact HS2
    isplitl [HS3]; · iexists _; iexact HS3
    iexact Hg

/-- The same beside anything else the core holds: what follows from the scratch buffers at some contents follows from
    the invariant. -/
theorem PhiS1_forget_frame (c : Dev nD) (n : ℕ) (h : n ≤ cfg1.N) (Q R : sProp 𝕄)
    (hR : iprop((Rest1 (F := F) c ∗ (∃ d, owns (c : Thread nD τ) scM1_0 fullShare d) ∗ (∃ d, owns (c : Thread nD τ) scM1_1 fullShare d)
      ∗ (∃ d, owns (c : Thread nD τ) scM1_2 fullShare d) ∗ (∃ d, owns (c : Thread nD τ) scM1_3 fullShare d) ∗ (∃ r, prngReg c r)) ∗ Q) ⊢ R) :
    iprop(PhiS1 V c n h ∗ Q) ⊢ R :=
  (sep_mono_l (PhiS1_forget V c n h)).trans hR

/-- What the body is called with at point `t`: the invariant, what the core owes, each window's current buffer. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- What the body returns at point `t`. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

/-- An input window is live everywhere: the body leaves its buffer at the block. -/
theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]
theorem leaves1_3 (c : Dev nD) (t : Fin cfg1.N) : (dat1 V c).leavesExact 3 t = owns (c : Thread nD τ) (ms1_3 t) fullShare (iblk1 V c 3 t) := by
  unfold Dat.leavesExact; rw [liveAt1_3 t, after1_3]
theorem leaves1_4 (c : Dev nD) (t : Fin cfg1.N) : (dat1 V c).leavesExact 4 t = owns (c : Thread nD τ) (ms1_4 t) fullShare (iblk1 V c 4 t) := by
  unfold Dat.leavesExact; rw [liveAt1_4 t, after1_4]
/-- The output window away from the last block: idle and not written back, its buffer comes back as it was found. -/
theorem leaves1_5_idle (c : Dev nD) (t : Fin cfg1.N) (hc1 : ¬cond1_1 (grid1.coords t)) :
    (dat1 V c).leavesExact 5 t = iprop(∃ d, owns (c : Thread nD τ) (ms1_5 t) fullShare ((dat1 V c).before 5 t d)) :=
  Dat.leavesExact_idle (dat1 V c) 5 t (idleAt1_5 t hc1) (noFlush1_5 t hc1)
/-- The output window at the last block: live, its buffer at what the point stored. -/
theorem leaves1_5_live (c : Dev nD) (t : Fin cfg1.N) (hc1 : cond1_1 (grid1.coords t)) :
    (dat1 V c).leavesExact 5 t = owns (c : Thread nD τ) (ms1_5 t) fullShare (outsAt1 V c t.val t.isLt).1 := by
  unfold Dat.leavesExact; rw [liveAt1_5 t hc1, after1_5]

set_option maxHeartbeats 4800000 in
/-- The body at any point. Its position modulo 16 says which case it is in, and that case's run applies: the inputs'
    buffers hold their blocks; the invariant hands over the scratch buffers at what the point before left (at anything
    before the first point, which is a first block and asks no more) and takes them back at this point's contents, each
    written buffer read back through its covering pieces; the untouched buffers, the generator register and what the core
    owes pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3, leaves1_4]
  have hN : t.val < 128 := lt_of_lt_of_eq t.isLt (show cfg1.N = 128 from N_1)
  by_cases h0 : t.val % 16 = 0
  · have hc0 : cond1_0 (grid1.coords t) := (hcond1_0 t).mpr h0
    have hc1 : ¬cond1_1 (grid1.coords t) := fun h => by have := (hcond1_1 t).mp h; omega
    rw [leaves1_5_idle V c t hc1, outsAt1_A V c t h0 hc0 hc1]
    unfold stA; dsimp only
    rw [PhiS1_castSucc V c t]
    refine PhiS1_forget_frame V c _ _ _ _ ?_
    iintro ⟨⟨HR, HS0, HS1, HS2, HS3, Hg⟩, Ho, ⟨%d0, H0⟩, ⟨%d1, H1⟩, ⟨%d2, H2⟩, ⟨%d3, H3⟩, ⟨%d4, H4⟩, ⟨%d5, H5⟩⟩
    iapply ((kernelRun1_A c (grid1.coords t) _ _ _ _ _ _ _ _ _ _ _ _ _ _ _ _ _ _ _ _ hc0 hc1 (iblk1 V c 0 t) (iblk1 V c 1 t) (iblk1 V c 2 t) (iblk1 V c 3 t) (iblk1 V c 4 t)).2.2.2.2 _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    isplitl [HS3]; · iexact HS3
    iintro ⟨H0, H1, H2, H3, H4, H5, ⟨%e0, HS0⟩, ⟨%e1, HS1⟩, ⟨%e2, HS2⟩, ⟨%e3, HS3⟩⟩
    isplitl [HR HS0 HS1 HS2 HS3 Hg]
    · isplitl [HR]; · iexact HR
      isplitl [HS0]
      · unfold owns; iexists _; isplitr
        swap; · iexact HS0
        ipureintro; exact View.read_writes_of_cover _ _ _ _ _ (scover1_A_0 c _ _ _ _ _ _ _ _ _ _ _ _ _ _ _ _ _ _ _ _ _ _ _ _ _ _ hc0 hc1)
      isplitl [HS1]
      · unfold owns; iexists _; isplitr
        swap; · iexact HS1
        ipureintro; exact View.read_writes_of_cover _ _ _ _ _ (scover1_A_1 c _ _ _ _ _ _ _ _ _ _ _ _ _ _ _ _ _ _ _ _ _ _ _ _ _ _ hc0 hc1)
      isplitl [HS2]
      · unfold owns; iexists _; isplitr
        swap; · iexact HS2
        ipureintro; exact View.read_writes_of_cover _ _ _ _ _ (scover1_A_2 c _ _ _ _ _ _ _ _ _ _ _ _ _ _ _ _ _ _ _ _ _ _ _ _ _ _ hc0 hc1)
      isplitl [HS3]
      · unfold owns; iexists _; isplitr
        swap; · iexact HS3
        ipureintro; exact View.read_writes_of_cover _ _ _ _ _ (scover1_A_3 c _ _ _ _ _ _ _ _ _ _ _ _ _ _ _ _ _ _ _ _ _ _ _ _ _ _ hc0 hc1)
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hc0 : ¬cond1_0 (grid1.coords t) := fun h => h0 ((hcond1_0 t).mp h)
    have hz : t.val ≠ 0 := fun h => h0 (by rw [h])
    by_cases h1 : t.val % 16 = 15
    · have hc1 : cond1_1 (grid1.coords t) := (hcond1_1 t).mpr h1
      rw [leaves1_5_live V c t hc1, outsAt1_C V c t h0 h1 hc0 hc1]
      unfold stC; dsimp only
      rw [PhiS1_castSucc V c t, PhiS1_pos V c _ _ hz]
      iintro ⟨⟨HR, HS0, HS1, HS2, HS3, Hg⟩, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ _ _ _ _ _ _ _ _ hc0 hc1 (iblk1 V c 0 t) (iblk1 V c 1 t) (iblk1 V c 2 t) (iblk1 V c 3 t) (iblk1 V c 4 t) _ _ _ _).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      isplitl [HS3]; · iexact HS3
      iintro ⟨H0, H1, H2, H3, H4, ⟨%e5, H5⟩, ⟨%e0, HS0⟩, ⟨%e1, HS1⟩, ⟨%e2, HS2⟩, HS3⟩
      isplitl [HR HS0 HS1 HS2 HS3 Hg]
      · isplitl [HR]; · iexact HR
        isplitl [HS0]
        · unfold owns; iexists _; isplitr
          swap; · iexact HS0
          ipureintro; exact View.read_writes_of_cover _ _ _ _ _ (scover1_C_0 c _ _ _ _ _ _ _ _ _ _ _ _ _ _ _ _ _ _ _ _ _ _ _ _ _ _ _ _ _ _ hc0 hc1)
        isplitl [HS1]
        · unfold owns; iexists _; isplitr
          swap; · iexact HS1
          ipureintro; exact View.read_writes_of_cover _ _ _ _ _ (scover1_C_1 c _ _ _ _ _ _ _ _ _ _ _ _ _ _ _ _ _ _ _ _ _ _ _ _ _ _ _ _ _ _ hc0 hc1)
        isplitl [HS2]
        · unfold owns; iexists _; isplitr
          swap; · iexact HS2
          ipureintro; exact View.read_writes_of_cover _ _ _ _ _ (scover1_C_2 c _ _ _ _ _ _ _ _ _ _ _ _ _ _ _ _ _ _ _ _ _ _ _ _ _ _ _ _ _ _ hc0 hc1)
        isplitl [HS3]; · iexact HS3
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_C_5 c _ _ _ _ _ _ _ _ _ _ _ _ _ _ _ _ _ _ _ _ _ _ _ _ _ _ _ _ _ _ hc0 hc1)
    · have hc1 : ¬cond1_1 (grid1.coords t) := fun h => h1 ((hcond1_1 t).mp h)
      rw [leaves1_5_idle V c t hc1, outsAt1_B V c t h0 h1 hc0 hc1]
      unfold stB; dsimp only
      rw [PhiS1_castSucc V c t, PhiS1_pos V c _ _ hz]
      iintro ⟨⟨HR, HS0, HS1, HS2, HS3, Hg⟩, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ _ _ _ _ _ _ _ _ hc0 hc1 (iblk1 V c 0 t) (iblk1 V c 1 t) (iblk1 V c 2 t) (iblk1 V c 3 t) (iblk1 V c 4 t) _ _ _ _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H2, H3, H4, H5, ⟨%e0, HS0⟩, ⟨%e1, HS1⟩, ⟨%e2, HS2⟩, HS3⟩
      isplitl [HR HS0 HS1 HS2 HS3 Hg]
      · isplitl [HR]; · iexact HR
        isplitl [HS0]
        · unfold owns; iexists _; isplitr
          swap; · iexact HS0
          ipureintro; exact View.read_writes_of_cover _ _ _ _ _ (scover1_B_0 c _ _ _ _ _ _ _ _ _ _ _ _ _ _ _ _ _ _ _ _ _ _ _ _ _ _ _ _ _ _ hc0 hc1)
        isplitl [HS1]
        · unfold owns; iexists _; isplitr
          swap; · iexact HS1
          ipureintro; exact View.read_writes_of_cover _ _ _ _ _ (scover1_B_1 c _ _ _ _ _ _ _ _ _ _ _ _ _ _ _ _ _ _ _ _ _ _ _ _ _ _ _ _ _ _ hc0 hc1)
        isplitl [HS2]
        · unfold owns; iexists _; isplitr
          swap; · iexact HS2
          ipureintro; exact View.read_writes_of_cover _ _ _ _ _ (scover1_B_2 c _ _ _ _ _ _ _ _ _ _ _ _ _ _ _ _ _ _ _ _ _ _ _ _ _ _ _ _ _ _ hc0 hc1)
        isplitl [HS3]; · iexact HS3
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The body's obligation at every point of the launch. -/
theorem body_obligation1 (c : Dev nD) : BodyObligation (dat1 (F := F) V c) (defs₀ (F := F)) Variants.none () Set.univ := fun t => by
  rw [bigSep_W1, bigSep_W1]
  exact sound_body1 V c t

/-- What the launch hands the body before the first point is the invariant there. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- Between any two points, and after the last, the invariant gives the launch's resources back: the scratch contents
    are forgotten. -/
theorem Phi_out1 (c : Dev nD) (t : Fin (cfg1.N + 1)) : (dat1 V c).Φ t ⊢ Pipeline.ΦA spec1 c := by
  rw [show (dat1 V c).Φ t = PhiS1 V c t.val (Nat.le_of_lt_succ t.isLt) from rfl]
  exact (PhiS1_forget V c _ _).trans (PhiA1_eq c).2

/-- After the last point the invariant gives the launch's resources back, the scratch contents forgotten. -/
theorem hout1 (c : Dev nD) : (dat1 V c).Φ (Fin.last cfg1.N) ⊢ Pipeline.ΦA spec1 c :=
  Phi_out1 V c _

end Cert.KernelIdeal.Hand

end
-- ==== Proof.KI.Shares.lean ====
/-
  One array behind three windows.

  The attention launch looks into the projection's result through its query, key and value windows, so the launch's
  proof data hold that array three times, at three shares that together are the whole (a left half, and the two halves of
  the right half). At the launch's entry the buffer, held whole, is split into those shares; at its exit — the three
  windows are inputs, so each still holds the entry contents — the shares are joined back. The other three arrays (output
  weight, output bias, result) stand behind one window each and are held whole throughout.
-/
import proofs.«422776_j21586505630422_3_alg».proof.Proof.KI.Flash

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The four distinct buffers behind the launch's six windows. -/
theorem arrImage1 : Finset.univ.image (Pipeline.arrRef spec1) = ([main_v3, main_v1, main_v4, main_v5] : List (Ref sig .tc)).toFinset := by
  decide

/-- A whole array's view covers the array. -/
theorem whole_set (b : Ref sig .tc) : (Memref.whole b).view.set = Finset.univ := (Memref.isWhole_whole b).set_eq_univ

/-- ENTRY: the buffers behind the launch's arrays, each held whole at the entry contents, are the launch's arrays at its
    shares. -/
theorem arrays_of_arrBufs1 (c : Dev nD) :
    (Pipeline.arrBufs (Ix := Unit) (Name := ℕ) (U := UR sig nD τ) (Lvl := ℕ) spec1 c (V c) : sProp 𝕄)
      ⊢ (dat1 V c).arrays ((dat1 V c).arrAt · 0) := by
  unfold Pipeline.arrBufs Pipeline.Dat.arrays
  rw [bigSep_eq_bigSepL_of_eq _ arrImage1 (by decide), bigSep_W1]
  simp only [bigSepL_cons_cons, bigSepL_singleton]
  have e3 := whole_set main_v3
  have e1 := whole_set main_v1
  have e4 := whole_set main_v4
  have e5 := whole_set main_v5
  show iprop((((c : Thread nD τ).loc main_v3) ↦{fullShare} V c main_v3) ∗ (((c : Thread nD τ).loc main_v1) ↦{fullShare} V c main_v1)
        ∗ (((c : Thread nD τ).loc main_v4) ↦{fullShare} V c main_v4) ∗ (((c : Thread nD τ).loc main_v5) ↦{fullShare} V c main_v5))
    ⊢ iprop((((c : Thread nD τ).loc main_v3) ↦[(Memref.whole main_v3).view.set]{fullShare.left} V c main_v3)
      ∗ (((c : Thread nD τ).loc main_v3) ↦[(Memref.whole main_v3).view.set]{fullShare.right.left} V c main_v3)
      ∗ (((c : Thread nD τ).loc main_v3) ↦[(Memref.whole main_v3).view.set]{fullShare.right.right} V c main_v3)
      ∗ (((c : Thread nD τ).loc main_v1) ↦[(Memref.whole main_v1).view.set]{fullShare} V c main_v1)
      ∗ (((c : Thread nD τ).loc main_v4) ↦[(Memref.whole main_v4).view.set]{fullShare} V c main_v4)
      ∗ (((c : Thread nD τ).loc main_v5) ↦[(Memref.whole main_v5).view.set]{fullShare} V c main_v5))
  rw [e3, e1, e4, e5]
  refine (sep_mono ((pointsTo_share (PosShare.mem_left_op_right fullShare)).1.trans
    (sep_mono .rfl (pointsTo_share (PosShare.mem_left_op_right fullShare.right)).1)) .rfl).trans ?_
  iintro ⟨⟨Ha, Hb, Hc⟩, H1, H4, H5⟩
  isplitl [Ha]; · iexact Ha
  isplitl [Hb]; · iexact Hb
  isplitl [Hc]; · iexact Hc
  isplitl [H1]; · iexact H1
  isplitl [H4]; · iexact H4
  iexact H5

/-- EXIT: the launch's arrays after its last point — the three shares of the projection's result joined again, the result
    array at what the write-backs left — and the buffers no window looks into are every outside buffer at any contents
    `V'` that has the result array there and agrees with the entry contents elsewhere. -/
theorem unscopedBufs_of_arrays1' (c : Dev nD) (V' : (b : Ref sig .tc) → Buf (Elt F) ((c : Thread nD τ).loc b))
    (hout : V' main_v5 = (dat1 V c).arrAt 5 cfg1.N) (hrest : ∀ b, b ≠ main_v5 → V' b = V c b) :
    iprop((dat1 V c).arrays ((dat1 V c).arrAt · cfg1.N)
        ∗ Pipeline.unscopedRest (Ix := Unit) (Name := ℕ) (U := UR sig nD τ) (Lvl := ℕ) spec1 c (V c))
      ⊢ (unscopedBufs c V' : sProp 𝕄) := by
  rw [Pipeline.unscopedBufs_split₀ cfgs 1 winFacts₀1.arr_unscoped c V']
  refine sep_mono ?_ (Entails.of_eq ?_)
  · unfold Pipeline.arrBufs Pipeline.Dat.arrays
    show bigSep Finset.univ _ ⊢ bigSep (Finset.univ.image (Pipeline.arrRef spec1)) _
    rw [bigSep_eq_bigSepL_of_eq _ arrImage1 (by decide), bigSep_W1]
    simp only [bigSepL_cons_cons, bigSepL_singleton]
    have e3 := whole_set main_v3
    have e1 := whole_set main_v1
    have e4 := whole_set main_v4
    have e5 := whole_set main_v5
    have a0 : (dat1 V c).arrAt 0 cfg1.N = V c main_v3 := (dat1 V c).arrAt_in 0 rfl _
    have a1 : (dat1 V c).arrAt 1 cfg1.N = V c main_v3 := (dat1 V c).arrAt_in 1 rfl _
    have a2 : (dat1 V c).arrAt 2 cfg1.N = V c main_v3 := (dat1 V c).arrAt_in 2 rfl _
    have a3 : (dat1 V c).arrAt 3 cfg1.N = V c main_v1 := (dat1 V c).arrAt_in 3 rfl _
    have a4 : (dat1 V c).arrAt 4 cfg1.N = V c main_v4 := (dat1 V c).arrAt_in 4 rfl _
    show iprop((((c : Thread nD τ).loc main_v3) ↦[(Memref.whole main_v3).view.set]{fullShare.left} (dat1 V c).arrAt 0 cfg1.N)
        ∗ (((c : Thread nD τ).loc main_v3) ↦[(Memref.whole main_v3).view.set]{fullShare.right.left} (dat1 V c).arrAt 1 cfg1.N)
        ∗ (((c : Thread nD τ).loc main_v3) ↦[(Memref.whole main_v3).view.set]{fullShare.right.right} (dat1 V c).arrAt 2 cfg1.N)
        ∗ (((c : Thread nD τ).loc main_v1) ↦[(Memref.whole main_v1).view.set]{fullShare} (dat1 V c).arrAt 3 cfg1.N)
        ∗ (((c : Thread nD τ).loc main_v4) ↦[(Memref.whole main_v4).view.set]{fullShare} (dat1 V c).arrAt 4 cfg1.N)
        ∗ (((c : Thread nD τ).loc main_v5) ↦[(Memref.whole main_v5).view.set]{fullShare} (dat1 V c).arrAt 5 cfg1.N))
      ⊢ iprop((((c : Thread nD τ).loc main_v3) ↦{fullShare} V' main_v3) ∗ (((c : Thread nD τ).loc main_v1) ↦{fullShare} V' main_v1)
        ∗ (((c : Thread nD τ).loc main_v4) ↦{fullShare} V' main_v4) ∗ (((c : Thread nD τ).loc main_v5) ↦{fullShare} V' main_v5))
    rw [e3, e1, e4, e5, a0, a1, a2, a3, a4, hrest main_v3 (by decide), hrest main_v1 (by decide), hrest main_v4 (by decide), hout]
    iintro ⟨Ha, Hb, Hc, H1, H4, H5⟩
    isplitl [Ha Hb Hc]
    · iapply (pointsTo_share (PosShare.mem_left_op_right fullShare)).2
      isplitl [Ha]; · iexact Ha
      iapply (pointsTo_share (PosShare.mem_left_op_right fullShare.right)).2
      isplitl [Hb]; · iexact Hb
      iexact Hc
    isplitl [H1]; · iexact H1
    isplitl [H4]; · iexact H4
    iexact H5
  · unfold Pipeline.unscopedRest
    exact bigSep_congr fun b hb => by
      rw [hrest b (fun e => (Finset.mem_sdiff.mp hb).2 (e ▸ (by decide : main_v5 ∈ Finset.univ.image (Pipeline.arrRef spec1))))]

end Cert.KernelIdeal.Hand

end
-- ==== Proof.KI.Run.lean ====
/-
  The whole program's run.

  @main is four items: a stretch of host operations (the two weight narrowings and the bias reshape), the projection
  launch, one more host operation (the output bias reshape), the attention launch. Between items every buffer of the
  core that lives outside the launches is held at known contents: the launch memory, then each host stretch's results,
  then — after a launch — the launch's arrays at what its write-backs leave (`W0 … W4`). Each launch is entered from that
  state and left at the next: its arrays are split out of the buffers at entry and put back at exit. The attention
  launch reads the projection's result through THREE windows, so at its entry the one buffer is split into three shares
  and at its exit joined again. Read at the end, the state says that every argument array is as launched and that the
  result array holds what the attention launch's write-backs leave.
-/
import proofs.«422776_j21586505630422_3_alg».proof.Proof.KI.Lin
import proofs.«422776_j21586505630422_3_alg».proof.Proof.KI.Flash
import proofs.«422776_j21586505630422_3_alg».proof.Proof.KI.Shares
import proofs.«422776_j21586505630422_3_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 (c : Dev nD) : Valuation τ sig (Elt F) := fun b => m (c, b)
/-- After the first host stretch (the projection launch's entry). -/
abbrev W1 (c : Dev nD) : Valuation τ sig (Elt F) := StableHlo.after hostOps0 (W0 m c)
abbrev U1 : (c : Dev nD) → (b : Ref sig .tc) → Buf (Elt F) ((c : Thread nD τ).loc b) := fun c b => W1 m c b
/-- At the projection launch's exit: its arrays at what its write-backs leave, every other buffer as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)
/-- After the second host stretch (the attention launch's entry). -/
abbrev W3 (c : Dev nD) : Valuation τ sig (Elt F) := StableHlo.after hostOps1 (W2 m c)
abbrev U3 : (c : Dev nD) → (b : Ref sig .tc) → Buf (Elt F) ((c : Thread nD τ).loc b) := fun c b => W3 m c b
/-- At the attention launch's exit: the result array at what the launch's write-backs leave, every other buffer as
    entered (the launch's other arrays are inputs). -/
def W4 (c : Dev nD) : Valuation τ sig (Elt F) :=
  Function.update (W3 m c) (Proc.devRef .tc (Pipeline.arrRef spec1 5)) ((dat1 (U3 m) c).arrAt 5 cfg1.N)
theorem W4_out (c : Dev nD) : W4 m c (Proc.devRef .tc (Pipeline.arrRef spec1 5)) = (dat1 (U3 m) c).arrAt 5 cfg1.N := by
  unfold W4; exact Function.update_self ..
theorem W4_of_ne (c : Dev nD) (b : Ref sig .tc) (hb : b ≠ main_v5) : W4 m c (Proc.devRef .tc b) = W3 m c (Proc.devRef .tc b) := by
  unfold W4; exact Function.update_of_ne (StableHlo.devRef_ne_of_ne hb) ..
abbrev U4 : (c : Dev nD) → (b : Ref sig .tc) → Buf (Elt F) ((c : Thread nD τ).loc b) := fun c b => W4 m c b

/-! ### The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_writes_sub hostOps1 _ hostOps1_writes (r := main_arg0) (by decide)
    _ = W1 m c (Proc.devRef .tc main_arg0) := (W2_arr m c 0).trans (((dat0 (U1 m) c).arrAt_in 0 rfl _).trans (A_eq0 (U1 m) c 0))
    _ = W0 m c (Proc.devRef .tc main_arg0) := StableHlo.after_of_writes_sub hostOps0 _ hostOps0_writes (r := main_arg0) (by decide)
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_writes_sub hostOps1 _ hostOps1_writes (r := main_arg1) (by decide)
    _ = W1 m c (Proc.devRef .tc main_arg1) := W2_of_ne m c main_arg1 (by decide)
    _ = W0 m c (Proc.devRef .tc main_arg1) := StableHlo.after_of_writes_sub hostOps0 _ hostOps0_writes (r := main_arg1) (by decide)
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_writes_sub hostOps1 _ hostOps1_writes (r := main_arg2) (by decide)
    _ = W1 m c (Proc.devRef .tc main_arg2) := W2_of_ne m c main_arg2 (by decide)
    _ = W0 m c (Proc.devRef .tc main_arg2) := StableHlo.after_of_writes_sub hostOps0 _ hostOps0_writes (r := main_arg2) (by decide)
    _ = m ((c : Thread nD τ).loc main_arg2) := rfl

theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_writes_sub hostOps1 _ hostOps1_writes (r := main_arg3) (by decide)
    _ = W1 m c (Proc.devRef .tc main_arg3) := W2_of_ne m c main_arg3 (by decide)
    _ = W0 m c (Proc.devRef .tc main_arg3) := StableHlo.after_of_writes_sub hostOps0 _ hostOps0_writes (r := main_arg3) (by decide)
    _ = m ((c : Thread nD τ).loc main_arg3) := rfl

theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := StableHlo.after_of_writes_sub hostOps1 _ hostOps1_writes (r := main_arg4) (by decide)
    _ = W1 m c (Proc.devRef .tc main_arg4) := W2_of_ne m c main_arg4 (by decide)
    _ = W0 m c (Proc.devRef .tc main_arg4) := StableHlo.after_of_writes_sub hostOps0 _ hostOps0_writes (r := main_arg4) (by decide)
    _ = m ((c : Thread nD τ).loc main_arg4) := rfl

/-! ## The proof data family and the thread state -/

/-- Every launch's proof data, each at its launch's entry contents. -/
def pdats : (p : Fin 2) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- A host stretch as a segment over every buffer outside the launches, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, the `owes` apart. -/
abbrev Tₙ (c : Dev nD) : sProp 𝕄 := iprop(StableHlo.held (c : Thread nD τ) (Pipeline.ucRefs τ sig) (W4 m c) ∗ ∃ r, prngReg c r)

/-! ## The projection launch as a segment -/

set_option backward.isDefEq.respectTransparency.types false in
/-- Entered from every outside buffer at `W1`, left at `W2`: its four arrays (all distinct) split out of the buffers and
    put back at the exit contents; the generator register into the body's invariant and out; nothing owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The attention launch as a segment: one array behind three windows -/

/-- ENTRY. The buffers behind the attention launch's arrays, each held whole, are the launch's arrays at its shares:
    the projection's result, read through the query, key and value windows, is split into three shares. -/
theorem arrays_of_arrBufs (c : Dev nD) :
    (Pipeline.arrBufs (Ix := Unit) (Name := ℕ) (U := UR sig nD τ) (Lvl := ℕ) spec1 c (U3 m c) : sProp 𝕄)
      ⊢ (dat1 (U3 m) c).arrays ((dat1 (U3 m) c).arrAt · 0) :=
  arrays_of_arrBufs1 (U3 m) c

/-- EXIT. The launch's arrays after its last point — the three shares of the projection's result joined again, the
    result array at what the write-backs left — and the buffers no window looks into make every outside buffer at `W4`. -/
theorem unscopedBufs_of_arrays1 (c : Dev nD) :
    iprop((dat1 (U3 m) c).arrays ((dat1 (U3 m) c).arrAt · cfg1.N)
        ∗ Pipeline.unscopedRest (Ix := Unit) (Name := ℕ) (U := UR sig nD τ) (Lvl := ℕ) spec1 c (U3 m c))
      ⊢ (unscopedBufs c (U4 m c) : sProp 𝕄) :=
  unscopedBufs_of_arrays1' (U3 m) c (U4 m c) (W4_out m c) (fun b hb => W4_of_ne m c b hb)

set_option backward.isDefEq.respectTransparency.types false in
/-- Entered from every outside buffer at `W3`, left at `W4`. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit : (unscopedBufs c (U3 m c) : sProp 𝕄)
        ⊢ iprop((pdats m 1 c).arrays ((pdats m 1 c).arrAt · 0) ∗ Pipeline.unscopedRest spec1 c (U3 m c)) := by
      rw [Pipeline.unscopedBufs_split₀ cfgs 1 winFacts₀1.arr_unscoped c (U3 m c)]
      exact sep_mono (arrays_of_arrBufs m c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (U3 m) c)
    unfold Pipeline.ΦA
    iintro ⟨Hp, -, Hr⟩
    isplitl [Hr]; · iexact Hr
    iexact Hp
  hout c := by
    rw [Pipeline.ownSems0_none]
    refine BIBase.Entails.trans (hout1 (U3 m) c) ?_
    unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N)
          ∗ Pipeline.unscopedRest (Ix := Unit) (Name := ℕ) (U := UR sig nD τ) (Lvl := ℕ) spec1 c (U3 m c))
        ⊢ (unscopedBufs c (U4 m c) : sProp 𝕄) := unscopedBufs_of_arrays1 m c
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segsH : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segsH m) := (main_chain c).trans (by chain_rfl)

set_option backward.isDefEq.respectTransparency.types false in
/-- THE RUN. From any memory with zero counters every weakly fair execution of @main terminates, nothing faulting, and in
    every final state every buffer outside the launches holds `W4`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segsH m)
    (fun c Q => by rw [main_run m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- THE FRAME, at any instance: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c)⟩) (run_main m ρ)

/-- THE RUN WITH ITS RESULT NAMED: the result array ends at what the attention launch's write-backs leave, the arguments
    as launched. -/
theorem run_value : θ_run defs (onTc (τ := τ) (main (F := F))) ⟨m, fun _ => 0, ρ⟩ (fun r => ∀ c : Dev nD,
      r.2.mem ((c.tc : Thread nD τ).loc main_v5) = (dat1 (U3 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v5 (by decide))).trans (W4_out m c),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c)⟩) (run_main m ρ)

end Cert.KernelIdeal.Hand

end
-- ==== Proof.KI.Boundary.lean ====
/-
  What the two launches find in the buffers the host operations wrote, over the extended reals.

  Before the projection launch the host narrows the projection weight to bf16 (over the extended reals: the identity)
  and reshapes the bias from [3072] to [1, 3072]; before the attention launch it has likewise narrowed the output weight
  and reshapes the output bias from [1024] to [1, 1024]; the attention launch finds the projection's result where the
  projection launch's write-backs left it. So each of those buffers, read at an index, is an argument array (or the
  projection's result) read at the matching index.
-/
import proofs.«422776_j21586505630422_3_alg».proof.Proof.KI.Run
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Cert.KernelIdeal.Hand

variable (m : (ℓ : Loc nD τ sig) → Buf (Elt Ideal) ℓ) (c : Dev nD)

theorem U1_x (i : Fin 8192) (k : Fin 1024) :
    (U1 m c main_arg0 : S8192x1024.Idx → EReal) (ix2 i k) = (m ((c : Thread nD τ).loc main_arg0) : S8192x1024.Idx → EReal) (ix2 i k) := by
  have h : (U1 m c main_arg0 : S8192x1024.Idx → EReal) = (m ((c : Thread nD τ).loc main_arg0) : S8192x1024.Idx → EReal) :=
    StableHlo.after_of_writes_sub hostOps0 _ hostOps0_writes (r := main_arg0) (by decide)
  exact congrFun h _

theorem U1_w (j : Fin 3072) (k : Fin 1024) :
    (U1 m c main_v0 : S3072x1024.Idx → EReal) (ix2 j k) = (m ((c : Thread nD τ).loc main_arg1) : S3072x1024.Idx → EReal) (ix2 j k) := by
  show (StableHlo.after hostOps0 (W0 m c) (Proc.devRef .tc main_v0) : S3072x1024.Idx → EReal) (ix2 j k) = _
  dsimp only [hostOps0]
  after_results
  rfl

theorem U1_b (j : Fin 3072) :
    (U1 m c main_v2 : S1x3072.Idx → EReal) (ix2 (0 : Fin 1) j) = (m ((c : Thread nD τ).loc main_arg2) : S3072.Idx → EReal) (ix1 j) := by
  have h : (U1 m c main_v2 : S1x3072.Idx → EReal)
      = fun i => shapeCast S1x3072 (m ((c : Thread nD τ).loc main_arg2) : S3072.Idx → EReal) shapeCasts_S3072_S1x3072 i := by
    show StableHlo.after hostOps0 (W0 m c) (Proc.devRef .tc main_v2) = _
    dsimp only [hostOps0]
    after_results
    rfl
  rw [h]
  exact shapeCast_apply _ _ _ (ix1 j) (by rw [Shape.rowMajor_val_one, Shape.rowMajor_val_two]; show j.val = 0 * 3072 + j.val; omega)

theorem U3_qkv : U3 m c main_v3 = (dat0 (F := Ideal) (U1 m) c).arrAt 3 cfg0.N := by
  have h1 : U3 m c main_v3 = W2 m c (Proc.devRef .tc main_v3) :=
    StableHlo.after_of_writes_sub hostOps1 _ hostOps1_writes (r := main_v3) (by decide)
  exact h1.trans (W2_arr m c 3)

theorem U3_wo (n d : Fin 1024) :
    (U3 m c main_v1 : S1024x1024.Idx → EReal) (ix2 n d) = (m ((c : Thread nD τ).loc main_arg3) : S1024x1024.Idx → EReal) (ix2 n d) := by
  have h1 : (U3 m c main_v1 : S1024x1024.Idx → EReal) = (W2 m c (Proc.devRef .tc main_v1) : S1024x1024.Idx → EReal) :=
    StableHlo.after_of_writes_sub hostOps1 _ hostOps1_writes (r := main_v1) (by decide)
  have h2 : (W2 m c (Proc.devRef .tc main_v1) : S1024x1024.Idx → EReal) = (W1 m c (Proc.devRef .tc main_v1) : S1024x1024.Idx → EReal) :=
    W2_of_ne m c main_v1 (by decide)
  rw [h1, h2]
  show (StableHlo.after hostOps0 (W0 m c) (Proc.devRef .tc main_v1) : S1024x1024.Idx → EReal) (ix2 n d) = _
  dsimp only [hostOps0]
  after_results
  rfl

theorem U3_bo (n : Fin 1024) :
    (U3 m c main_v4 : S1x1024.Idx → EReal) (ix2 (0 : Fin 1) n) = (m ((c : Thread nD τ).loc main_arg4) : S1024.Idx → EReal) (ix1 n) := by
  have h1 : (U3 m c main_v4 : S1x1024.Idx → EReal)
      = fun i => shapeCast S1x1024 (W2 m c (Proc.devRef .tc main_arg4) : S1024.Idx → EReal) shapeCasts_S1024_S1x1024 i := by
    show StableHlo.after hostOps1 (W2 m c) (Proc.devRef .tc main_v4) = _
    dsimp only [hostOps1]
    after_results
    rfl
  have h2 : (W2 m c (Proc.devRef .tc main_arg4) : S1024.Idx → EReal) = (m ((c : Thread nD τ).loc main_arg4) : S1024.Idx → EReal) :=
    (W2_of_ne m c main_arg4 (by decide)).trans (StableHlo.after_of_writes_sub hostOps0 _ hostOps0_writes (r := main_arg4) (by decide))
  rw [h1, h2]
  exact shapeCast_apply _ _ _ (ix1 n) (by rw [Shape.rowMajor_val_one, Shape.rowMajor_val_two]; show n.val = 0 * 1024 + n.val; omega)

end Cert.KernelIdeal.Val

end
-- ==== Proof.Spec.lean ====
/-
  The mathematics of the certificate, over the reals, with no program in sight.

  A fused QKV projection `qkv = x · wᵀ + b` (rows of `x` against rows of `w`), then single-head attention over the
  three column thirds of `qkv` (queries, keys, values): the score of query row `i` against key row `j` is their inner
  product divided by 32 (= √1024), each row of scores is soft-maxed with its maximum subtracted, the context is the
  soft-max-weighted sum of value rows, and the output projection is `ctx · woᵀ + bo`.

  Beside the one-shot form (`ctx`) stands the ONLINE form (`onl`): the key/value rows are visited in sixteen blocks of
  512; a state (running maximum `M`, running denominator `L`, running numerator `A`) is started on block 0 and, at each
  later block, rescaled by `exp (M - M')` before the block's own terms are added. `onl_final` says that after the last
  block numerator over denominator is the soft-max context: the rescalings telescope, because
  `exp (s - M) · exp (M - M') = exp (s - M')`.
-/
import Mathlib.Analysis.SpecialFunctions.Exp
import Mathlib.Algebra.BigOperators.Fin
import Mathlib.Algebra.BigOperators.Field
import Mathlib.Order.Fin.Basic
import Mathlib.Data.Finset.Lattice.Fold
import Mathlib.Logic.Equiv.Fin.Basic
import Mathlib.Tactic.Ring
import Mathlib.Tactic.NormNum

noncomputable section

namespace Cert.Spec

open Finset

/-- A real matrix with `a` rows and `b` columns. -/
abbrev Mat (a b : ℕ) := Fin a → Fin b → ℝ

/-- The linear layer: row `i` of `x` against row `j` of `w`, plus the bias. -/
def lin (x : Mat 8192 1024) (w : Mat 3072 1024) (b : Fin 3072 → ℝ) : Mat 8192 3072 :=
  fun i j => (∑ k, x i k * w j k) + b j

/-- The query, key and value thirds of the projection's columns. -/
def qcol (d : Fin 1024) : Fin 3072 := ⟨d.val, by have := d.isLt; omega⟩
def kcol (d : Fin 1024) : Fin 3072 := ⟨1024 + d.val, by have := d.isLt; omega⟩
def vcol (d : Fin 1024) : Fin 3072 := ⟨2048 + d.val, by have := d.isLt; omega⟩

variable (qkv : Mat 8192 3072)

/-- The scaled score of query row `i` against key row `j`. -/
def score (i j : Fin 8192) : ℝ := (∑ d, qkv i (qcol d) * qkv j (kcol d)) / 32

/-- The largest score of row `i`. -/
def rowMax (i : Fin 8192) : ℝ := Finset.univ.sup' Finset.univ_nonempty (score qkv i)

/-- The soft-max numerator of `(i, j)`, and the row's denominator. -/
def wexp (i j : Fin 8192) : ℝ := Real.exp (score qkv i j - rowMax qkv i)
def denom (i : Fin 8192) : ℝ := ∑ j, wexp qkv i j

/-- The attention context: soft-max weights against the value rows. -/
def ctx (i : Fin 8192) (d : Fin 1024) : ℝ := ∑ j, (wexp qkv i j / denom qkv i) * qkv j (vcol d)

/-- The output projection of the context. -/
def out (wo : Mat 1024 1024) (bo : Fin 1024 → ℝ) : Mat 8192 1024 :=
  fun i n => (∑ d, ctx qkv i d * wo n d) + bo n

/-! ## The online form -/

/-- Key/value row `r` of block `b` (blocks of 512 rows; `b < 16` wherever it is used). -/
def colOf (b : ℕ) (r : Fin 512) : Fin 8192 := ⟨(512 * b + r.val) % 8192, Nat.mod_lt _ (by norm_num)⟩

/-- The largest score of row `i` within block `b`. -/
def bmax (i : Fin 8192) (b : ℕ) : ℝ :=
  Finset.univ.sup' Finset.univ_nonempty (fun r : Fin 512 => score qkv i (colOf b r))

/-- The online state of one query row: running maximum, denominator, numerator. -/
structure St where
  M : ℝ
  L : ℝ
  A : Fin 1024 → ℝ

/-- The state after block 0 alone. -/
def first (i : Fin 8192) : St where
  M := bmax qkv i 0
  L := ∑ r : Fin 512, Real.exp (score qkv i (colOf 0 r) - bmax qkv i 0)
  A := fun d => ∑ r : Fin 512, Real.exp (score qkv i (colOf 0 r) - bmax qkv i 0) * qkv (colOf 0 r) (vcol d)

/-- One more block: the old state rescaled to the new maximum, the block's terms added. -/
def step (i : Fin 8192) (b : ℕ) (s : St) : St where
  M := max s.M (bmax qkv i b)
  L := Real.exp (s.M - max s.M (bmax qkv i b)) * s.L
        + ∑ r : Fin 512, Real.exp (score qkv i (colOf b r) - max s.M (bmax qkv i b))
  A := fun d => Real.exp (s.M - max s.M (bmax qkv i b)) * s.A d
        + ∑ r : Fin 512, Real.exp (score qkv i (colOf b r) - max s.M (bmax qkv i b)) * qkv (colOf b r) (vcol d)

/-- The state after blocks `0 … b`. -/
def onl (i : Fin 8192) : ℕ → St
  | 0 => first qkv i
  | b + 1 => step qkv i (b + 1) (onl i b)

theorem onl_zero (i : Fin 8192) : onl qkv i 0 = first qkv i := rfl
theorem onl_succ (i : Fin 8192) (b : ℕ) : onl qkv i (b + 1) = step qkv i (b + 1) (onl qkv i b) := rfl

/-! ## The online form equals the one-shot form

The running maximum plays no role in the value of numerator over denominator: whatever the reference `M` is,
`exp (s - M)` is `exp (s - R)` times the common factor `exp (R - M)`, which cancels in the quotient. So the invariant
only records that denominator and numerator are the sums of `exp (s - M)` (against the value rows) over all the rows
of the blocks seen so far, `M` being the current reference; the rescaling of a step is exactly what moves every old
term from the old reference to the new one. -/

/-- The sixteen blocks of 512 rows cover every row exactly once. -/
theorem sum_blocks (F : Fin 8192 → ℝ) :
    ∑ c ∈ range 16, ∑ r : Fin 512, F (colOf c r) = ∑ j, F j := by
  rw [Finset.sum_range (fun c => ∑ r : Fin 512, F (colOf c r))]
  rw [← Fintype.sum_prod_type' (fun (c : Fin 16) (r : Fin 512) => F (colOf c.val r))]
  refine Fintype.sum_equiv (finProdFinEquiv.trans (finCongr (by norm_num : 16 * 512 = 8192))) _ _ ?_
  rintro ⟨c, r⟩
  congr 1
  apply Fin.ext
  have hc := c.isLt
  have hr := r.isLt
  simp only [colOf, Equiv.trans_apply, finProdFinEquiv_apply_val, finCongr_apply, Fin.coe_cast]
  omega

/-- The running denominator is the sum of `exp (s - M)` over the rows seen so far. -/
theorem onl_L_eq (i : Fin 8192) (b : ℕ) :
    (onl qkv i b).L
      = ∑ c ∈ range (b + 1), ∑ r : Fin 512, Real.exp (score qkv i (colOf c r) - (onl qkv i b).M) := by
  induction b with
  | zero =>
    rw [Finset.sum_range_one]
    rfl
  | succ b ih =>
    rw [Finset.sum_range_succ, onl_succ]
    show Real.exp ((onl qkv i b).M - max (onl qkv i b).M (bmax qkv i (b + 1))) * (onl qkv i b).L
        + ∑ r : Fin 512, Real.exp (score qkv i (colOf (b + 1) r) - max (onl qkv i b).M (bmax qkv i (b + 1)))
      = ∑ c ∈ range (b + 1), ∑ r : Fin 512,
          Real.exp (score qkv i (colOf c r) - max (onl qkv i b).M (bmax qkv i (b + 1)))
        + ∑ r : Fin 512, Real.exp (score qkv i (colOf (b + 1) r) - max (onl qkv i b).M (bmax qkv i (b + 1)))
    congr 1
    rw [ih, Finset.mul_sum]
    refine Finset.sum_congr rfl fun c _ => ?_
    rw [Finset.mul_sum]
    refine Finset.sum_congr rfl fun r _ => ?_
    rw [← Real.exp_add]
    congr 1
    ring

/-- The running numerator is the sum of `exp (s - M)` times the value row over the rows seen so far. -/
theorem onl_A_eq (i : Fin 8192) (d : Fin 1024) (b : ℕ) :
    (onl qkv i b).A d
      = ∑ c ∈ range (b + 1), ∑ r : Fin 512,
          Real.exp (score qkv i (colOf c r) - (onl qkv i b).M) * qkv (colOf c r) (vcol d) := by
  induction b with
  | zero =>
    rw [Finset.sum_range_one]
    rfl
  | succ b ih =>
    rw [Finset.sum_range_succ, onl_succ]
    show Real.exp ((onl qkv i b).M - max (onl qkv i b).M (bmax qkv i (b + 1))) * (onl qkv i b).A d
        + ∑ r : Fin 512, Real.exp (score qkv i (colOf (b + 1) r) - max (onl qkv i b).M (bmax qkv i (b + 1)))
            * qkv (colOf (b + 1) r) (vcol d)
      = ∑ c ∈ range (b + 1), ∑ r : Fin 512,
          Real.exp (score qkv i (colOf c r) - max (onl qkv i b).M (bmax qkv i (b + 1)))
            * qkv (colOf c r) (vcol d)
        + ∑ r : Fin 512, Real.exp (score qkv i (colOf (b + 1) r) - max (onl qkv i b).M (bmax qkv i (b + 1)))
            * qkv (colOf (b + 1) r) (vcol d)
    congr 1
    rw [ih, Finset.mul_sum]
    refine Finset.sum_congr rfl fun c _ => ?_
    rw [Finset.mul_sum]
    refine Finset.sum_congr rfl fun r _ => ?_
    rw [← mul_assoc, ← Real.exp_add]
    congr 2
    ring

/-- Moving the reference of one soft-max term from the row maximum to `M`. -/
theorem exp_shift (i j : Fin 8192) (M : ℝ) :
    Real.exp (score qkv i j - M) = Real.exp (rowMax qkv i - M) * wexp qkv i j := by
  rw [wexp, ← Real.exp_add]
  congr 1
  ring

/-- The running denominator is positive (it holds the term of a row that attains the running maximum). -/
theorem onl_L_pos (i : Fin 8192) (b : ℕ) : 0 < (onl qkv i b).L := by
  induction b with
  | zero =>
    show 0 < ∑ r : Fin 512, Real.exp (score qkv i (colOf 0 r) - bmax qkv i 0)
    exact Finset.sum_pos (fun _ _ => Real.exp_pos _) Finset.univ_nonempty
  | succ b ih =>
    rw [onl_succ]
    show 0 < Real.exp ((onl qkv i b).M - max (onl qkv i b).M (bmax qkv i (b + 1))) * (onl qkv i b).L
        + ∑ r : Fin 512, Real.exp (score qkv i (colOf (b + 1) r) - max (onl qkv i b).M (bmax qkv i (b + 1)))
    exact add_pos (mul_pos (Real.exp_pos _) ih)
      (Finset.sum_pos (fun _ _ => Real.exp_pos _) Finset.univ_nonempty)

/-- After the sixteenth block, numerator over denominator is the soft-max context. -/
theorem onl_final (i : Fin 8192) (d : Fin 1024) :
    (onl qkv i 15).A d / (onl qkv i 15).L = ctx qkv i d := by
  have hL : (onl qkv i 15).L = Real.exp (rowMax qkv i - (onl qkv i 15).M) * denom qkv i := by
    rw [onl_L_eq, sum_blocks (fun j => Real.exp (score qkv i j - (onl qkv i 15).M)), denom, Finset.mul_sum]
    exact Finset.sum_congr rfl fun j _ => exp_shift qkv i j _
  have hA : (onl qkv i 15).A d
      = Real.exp (rowMax qkv i - (onl qkv i 15).M) * ∑ j, wexp qkv i j * qkv j (vcol d) := by
    rw [onl_A_eq,
      sum_blocks (fun j => Real.exp (score qkv i j - (onl qkv i 15).M) * qkv j (vcol d)), Finset.mul_sum]
    refine Finset.sum_congr rfl fun j _ => ?_
    rw [exp_shift qkv i j, mul_assoc]
  rw [hA, hL, mul_div_mul_left _ _ (Real.exp_pos _).ne', ctx, Finset.sum_div]
  refine Finset.sum_congr rfl fun j _ => ?_
  rw [div_mul_eq_mul_div]

end Cert.Spec

end
-- ==== Proof.KI.LinValue.lean ====
/-
  The projection kernel's result, read over the reals.

  Every grid point `(i, j)` of the first launch writes back the tile `(i, j)` of the result, and the 16 × 3 tiles cover it;
  the tile holds, at row `r` and column `s`, the inner product of row `512 i + r` of `x` with row `1024 j + s` of the weight,
  plus entry `1024 j + s` of the bias (the matrix unit's product into a zero accumulator is the plain sum; the narrowing
  to bf16 is the identity over the reals). So the result array is the specification's linear layer, entry by entry.
-/
import proofs.«422776_j21586505630422_3_alg».proof.Proof.KI.Lin
import proofs.«422776_j21586505630422_3_alg».proof.Proof.Spec
import Idealize.ShloMosaic.Lib.ValueIdx
import Idealize.ShloMosaic.Lib.ValueLayout
import Idealize.ShloMosaic.Lib.Pipeline.Value
import Idealize.ShloMosaic.PureOps.Ideal.Laws
import Mathlib.Data.EReal.Basic
import Mathlib.Algebra.BigOperators.Group.Finset.Basic
import Mathlib.Tactic.FinCases

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

/-! ## The tile's payload at an index -/

/-- The two zero offsets of a whole-buffer rectangle, however they are spelt. -/
theorem zero_offsets : (![0, 0] : Fin 2 → Nat) = fun _ => 0 := funext fun a => by fin_cases a <;> rfl

/-- The product's left operand is read at the result's row … -/
theorem lhs_lin_0 (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
/-- … and at the contraction position; -/
theorem lhs_lin_1 (i : S512x1024.Idx) (q : dot_S512x1024_S1024x1024_S512x1024_1_1_0_0_n_n.contr.Idx) :
    (dot_S512x1024_S1024x1024_S512x1024_1_1_0_0_n_n.lhsIdx i q 1).val = (q ⟨0, by decide⟩).val :=
  dot_S512x1024_S1024x1024_S512x1024_1_1_0_0_n_n.lhsIdx_val_of_single rfl i q
/-- the right operand at the result's column (as ITS row: the weight is contracted along its second axis too) … -/
theorem rhs_lin_0 (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
/-- … and at the contraction position. -/
theorem rhs_lin_1 (i : S512x1024.Idx) (q : dot_S512x1024_S1024x1024_S512x1024_1_1_0_0_n_n.contr.Idx) :
    (dot_S512x1024_S1024x1024_S512x1024_1_1_0_0_n_n.rhsIdx i q 1).val = (q ⟨0, by decide⟩).val :=
  dot_S512x1024_S1024x1024_S512x1024_1_1_0_0_n_n.rhsIdx_val_of_single rfl i q

/-- The matrix unit's product into the zero accumulator, at row `r` and column `s`: row `r` of the left operand
    against row `s` of the right. -/
theorem matmul_lin_apply (a : FVec Ideal S512x1024 .bf16) (b : FVec Ideal S1024x1024 .bf16) (r : Fin 512) (s : Fin 1024) :
    (matmul dot_S512x1024_S1024x1024_S512x1024_1_1_0_0_n_n none a b (constant S512x1024 .f32 0x00000000#32) : FVec Ideal S512x1024 .f32) (ix2 r s)
      = ∑ k : Fin 1024, a (ix2 r k) * b (ix2 s k) := by
  refine (Ideal.matmul_constant_zero_apply dot_S512x1024_S1024x1024_S512x1024_1_1_0_0_n_n none a b (ix2 r s)).trans ?_
  rw [← Equiv.sum_comp (ValueIdx.contrEquiv1 dot_S512x1024_S1024x1024_S512x1024_1_1_0_0_n_n 1024 rfl rfl).symm]
  refine Finset.sum_congr rfl fun k _ => ?_
  have hk := ValueIdx.contrEquiv1_symm_val dot_S512x1024_S1024x1024_S512x1024_1_1_0_0_n_n 1024 rfl rfl k
  have el : dot_S512x1024_S1024x1024_S512x1024_1_1_0_0_n_n.lhsIdx (ix2 r s) ((ValueIdx.contrEquiv1 dot_S512x1024_S1024x1024_S512x1024_1_1_0_0_n_n 1024 rfl rfl).symm k) = ix2 r k := funext fun a => Fin.ext (by
    match a with
    | ⟨0, _⟩ => exact lhs_lin_0 _ _
    | ⟨1, _⟩ => exact (lhs_lin_1 _ _).trans hk)
  have er : dot_S512x1024_S1024x1024_S512x1024_1_1_0_0_n_n.rhsIdx (ix2 r s) ((ValueIdx.contrEquiv1 dot_S512x1024_S1024x1024_S512x1024_1_1_0_0_n_n 1024 rfl rfl).symm k) = ix2 s k := funext fun a => Fin.ext (by
    match a with
    | ⟨0, _⟩ => exact rhs_lin_0 _ _
    | ⟨1, _⟩ => exact (rhs_lin_1 _ _).trans hk)
  rw [el, er]

/-- The bias row spread over the tile's rows, at row `r` and column `s`, is the bias at column `s`. -/
theorem bias_row_apply (v : FVec Ideal S1x1024 .f32) (r : Fin 512) (s : Fin 1024) :
    (broadcastTo S512x1024 v broadcasts_S1x1024_S512x1024 : FVec Ideal S512x1024 .f32) (ix2 r s) = v (ix2 (0 : Fin 1) s) := by
  refine broadcastTo_apply v broadcasts_S1x1024_S512x1024 (ix2 r s) (ix2 (0 : Fin 1) s) fun a => ?_
  match a with
  | ⟨0, _⟩ => show (0 : Nat) = if (1 : Nat) = 1 then 0 else _; rw [if_pos rfl]
  | ⟨1, _⟩ => show s.val = if (1024 : Nat) = 1 then 0 else s.val; rw [if_neg (by decide)]

/-- WHAT ONE POINT LEAVES IN THE RESULT'S BUFFER, at row `r` and column `s` of the tile: row `r` of the `x` block against
    row `s` of the weight block, plus the bias block at column `s`. Over the reals the narrowings are the identity. -/
theorem out0_3_apply (x0 : Vec Ideal S512x1024 .f32) (x1 : Vec Ideal S1024x1024 .bf16) (x2 : Vec Ideal S1x1024 .f32)
    (r : Fin 512) (s : Fin 1024) :
    (out0_3 (F := Ideal) x0 x1 x2 : S512x1024.Idx → EReal) (ix2 r s)
      = (∑ k : Fin 1024, (x0 (ix2 r k) : EReal) * (x1 (ix2 s k) : EReal)) + (x2 (ix2 (0 : Fin 1) s) : EReal) := by
  unfold out0_3
  rw [View.canon_unit_zero zero_offsets]
  rw [View.ld_unit_zero (S := S512x1024) zero_offsets, View.ld_unit_zero (S := S1024x1024) zero_offsets,
    View.ld_unit_zero (S := S1x1024) zero_offsets]
  unfold k0_pay1
  simp only [shapeCast_self]
  rw [truncf_apply, addf_apply, matmul_lin_apply, bias_row_apply]
  rfl

/-- The same at any index of the tile. -/
theorem out0_3_apply' (x0 : Vec Ideal S512x1024 .f32) (x1 : Vec Ideal S1024x1024 .bf16) (x2 : Vec Ideal S1x1024 .f32)
    (y : S512x1024.Idx) :
    (out0_3 (F := Ideal) x0 x1 x2 : S512x1024.Idx → EReal) y
      = (∑ k : Fin 1024, (x0 (ix2 (y 0) k) : EReal) * (x1 (ix2 (y 1) k) : EReal)) + (x2 (ix2 (0 : Fin 1) (y 1)) : EReal) := by
  exact (congrArg (out0_3 (F := Ideal) x0 x1 x2 : S512x1024.Idx → EReal) (eq_ix2 y)).trans (out0_3_apply x0 x1 x2 (y 0) (y 1))

/-! ## The input blocks as parts of their arrays -/

section Blocks

-- the core's buffer contents when the launch is entered
variable (V : (c : Dev nD) → (b : Ref sig .tc) → Buf (Elt Ideal) ((c : Thread nD τ).loc b))

/-- The printed index maps over the grid: the `x` block moves with the result's row block, the weight and bias blocks
    with its column block, and the result's block indices stay in their ranges. -/
theorem idx_facts : ∀ t : Fin cfg0.N, win0_0.index t (0 : Fin 2) = win0_3.index t (0 : Fin 2)
    ∧ win0_0.index t (1 : Fin 2) = 0
    ∧ win0_1.index t (0 : Fin 2) = win0_3.index t (1 : Fin 2)
    ∧ win0_1.index t (1 : Fin 2) = 0
    ∧ win0_2.index t (0 : Fin 2) = 0
    ∧ win0_2.index t (1 : Fin 2) = win0_3.index t (1 : Fin 2)
    ∧ win0_3.index t (0 : Fin 2) ≤ 15 ∧ win0_3.index t (1 : Fin 2) ≤ 2 :=
  (by decide +kernel : ∀ t : Fin grid0.N, _)

/-- Every tile of the result is SOME point's. -/
theorem idx_onto : ∀ (q0 : Fin 16) (q1 : Fin 3), ∃ t : Fin cfg0.N, win0_3.index t = ![q0.val, q1.val] :=
  (by decide +kernel : ∀ (q0 : Fin 16) (q1 : Fin 3), ∃ t : Fin grid0.N, win0_3.index t = ![q0.val, q1.val])

/-- The `x` block at a point, at row `r`, is row `512 · (block row) + r` of `x`. -/
theorem xblk_apply (c : Dev nD) (t : Fin cfg0.N) (r : Fin 512) (k : Fin 1024) (i : Fin 8192)
    (hi : i.val = win0_0.index t (0 : Fin 2) * 512 + r.val) (h1 : win0_0.index t (1 : Fin 2) = 0) :
    (iblk0 (F := Ideal) V c 0 t : S512x1024.Idx → EReal) (ix2 r k) = (V c main_arg0 : S8192x1024.Idx → EReal) (ix2 i k) := by
  show V c main_arg0 (((cfg0.win 0).blk t).view.emb (ix2 r k)) = V c main_arg0 (ix2 i k)
  refine congrArg _ (funext fun a => Fin.ext ?_)
  match a with
  | ⟨0, _⟩ => show win0_0.index t (0 : Fin 2) * 512 + 1 * r.val = i.val; omega
  | ⟨1, _⟩ => show win0_0.index t (1 : Fin 2) * 1024 + 1 * k.val = k.val; omega

/-- The weight block at a point, at row `s`, is row `1024 · (block row) + s` of the weight. -/
theorem wblk_apply (c : Dev nD) (t : Fin cfg0.N) (s : Fin 1024) (k : Fin 1024) (j : Fin 3072)
    (hj : j.val = win0_1.index t (0 : Fin 2) * 1024 + s.val) (h1 : win0_1.index t (1 : Fin 2) = 0) :
    (iblk0 (F := Ideal) V c 1 t : S1024x1024.Idx → EReal) (ix2 s k) = (V c main_v0 : S3072x1024.Idx → EReal) (ix2 j k) := by
  show V c main_v0 (((cfg0.win 1).blk t).view.emb (ix2 s k)) = V c main_v0 (ix2 j k)
  refine congrArg _ (funext fun a => Fin.ext ?_)
  match a with
  | ⟨0, _⟩ => show win0_1.index t (0 : Fin 2) * 1024 + 1 * s.val = j.val; omega
  | ⟨1, _⟩ => show win0_1.index t (1 : Fin 2) * 1024 + 1 * k.val = k.val; omega

/-- The bias block at a point, at column `s`, is entry `1024 · (block column) + s` of the bias. -/
theorem bblk_apply (c : Dev nD) (t : Fin cfg0.N) (s : Fin 1024) (j : Fin 3072)
    (hj : j.val = win0_2.index t (1 : Fin 2) * 1024 + s.val) (h0 : win0_2.index t (0 : Fin 2) = 0) :
    (iblk0 (F := Ideal) V c 2 t : S1x1024.Idx → EReal) (ix2 (0 : Fin 1) s) = (V c main_v2 : S1x3072.Idx → EReal) (ix2 (0 : Fin 1) j) := by
  show V c main_v2 (((cfg0.win 2).blk t).view.emb (ix2 (0 : Fin 1) s)) = V c main_v2 (ix2 (0 : Fin 1) j)
  refine congrArg _ (funext fun a => Fin.ext ?_)
  match a with
  | ⟨0, _⟩ => show win0_2.index t (0 : Fin 2) * 1 + 1 * (0 : Fin 1).val = (0 : Fin 1).val; rw [h0]; rfl
  | ⟨1, _⟩ => show win0_2.index t (1 : Fin 2) * 1024 + 1 * s.val = j.val; omega

/-! ## From the tiles to the array -/

/-- The whole result as ONE function of the three arrays: entry `(i, j)` is row `i` of `x` against row `j` of the
    weight, plus entry `j` of the bias. -/
def linArr (A0 : S8192x1024.Idx → EReal) (A1 : S3072x1024.Idx → EReal) (A2 : S1x3072.Idx → EReal) : S8192x3072.Idx → EReal :=
  fun idx => (∑ k : Fin 1024, A0 (ix2 (idx 0 : Fin 8192) k) * A1 (ix2 (idx 1 : Fin 3072) k)) + A2 (ix2 (0 : Fin 1) (idx 1 : Fin 3072))

/-- WHAT POINT `t` WRITES BACK is tile `t` of `linArr` of the arrays as the launch finds them. -/
theorem flushed_eq (c : Dev nD) (t : Fin cfg0.N) :
    (dat0 (F := Ideal) V c).flushed 3 t
      = ((cfg0.win 3).blk t).view.read (Elt Ideal) (linArr (V c main_arg0) (V c main_v0) (V c main_v2)) := by
  show (cfg0.win 3).cut (grid0.coords t) ((dat0 (F := Ideal) V c).after 3 t) = _
  rw [after0_3]
  obtain ⟨e0, e1, e2, e3, e4, e5, e6, e7⟩ := idx_facts t
  funext y
  show (out0_3 (F := Ideal) (iblk0 V c 0 t) (iblk0 V c 1 t) (iblk0 V c 2 t) : S512x1024.Idx → EReal) y
    = linArr (V c main_arg0) (V c main_v0) (V c main_v2) (((cfg0.win 3).blk t).view.emb y)
  refine (out0_3_apply' (iblk0 V c 0 t) (iblk0 V c 1 t) (iblk0 V c 2 t) y).trans ?_
  have hy0 : (y 0).val < 512 := (y 0).isLt
  have hy1 : (y 1).val < 1024 := (y 1).isLt
  have hemb : ((cfg0.win 3).blk t).view.emb y
      = ix2 (⟨win0_3.index t (0 : Fin 2) * 512 + (y 0).val, by omega⟩ : Fin 8192)
          (⟨win0_3.index t (1 : Fin 2) * 1024 + (y 1).val, by omega⟩ : Fin 3072) := funext fun a => Fin.ext (by
    match a with
    | ⟨0, _⟩ => show win0_3.index t (0 : Fin 2) * 512 + 1 * (y 0).val = win0_3.index t (0 : Fin 2) * 512 + (y 0).val; omega
    | ⟨1, _⟩ => show win0_3.index t (1 : Fin 2) * 1024 + 1 * (y 1).val = win0_3.index t (1 : Fin 2) * 1024 + (y 1).val; omega)
  rw [hemb]
  exact congrArg₂ (· + ·)
    (Finset.sum_congr rfl fun k _ => congrArg₂ (· * ·)
      (xblk_apply V c t (y 0) k ⟨win0_3.index t (0 : Fin 2) * 512 + (y 0).val, by omega⟩ (by show _ = win0_0.index t (0 : Fin 2) * 512 + (y 0).val; rw [e0]) e1)
      (wblk_apply V c t (y 1) k ⟨win0_3.index t (1 : Fin 2) * 1024 + (y 1).val, by omega⟩ (by show _ = win0_1.index t (0 : Fin 2) * 1024 + (y 1).val; rw [e2]) e3))
    (bblk_apply V c t (y 1) ⟨win0_3.index t (1 : Fin 2) * 1024 + (y 1).val, by omega⟩ (by show _ = win0_2.index t (1 : Fin 2) * 1024 + (y 1).val; rw [e5]) e4)

/-- An index of the result is in point `t`'s tile iff each coordinate is in the tile's range on its axis. -/
theorem mem_blk (t : Fin cfg0.N) (i : S8192x3072.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v3).slice (win0_3.rect t)).set ↔ _
  rw [View.set_slice_whole, Rect.mem_set_unit]
  exact Iff.rfl

/-- THE TILES COVER THE RESULT: entry `(i, j)` is in the tile of the point with block row `i / 512` and block column
    `j / 1024`, and every point writes its tile back. -/
theorem cover (i : S8192x3072.Idx) :
    ∃ t : Fin cfg0.N, (cfg0.win 3).flush t = true ∧ i ∈ ((cfg0.win 3).blk t).view.set := by
  have hi0 : (i 0).val < 8192 := (i 0).isLt
  have hi1 : (i 1).val < 3072 := (i 1).isLt
  obtain ⟨t, ht⟩ := idx_onto ⟨(i 0).val / 512, by omega⟩ ⟨(i 1).val / 1024, by omega⟩
  have q0 : win0_3.index t (0 : Fin 2) = (i 0).val / 512 := congrFun ht 0
  have q1 : win0_3.index t (1 : Fin 2) = (i 1).val / 1024 := congrFun ht 1
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-- THE RESULT ARRAY after the launch is `linArr` of the three arrays as the launch finds them. -/
theorem final (c : Dev nD) :
    (dat0 (F := Ideal) V c).arrAt 3 cfg0.N = linArr (V c main_arg0) (V c main_v0) (V c main_v2) :=
  (dat0 (F := Ideal) V c).arrAt_eq_of_cover 3 (linArr (V c main_arg0) (V c main_v0) (V c main_v2))
    (fun t _ => flushed_eq V c t) cover

end Blocks

/-! ## Over the reals -/

/-- A finite sum of reals, read in the extended reals, is the sum of the terms read there. -/
theorem coe_sum {ι : Type} (s : Finset ι) (f : ι → ℝ) :
    ∑ k ∈ s, ((f k : ℝ) : EReal) = ((∑ k ∈ s, f k : ℝ) : EReal) := by
  classical
  refine Finset.induction_on s ?_ ?_
  · rw [Finset.sum_empty, Finset.sum_empty, EReal.coe_zero]
  · intro a s ha ih
    rw [Finset.sum_insert ha, Finset.sum_insert ha, ih, EReal.coe_add]

/-- On arrays with real entries `linArr` is the specification's linear layer: sums and products of reals are
    computed in the extended reals as they are in the reals. -/
theorem linArr_real (A0 : S8192x1024.Idx → EReal) (A1 : S3072x1024.Idx → EReal) (A2 : S1x3072.Idx → EReal)
    (x : Cert.Spec.Mat 8192 1024) (wq : Cert.Spec.Mat 3072 1024) (bq : Fin 3072 → ℝ)
    (hX : ∀ i k, A0 (ix2 i k) = ((x i k : ℝ) : EReal)) (hW : ∀ j k, A1 (ix2 j k) = ((wq j k : ℝ) : EReal))
    (hB : ∀ j, A2 (ix2 (0 : Fin 1) j) = ((bq j : ℝ) : EReal)) (i : Fin 8192) (j : Fin 3072) :
    linArr A0 A1 A2 (ix2 i j) = ((Cert.Spec.lin x wq bq i j : ℝ) : EReal) := by
  show (∑ k : Fin 1024, A0 (ix2 i k) * A1 (ix2 j k)) + A2 (ix2 (0 : Fin 1) j) = _
  have hs : (∑ k : Fin 1024, A0 (ix2 i k) * A1 (ix2 j k)) = ((∑ k : Fin 1024, x i k * wq j k : ℝ) : EReal) := by
    rw [← coe_sum]
    refine Finset.sum_congr rfl fun k _ => ?_
    rw [hX i k, hW j k, EReal.coe_mul]
  rw [hs, hB j, ← EReal.coe_add]
  rfl

/-- The first launch's result array after the launch is the linear layer of the specification, entry by entry, when
    the three arrays it reads have real entries. -/
theorem lin_value (V : (c : Dev nD) → (b : Ref sig .tc) → Buf (Elt Ideal) ((c : Thread nD τ).loc b)) (c : Dev nD)
    (x : Cert.Spec.Mat 8192 1024) (wq : Cert.Spec.Mat 3072 1024) (bq : Fin 3072 → ℝ)
    (hX : ∀ i k, (V c main_arg0 : S8192x1024.Idx → EReal) (ix2 i k) = ((x i k : ℝ) : EReal))
    (hW : ∀ j k, (V c main_v0 : S3072x1024.Idx → EReal) (ix2 j k) = ((wq j k : ℝ) : EReal))
    (hB : ∀ j, (V c main_v2 : S1x3072.Idx → EReal) (ix2 (0 : Fin 1) j) = ((bq j : ℝ) : EReal))
    (i : Fin 8192) (j : Fin 3072) :
    ((dat0 (F := Ideal) V c).arrAt 3 cfg0.N : S8192x3072.Idx → EReal) (ix2 i j)
      = ((Cert.Spec.lin x wq bq i j : ℝ) : EReal) :=
  (congrFun (final V c) (ix2 i j)).trans (linArr_real _ _ _ x wq bq hX hW hB i j)

end Cert.KernelIdeal.Val

end
-- ==== Proof.KI.FlashPieces.lean ====
/-
  What each case of the attention kernel's body leaves in its buffers, as functions of what it loaded.

  The case runs found, for every buffer the body writes, the pieces it ends with. Every store of this kernel covers its
  whole buffer, so a buffer's final contents are its LAST store's value, and every load of a buffer after a store of it
  reads that store's value. Unfolding the runs' own names accordingly, the contents after a point are the generated
  payloads applied to the point's input blocks and to what the point before left: the running maximum
  `max m (row maxima of the score block)`, the rescaled-and-extended denominator and numerator, and at the last block
  the projected output tile.
-/
import proofs.«422776_j21586505630422_3_alg».proof.Proof.KI.FlashOuts
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.Sem
open Cert.KernelIdeal Cert.KernelIdeal.Gen

variable {F : FTy → Type} [FloatOps F]
variable (V : (c : Dev nD) → (b : Ref sig .tc) → Buf (Elt F) ((c : Thread nD τ).loc b))

/-- The offsets of every store and load of this kernel, however the zeros are spelt. -/
theorem hz2 : (![0, 0] : Fin 2 → Nat) = fun _ => 0 := funext fun a => by fin_cases a <;> rfl

/-! ## Buffer by buffer

Each lemma reads one buffer's pieces back: the last store's payload, with every load inside it read — a load of an
input or of a carried buffer not yet stored reads the given contents, a load after a store reads that store's payload. -/

section Pieces
variable (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (arg11 : Memref sig .tc .vmem S1024x1024 .bf16) (harg11 : arg11.IsWhole)
  (x0 : Vec F S1024x1024 .bf16) (x1 : Vec F S512x1024 .bf16) (x2 : Vec F S512x1024 .bf16) (x3 : Vec F S1024x1024 .bf16) (x4 : Vec F S1x1024 .f32)

/-- First block, running maximum: reset to `-∞`, then raised by the score block's row maxima against the freshly scaled query tile. -/
theorem first_max (hc0 : cond1_0 i) (hc1 : ¬cond1_1 i) :
    VS1_0.read (Elt F) (VS1_0.writes (Elt F) (VS1_0.junk) (kernelRun1_A c i arg2 harg2 arg3 harg3 arg4 harg4 arg5 harg5 arg6 harg6 arg7 harg7 arg8 harg8 arg9 harg9 arg10 harg10 arg11 harg11 hc0 hc1 x0 x1 x2 x3 x4).1)
      = k1_pay2 (k1_pay9 (k1_pay7 x0) x1 (k1_pay4 (F := F))) := by
  rw [View.read_writes_eq_canon _ _ _ (scover1_A_0 c i arg2 harg2 arg3 harg3 arg4 harg4 arg5 harg5 arg6 harg6 arg7 harg7 arg8 harg8 arg9 harg9 arg10 harg10 arg11 harg11 x0 x1 x2 x3 x4 hc0 hc1)]
  unfold kernelRun1_A
  dsimp only
  sl_unfold_words
  rw [View.canon_cons_unit_zero (S := S1024x1) hz2]
  simp only [View.readAt_eq_ld, harg2.read_unread, harg3.read_unread, harg4.read_unread, harg5.read_unread,
    harg6.read_unread, harg7.read_unread, harg8.read_unread, harg9.read_unread, harg10.read_unread, harg11.read_unread,
    View.ld_unit_zero (S := S1024x1) hz2, View.ld_unit_zero (S := S1024x1024) hz2, View.ld_unit_zero (S := S512x1024) hz2,
    View.ld_unit_zero (S := S1x1024) hz2, View.readCov_unit_zero (S := S1024x1) _ hz2,
    View.readCov_unit_zero (S := S1024x1024) _ hz2]

/-- First block, running denominator: reset to zero, then rescaled and extended, both loaded maxima being the reset one. -/
theorem first_den (hc0 : cond1_0 i) (hc1 : ¬cond1_1 i) :
    VS1_1.read (Elt F) (VS1_1.writes (Elt F) (VS1_1.junk) (kernelRun1_A c i arg2 harg2 arg3 harg3 arg4 harg4 arg5 harg5 arg6 harg6 arg7 harg7 arg8 harg8 arg9 harg9 arg10 harg10 arg11 harg11 hc0 hc1 x0 x1 x2 x3 x4).2.1)
      = k1_pay12 (k1_pay7 x0) x1 (k1_pay4 (F := F)) (k1_pay4 (F := F)) (k1_pay5 (F := F)) := by
  rw [View.read_writes_eq_canon _ _ _ (scover1_A_1 c i arg2 harg2 arg3 harg3 arg4 harg4 arg5 harg5 arg6 harg6 arg7 harg7 arg8 harg8 arg9 harg9 arg10 harg10 arg11 harg11 x0 x1 x2 x3 x4 hc0 hc1)]
  unfold kernelRun1_A
  dsimp only
  sl_unfold_words
  rw [View.canon_cons_unit_zero (S := S1024x1) hz2]
  simp only [View.readAt_eq_ld, harg2.read_unread, harg3.read_unread, harg4.read_unread, harg5.read_unread,
    harg6.read_unread, harg7.read_unread, harg8.read_unread, harg9.read_unread, harg10.read_unread, harg11.read_unread,
    View.ld_unit_zero (S := S1024x1) hz2, View.ld_unit_zero (S := S1024x1024) hz2, View.ld_unit_zero (S := S512x1024) hz2,
    View.ld_unit_zero (S := S1x1024) hz2, View.readCov_unit_zero (S := S1024x1) _ hz2,
    View.readCov_unit_zero (S := S1024x1024) _ hz2]

/-- First block, running numerator: reset to zero, then rescaled and extended by the weighted value block. -/
theorem first_num (hc0 : cond1_0 i) (hc1 : ¬cond1_1 i) :
    VS1_2.read (Elt F) (VS1_2.writes (Elt F) (VS1_2.junk) (kernelRun1_A c i arg2 harg2 arg3 harg3 arg4 harg4 arg5 harg5 arg6 harg6 arg7 harg7 arg8 harg8 arg9 harg9 arg10 harg10 arg11 harg11 hc0 hc1 x0 x1 x2 x3 x4).2.2.1)
      = k1_pay1 (k1_pay13 (k1_pay7 x0) x1 x2 (k1_pay4 (F := F)) (k1_pay4 (F := F)) (k1_pay6 (F := F))) := by
  rw [View.read_writes_eq_canon _ _ _ (scover1_A_2 c i arg2 harg2 arg3 harg3 arg4 harg4 arg5 harg5 arg6 harg6 arg7 harg7 arg8 harg8 arg9 harg9 arg10 harg10 arg11 harg11 x0 x1 x2 x3 x4 hc0 hc1)]
  unfold kernelRun1_A
  dsimp only
  sl_unfold_words
  rw [View.canon_cons_unit_zero (S := S1024x1024) hz2]
  simp only [View.readAt_eq_ld, harg2.read_unread, harg3.read_unread, harg4.read_unread, harg5.read_unread,
    harg6.read_unread, harg7.read_unread, harg8.read_unread, harg9.read_unread, harg10.read_unread, harg11.read_unread,
    View.ld_unit_zero (S := S1024x1) hz2, View.ld_unit_zero (S := S1024x1024) hz2, View.ld_unit_zero (S := S512x1024) hz2,
    View.ld_unit_zero (S := S1x1024) hz2, View.readCov_unit_zero (S := S1024x1) _ hz2,
    View.readCov_unit_zero (S := S1024x1024) _ hz2]

/-- First block, scaled query tile: the query block scaled, stored once. -/
theorem first_query (hc0 : cond1_0 i) (hc1 : ¬cond1_1 i) :
    VS1_3.read (Elt F) (VS1_3.writes (Elt F) (VS1_3.junk) (kernelRun1_A c i arg2 harg2 arg3 harg3 arg4 harg4 arg5 harg5 arg6 harg6 arg7 harg7 arg8 harg8 arg9 harg9 arg10 harg10 arg11 harg11 hc0 hc1 x0 x1 x2 x3 x4).2.2.2.1)
      = k1_pay7 x0 := by
  rw [View.read_writes_eq_canon _ _ _ (scover1_A_3 c i arg2 harg2 arg3 harg3 arg4 harg4 arg5 harg5 arg6 harg6 arg7 harg7 arg8 harg8 arg9 harg9 arg10 harg10 arg11 harg11 x0 x1 x2 x3 x4 hc0 hc1)]
  unfold kernelRun1_A
  dsimp only
  sl_unfold_words
  rw [View.canon_unit_zero (S := S1024x1024) hz2]
  simp only [View.readAt_eq_ld, harg2.read_unread, harg3.read_unread, harg4.read_unread, harg5.read_unread,
    harg6.read_unread, harg7.read_unread, harg8.read_unread, harg9.read_unread, harg10.read_unread, harg11.read_unread,
    View.ld_unit_zero (S := S1024x1) hz2, View.ld_unit_zero (S := S1024x1024) hz2, View.ld_unit_zero (S := S512x1024) hz2,
    View.ld_unit_zero (S := S1x1024) hz2, View.readCov_unit_zero (S := S1024x1) _ hz2,
    View.readCov_unit_zero (S := S1024x1024) _ hz2]

/-- First block, the whole state: the four scratch buffers together, beside whatever the output buffer holds. -/
theorem first_state (hc0 : cond1_0 i) (hc1 : ¬cond1_1 i) (o : Vec F S1024x1024 .f32) :
    ((o,
      VS1_0.read (Elt F) (VS1_0.writes (Elt F) (VS1_0.junk) (kernelRun1_A c i arg2 harg2 arg3 harg3 arg4 harg4 arg5 harg5 arg6 harg6 arg7 harg7 arg8 harg8 arg9 harg9 arg10 harg10 arg11 harg11 hc0 hc1 x0 x1 x2 x3 x4).1),
      VS1_1.read (Elt F) (VS1_1.writes (Elt F) (VS1_1.junk) (kernelRun1_A c i arg2 harg2 arg3 harg3 arg4 harg4 arg5 harg5 arg6 harg6 arg7 harg7 arg8 harg8 arg9 harg9 arg10 harg10 arg11 harg11 hc0 hc1 x0 x1 x2 x3 x4).2.1),
      VS1_2.read (Elt F) (VS1_2.writes (Elt F) (VS1_2.junk) (kernelRun1_A c i arg2 harg2 arg3 harg3 arg4 harg4 arg5 harg5 arg6 harg6 arg7 harg7 arg8 harg8 arg9 harg9 arg10 harg10 arg11 harg11 hc0 hc1 x0 x1 x2 x3 x4).2.2.1),
      VS1_3.read (Elt F) (VS1_3.writes (Elt F) (VS1_3.junk) (kernelRun1_A c i arg2 harg2 arg3 harg3 arg4 harg4 arg5 harg5 arg6 harg6 arg7 harg7 arg8 harg8 arg9 harg9 arg10 harg10 arg11 harg11 hc0 hc1 x0 x1 x2 x3 x4).2.2.2.1)) : St1 F)
      = (o,
         k1_pay2 (k1_pay9 (k1_pay7 x0) x1 (k1_pay4 (F := F))),
         k1_pay12 (k1_pay7 x0) x1 (k1_pay4 (F := F)) (k1_pay4 (F := F)) (k1_pay5 (F := F)),
         k1_pay1 (k1_pay13 (k1_pay7 x0) x1 x2 (k1_pay4 (F := F)) (k1_pay4 (F := F)) (k1_pay6 (F := F))),
         k1_pay7 x0) := by
  rw [first_max c i arg2 harg2 arg3 harg3 arg4 harg4 arg5 harg5 arg6 harg6 arg7 harg7 arg8 harg8 arg9 harg9 arg10 harg10 arg11 harg11 x0 x1 x2 x3 x4 hc0 hc1, first_den c i arg2 harg2 arg3 harg3 arg4 harg4 arg5 harg5 arg6 harg6 arg7 harg7 arg8 harg8 arg9 harg9 arg10 harg10 arg11 harg11 x0 x1 x2 x3 x4 hc0 hc1, first_num c i arg2 harg2 arg3 harg3 arg4 harg4 arg5 harg5 arg6 harg6 arg7 harg7 arg8 harg8 arg9 harg9 arg10 harg10 arg11 harg11 x0 x1 x2 x3 x4 hc0 hc1, first_query c i arg2 harg2 arg3 harg3 arg4 harg4 arg5 harg5 arg6 harg6 arg7 harg7 arg8 harg8 arg9 harg9 arg10 harg10 arg11 harg11 x0 x1 x2 x3 x4 hc0 hc1]

variable (xs0 : Vec F S1024x1 .f32) (xs1 : Vec F S1024x1 .f32) (xs2 : Vec F S1024x1024 .f32) (xs3 : Vec F S1024x1024 .bf16)

/-- Middle block, running maximum: the carried one raised by the score block's row maxima. -/
theorem mid_max (hc0 : ¬cond1_0 i) (hc1 : ¬cond1_1 i) :
    VS1_0.read (Elt F) (VS1_0.writes (Elt F) (VS1_0.junk) (kernelRun1_B c i arg2 harg2 arg3 harg3 arg4 harg4 arg5 harg5 arg6 harg6 arg7 harg7 arg8 harg8 arg9 harg9 arg10 harg10 arg11 harg11 hc0 hc1 x0 x1 x2 x3 x4 xs0 xs1 xs2 xs3).1)
      = k1_pay2 (k1_pay9 xs3 x1 xs0) := by
  rw [View.read_writes_eq_canon _ _ _ (scover1_B_0 c i arg2 harg2 arg3 harg3 arg4 harg4 arg5 harg5 arg6 harg6 arg7 harg7 arg8 harg8 arg9 harg9 arg10 harg10 arg11 harg11 x0 x1 x2 x3 x4 xs0 xs1 xs2 xs3 hc0 hc1)]
  unfold kernelRun1_B
  dsimp only
  sl_unfold_words
  rw [View.canon_unit_zero (S := S1024x1) hz2]
  simp only [View.readAt_eq_ld, harg2.read_unread, harg3.read_unread, harg4.read_unread, harg5.read_unread,
    harg6.read_unread, harg7.read_unread, harg8.read_unread, harg9.read_unread, harg10.read_unread, harg11.read_unread,
    View.ld_unit_zero (S := S1024x1) hz2, View.ld_unit_zero (S := S1024x1024) hz2, View.ld_unit_zero (S := S512x1024) hz2,
    View.ld_unit_zero (S := S1x1024) hz2, View.readCov_unit_zero (S := S1024x1) _ hz2,
    View.readCov_unit_zero (S := S1024x1024) _ hz2]

/-- Middle block, running denominator: the carried one rescaled and extended. -/
theorem mid_den (hc0 : ¬cond1_0 i) (hc1 : ¬cond1_1 i) :
    VS1_1.read (Elt F) (VS1_1.writes (Elt F) (VS1_1.junk) (kernelRun1_B c i arg2 harg2 arg3 harg3 arg4 harg4 arg5 harg5 arg6 harg6 arg7 harg7 arg8 harg8 arg9 harg9 arg10 harg10 arg11 harg11 hc0 hc1 x0 x1 x2 x3 x4 xs0 xs1 xs2 xs3).2.1)
      = k1_pay12 xs3 x1 xs0 xs0 xs1 := by
  rw [View.read_writes_eq_canon _ _ _ (scover1_B_1 c i arg2 harg2 arg3 harg3 arg4 harg4 arg5 harg5 arg6 harg6 arg7 harg7 arg8 harg8 arg9 harg9 arg10 harg10 arg11 harg11 x0 x1 x2 x3 x4 xs0 xs1 xs2 xs3 hc0 hc1)]
  unfold kernelRun1_B
  dsimp only
  sl_unfold_words
  rw [View.canon_unit_zero (S := S1024x1) hz2]
  simp only [View.readAt_eq_ld, harg2.read_unread, harg3.read_unread, harg4.read_unread, harg5.read_unread,
    harg6.read_unread, harg7.read_unread, harg8.read_unread, harg9.read_unread, harg10.read_unread, harg11.read_unread,
    View.ld_unit_zero (S := S1024x1) hz2, View.ld_unit_zero (S := S1024x1024) hz2, View.ld_unit_zero (S := S512x1024) hz2,
    View.ld_unit_zero (S := S1x1024) hz2, View.readCov_unit_zero (S := S1024x1) _ hz2,
    View.readCov_unit_zero (S := S1024x1024) _ hz2]

/-- Middle block, running numerator: the carried one rescaled and extended. -/
theorem mid_num (hc0 : ¬cond1_0 i) (hc1 : ¬cond1_1 i) :
    VS1_2.read (Elt F) (VS1_2.writes (Elt F) (VS1_2.junk) (kernelRun1_B c i arg2 harg2 arg3 harg3 arg4 harg4 arg5 harg5 arg6 harg6 arg7 harg7 arg8 harg8 arg9 harg9 arg10 harg10 arg11 harg11 hc0 hc1 x0 x1 x2 x3 x4 xs0 xs1 xs2 xs3).2.2.1)
      = k1_pay1 (k1_pay13 xs3 x1 x2 xs0 xs0 xs2) := by
  rw [View.read_writes_eq_canon _ _ _ (scover1_B_2 c i arg2 harg2 arg3 harg3 arg4 harg4 arg5 harg5 arg6 harg6 arg7 harg7 arg8 harg8 arg9 harg9 arg10 harg10 arg11 harg11 x0 x1 x2 x3 x4 xs0 xs1 xs2 xs3 hc0 hc1)]
  unfold kernelRun1_B
  dsimp only
  sl_unfold_words
  rw [View.canon_unit_zero (S := S1024x1024) hz2]
  simp only [View.readAt_eq_ld, harg2.read_unread, harg3.read_unread, harg4.read_unread, harg5.read_unread,
    harg6.read_unread, harg7.read_unread, harg8.read_unread, harg9.read_unread, harg10.read_unread, harg11.read_unread,
    View.ld_unit_zero (S := S1024x1) hz2, View.ld_unit_zero (S := S1024x1024) hz2, View.ld_unit_zero (S := S512x1024) hz2,
    View.ld_unit_zero (S := S1x1024) hz2, View.readCov_unit_zero (S := S1024x1) _ hz2,
    View.readCov_unit_zero (S := S1024x1024) _ hz2]

/-- Last block, output tile: the numerator and denominator just stored, read back, divided and projected. -/
theorem last_out (hc0 : ¬cond1_0 i) (hc1 : cond1_1 i) :
    VO1_5.read (Elt F) (VO1_5.writes (Elt F) (VO1_5.junk) (kernelRun1_C c i arg2 harg2 arg3 harg3 arg4 harg4 arg5 harg5 arg6 harg6 arg7 harg7 arg8 harg8 arg9 harg9 arg10 harg10 arg11 harg11 hc0 hc1 x0 x1 x2 x3 x4 xs0 xs1 xs2 xs3).1)
      = k1_pay3 (k1_pay1 (k1_pay13 xs3 x1 x2 xs0 xs0 xs2)) (k1_pay12 xs3 x1 xs0 xs0 xs1) x3 x4 := by
  rw [View.read_writes_eq_canon _ _ _ (cover1_C_5 c i arg2 harg2 arg3 harg3 arg4 harg4 arg5 harg5 arg6 harg6 arg7 harg7 arg8 harg8 arg9 harg9 arg10 harg10 arg11 harg11 x0 x1 x2 x3 x4 xs0 xs1 xs2 xs3 hc0 hc1)]
  unfold kernelRun1_C
  dsimp only
  sl_unfold_words
  rw [View.canon_unit_zero (S := S1024x1024) hz2]
  simp only [View.readAt_eq_ld, harg2.read_unread, harg3.read_unread, harg4.read_unread, harg5.read_unread,
    harg6.read_unread, harg7.read_unread, harg8.read_unread, harg9.read_unread, harg10.read_unread, harg11.read_unread,
    View.ld_unit_zero (S := S1024x1) hz2, View.ld_unit_zero (S := S1024x1024) hz2, View.ld_unit_zero (S := S512x1024) hz2,
    View.ld_unit_zero (S := S1x1024) hz2, View.readCov_unit_zero (S := S1024x1) _ hz2,
    View.readCov_unit_zero (S := S1024x1024) _ hz2]

/-- Last block, running maximum: as at a middle block. -/
theorem last_max (hc0 : ¬cond1_0 i) (hc1 : cond1_1 i) :
    VS1_0.read (Elt F) (VS1_0.writes (Elt F) (VS1_0.junk) (kernelRun1_C c i arg2 harg2 arg3 harg3 arg4 harg4 arg5 harg5 arg6 harg6 arg7 harg7 arg8 harg8 arg9 harg9 arg10 harg10 arg11 harg11 hc0 hc1 x0 x1 x2 x3 x4 xs0 xs1 xs2 xs3).2.1)
      = k1_pay2 (k1_pay9 xs3 x1 xs0) := by
  rw [View.read_writes_eq_canon _ _ _ (scover1_C_0 c i arg2 harg2 arg3 harg3 arg4 harg4 arg5 harg5 arg6 harg6 arg7 harg7 arg8 harg8 arg9 harg9 arg10 harg10 arg11 harg11 x0 x1 x2 x3 x4 xs0 xs1 xs2 xs3 hc0 hc1)]
  unfold kernelRun1_C
  dsimp only
  sl_unfold_words
  rw [View.canon_unit_zero (S := S1024x1) hz2]
  simp only [View.readAt_eq_ld, harg2.read_unread, harg3.read_unread, harg4.read_unread, harg5.read_unread,
    harg6.read_unread, harg7.read_unread, harg8.read_unread, harg9.read_unread, harg10.read_unread, harg11.read_unread,
    View.ld_unit_zero (S := S1024x1) hz2, View.ld_unit_zero (S := S1024x1024) hz2, View.ld_unit_zero (S := S512x1024) hz2,
    View.ld_unit_zero (S := S1x1024) hz2, View.readCov_unit_zero (S := S1024x1) _ hz2,
    View.readCov_unit_zero (S := S1024x1024) _ hz2]

/-- Last block, running denominator: as at a middle block. -/
theorem last_den (hc0 : ¬cond1_0 i) (hc1 : cond1_1 i) :
    VS1_1.read (Elt F) (VS1_1.writes (Elt F) (VS1_1.junk) (kernelRun1_C c i arg2 harg2 arg3 harg3 arg4 harg4 arg5 harg5 arg6 harg6 arg7 harg7 arg8 harg8 arg9 harg9 arg10 harg10 arg11 harg11 hc0 hc1 x0 x1 x2 x3 x4 xs0 xs1 xs2 xs3).2.2.1)
      = k1_pay12 xs3 x1 xs0 xs0 xs1 := by
  rw [View.read_writes_eq_canon _ _ _ (scover1_C_1 c i arg2 harg2 arg3 harg3 arg4 harg4 arg5 harg5 arg6 harg6 arg7 harg7 arg8 harg8 arg9 harg9 arg10 harg10 arg11 harg11 x0 x1 x2 x3 x4 xs0 xs1 xs2 xs3 hc0 hc1)]
  unfold kernelRun1_C
  dsimp only
  sl_unfold_words
  rw [View.canon_unit_zero (S := S1024x1) hz2]
  simp only [View.readAt_eq_ld, harg2.read_unread, harg3.read_unread, harg4.read_unread, harg5.read_unread,
    harg6.read_unread, harg7.read_unread, harg8.read_unread, harg9.read_unread, harg10.read_unread, harg11.read_unread,
    View.ld_unit_zero (S := S1024x1) hz2, View.ld_unit_zero (S := S1024x1024) hz2, View.ld_unit_zero (S := S512x1024) hz2,
    View.ld_unit_zero (S := S1x1024) hz2, View.readCov_unit_zero (S := S1024x1) _ hz2,
    View.readCov_unit_zero (S := S1024x1024) _ hz2]

/-- Last block, running numerator: as at a middle block. -/
theorem last_num (hc0 : ¬cond1_0 i) (hc1 : cond1_1 i) :
    VS1_2.read (Elt F) (VS1_2.writes (Elt F) (VS1_2.junk) (kernelRun1_C c i arg2 harg2 arg3 harg3 arg4 harg4 arg5 harg5 arg6 harg6 arg7 harg7 arg8 harg8 arg9 harg9 arg10 harg10 arg11 harg11 hc0 hc1 x0 x1 x2 x3 x4 xs0 xs1 xs2 xs3).2.2.2.1)
      = k1_pay1 (k1_pay13 xs3 x1 x2 xs0 xs0 xs2) := by
  rw [View.read_writes_eq_canon _ _ _ (scover1_C_2 c i arg2 harg2 arg3 harg3 arg4 harg4 arg5 harg5 arg6 harg6 arg7 harg7 arg8 harg8 arg9 harg9 arg10 harg10 arg11 harg11 x0 x1 x2 x3 x4 xs0 xs1 xs2 xs3 hc0 hc1)]
  unfold kernelRun1_C
  dsimp only
  sl_unfold_words
  rw [View.canon_unit_zero (S := S1024x1024) hz2]
  simp only [View.readAt_eq_ld, harg2.read_unread, harg3.read_unread, harg4.read_unread, harg5.read_unread,
    harg6.read_unread, harg7.read_unread, harg8.read_unread, harg9.read_unread, harg10.read_unread, harg11.read_unread,
    View.ld_unit_zero (S := S1024x1) hz2, View.ld_unit_zero (S := S1024x1024) hz2, View.ld_unit_zero (S := S512x1024) hz2,
    View.ld_unit_zero (S := S1x1024) hz2, View.readCov_unit_zero (S := S1024x1) _ hz2,
    View.readCov_unit_zero (S := S1024x1024) _ hz2]

/-- Middle block, the whole state: the three accumulators together, beside whatever the output buffer holds and the
    scaled query tile as carried. -/
theorem mid_state (hc0 : ¬cond1_0 i) (hc1 : ¬cond1_1 i) (o : Vec F S1024x1024 .f32) :
    ((o,
      VS1_0.read (Elt F) (VS1_0.writes (Elt F) (VS1_0.junk) (kernelRun1_B c i arg2 harg2 arg3 harg3 arg4 harg4 arg5 harg5 arg6 harg6 arg7 harg7 arg8 harg8 arg9 harg9 arg10 harg10 arg11 harg11 hc0 hc1 x0 x1 x2 x3 x4 xs0 xs1 xs2 xs3).1),
      VS1_1.read (Elt F) (VS1_1.writes (Elt F) (VS1_1.junk) (kernelRun1_B c i arg2 harg2 arg3 harg3 arg4 harg4 arg5 harg5 arg6 harg6 arg7 harg7 arg8 harg8 arg9 harg9 arg10 harg10 arg11 harg11 hc0 hc1 x0 x1 x2 x3 x4 xs0 xs1 xs2 xs3).2.1),
      VS1_2.read (Elt F) (VS1_2.writes (Elt F) (VS1_2.junk) (kernelRun1_B c i arg2 harg2 arg3 harg3 arg4 harg4 arg5 harg5 arg6 harg6 arg7 harg7 arg8 harg8 arg9 harg9 arg10 harg10 arg11 harg11 hc0 hc1 x0 x1 x2 x3 x4 xs0 xs1 xs2 xs3).2.2.1),
      xs3) : St1 F)
      = (o, k1_pay2 (k1_pay9 xs3 x1 xs0), k1_pay12 xs3 x1 xs0 xs0 xs1, k1_pay1 (k1_pay13 xs3 x1 x2 xs0 xs0 xs2), xs3) := by
  rw [mid_max c i arg2 harg2 arg3 harg3 arg4 harg4 arg5 harg5 arg6 harg6 arg7 harg7 arg8 harg8 arg9 harg9 arg10 harg10 arg11 harg11 x0 x1 x2 x3 x4 xs0 xs1 xs2 xs3 hc0 hc1, mid_den c i arg2 harg2 arg3 harg3 arg4 harg4 arg5 harg5 arg6 harg6 arg7 harg7 arg8 harg8 arg9 harg9 arg10 harg10 arg11 harg11 x0 x1 x2 x3 x4 xs0 xs1 xs2 xs3 hc0 hc1, mid_num c i arg2 harg2 arg3 harg3 arg4 harg4 arg5 harg5 arg6 harg6 arg7 harg7 arg8 harg8 arg9 harg9 arg10 harg10 arg11 harg11 x0 x1 x2 x3 x4 xs0 xs1 xs2 xs3 hc0 hc1]

/-- Last block, the whole state: the output tile and the three accumulators together, beside the scaled query tile as
    carried. -/
theorem last_state (hc0 : ¬cond1_0 i) (hc1 : cond1_1 i) :
    ((VO1_5.read (Elt F) (VO1_5.writes (Elt F) (VO1_5.junk) (kernelRun1_C c i arg2 harg2 arg3 harg3 arg4 harg4 arg5 harg5 arg6 harg6 arg7 harg7 arg8 harg8 arg9 harg9 arg10 harg10 arg11 harg11 hc0 hc1 x0 x1 x2 x3 x4 xs0 xs1 xs2 xs3).1),
      VS1_0.read (Elt F) (VS1_0.writes (Elt F) (VS1_0.junk) (kernelRun1_C c i arg2 harg2 arg3 harg3 arg4 harg4 arg5 harg5 arg6 harg6 arg7 harg7 arg8 harg8 arg9 harg9 arg10 harg10 arg11 harg11 hc0 hc1 x0 x1 x2 x3 x4 xs0 xs1 xs2 xs3).2.1),
      VS1_1.read (Elt F) (VS1_1.writes (Elt F) (VS1_1.junk) (kernelRun1_C c i arg2 harg2 arg3 harg3 arg4 harg4 arg5 harg5 arg6 harg6 arg7 harg7 arg8 harg8 arg9 harg9 arg10 harg10 arg11 harg11 hc0 hc1 x0 x1 x2 x3 x4 xs0 xs1 xs2 xs3).2.2.1),
      VS1_2.read (Elt F) (VS1_2.writes (Elt F) (VS1_2.junk) (kernelRun1_C c i arg2 harg2 arg3 harg3 arg4 harg4 arg5 harg5 arg6 harg6 arg7 harg7 arg8 harg8 arg9 harg9 arg10 harg10 arg11 harg11 hc0 hc1 x0 x1 x2 x3 x4 xs0 xs1 xs2 xs3).2.2.2.1),
      xs3) : St1 F)
      = (k1_pay3 (k1_pay1 (k1_pay13 xs3 x1 x2 xs0 xs0 xs2)) (k1_pay12 xs3 x1 xs0 xs0 xs1) x3 x4, k1_pay2 (k1_pay9 xs3 x1 xs0), k1_pay12 xs3 x1 xs0 xs0 xs1, k1_pay1 (k1_pay13 xs3 x1 x2 xs0 xs0 xs2), xs3) := by
  rw [last_out c i arg2 harg2 arg3 harg3 arg4 harg4 arg5 harg5 arg6 harg6 arg7 harg7 arg8 harg8 arg9 harg9 arg10 harg10 arg11 harg11 x0 x1 x2 x3 x4 xs0 xs1 xs2 xs3 hc0 hc1, last_max c i arg2 harg2 arg3 harg3 arg4 harg4 arg5 harg5 arg6 harg6 arg7 harg7 arg8 harg8 arg9 harg9 arg10 harg10 arg11 harg11 x0 x1 x2 x3 x4 xs0 xs1 xs2 xs3 hc0 hc1, last_den c i arg2 harg2 arg3 harg3 arg4 harg4 arg5 harg5 arg6 harg6 arg7 harg7 arg8 harg8 arg9 harg9 arg10 harg10 arg11 harg11 x0 x1 x2 x3 x4 xs0 xs1 xs2 xs3 hc0 hc1, last_num c i arg2 harg2 arg3 harg3 arg4 harg4 arg5 harg5 arg6 harg6 arg7 harg7 arg8 harg8 arg9 harg9 arg10 harg10 arg11 harg11 x0 x1 x2 x3 x4 xs0 xs1 xs2 xs3 hc0 hc1]

end Pieces

/-! ## Case by case -/

set_option maxHeartbeats 400000 in
/-- After a first-block point: the state started afresh from the point's query, key and value blocks. -/
theorem stA_eq (c : Dev nD) (t : Fin cfg1.N) (hc0 : cond1_0 (grid1.coords t)) (hc1 : ¬cond1_1 (grid1.coords t)) :
    stA V c t hc0 hc1
      = (outJunk,
         k1_pay2 (k1_pay9 (k1_pay7 (iblk1 V c 0 t)) (iblk1 V c 1 t) (k1_pay4 (F := F))),
         k1_pay12 (k1_pay7 (iblk1 V c 0 t)) (iblk1 V c 1 t) (k1_pay4 (F := F)) (k1_pay4 (F := F)) (k1_pay5 (F := F)),
         k1_pay1 (k1_pay13 (k1_pay7 (iblk1 V c 0 t)) (iblk1 V c 1 t) (iblk1 V c 2 t) (k1_pay4 (F := F)) (k1_pay4 (F := F)) (k1_pay6 (F := F))),
         k1_pay7 (iblk1 V c 0 t)) := by
  unfold stA
  dsimp only
  exact first_state c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (iblk1 V c 0 t) (iblk1 V c 1 t) (iblk1 V c 2 t) (iblk1 V c 3 t) (iblk1 V c 4 t) hc0 hc1 outJunk

set_option maxHeartbeats 400000 in
/-- After a middle-block point, over the state `p` the point before left. -/
theorem stB_eq (c : Dev nD) (t : Fin cfg1.N) (hc0 : ¬cond1_0 (grid1.coords t)) (hc1 : ¬cond1_1 (grid1.coords t)) (p : St1 F) :
    stB V c t hc0 hc1 p
      = (outJunk,
         k1_pay2 (k1_pay9 p.2.2.2.2 (iblk1 V c 1 t) p.2.1),
         k1_pay12 p.2.2.2.2 (iblk1 V c 1 t) p.2.1 p.2.1 p.2.2.1,
         k1_pay1 (k1_pay13 p.2.2.2.2 (iblk1 V c 1 t) (iblk1 V c 2 t) p.2.1 p.2.1 p.2.2.2.1),
         p.2.2.2.2) := by
  unfold stB
  dsimp only
  exact mid_state c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (iblk1 V c 0 t) (iblk1 V c 1 t) (iblk1 V c 2 t) (iblk1 V c 3 t) (iblk1 V c 4 t) p.2.1 p.2.2.1 p.2.2.2.1 p.2.2.2.2 hc0 hc1 outJunk

set_option maxHeartbeats 400000 in
/-- After a last-block point, over the state `p` the point before left: as a middle block, and the output tile. -/
theorem stC_eq (c : Dev nD) (t : Fin cfg1.N) (hc0 : ¬cond1_0 (grid1.coords t)) (hc1 : cond1_1 (grid1.coords t)) (p : St1 F) :
    stC V c t hc0 hc1 p
      = (k1_pay3 (k1_pay1 (k1_pay13 p.2.2.2.2 (iblk1 V c 1 t) (iblk1 V c 2 t) p.2.1 p.2.1 p.2.2.2.1))
            (k1_pay12 p.2.2.2.2 (iblk1 V c 1 t) p.2.1 p.2.1 p.2.2.1) (iblk1 V c 3 t) (iblk1 V c 4 t),
         k1_pay2 (k1_pay9 p.2.2.2.2 (iblk1 V c 1 t) p.2.1),
         k1_pay12 p.2.2.2.2 (iblk1 V c 1 t) p.2.1 p.2.1 p.2.2.1,
         k1_pay1 (k1_pay13 p.2.2.2.2 (iblk1 V c 1 t) (iblk1 V c 2 t) p.2.1 p.2.1 p.2.2.2.1),
         p.2.2.2.2) := by
  unfold stC
  dsimp only
  exact last_state c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (iblk1 V c 0 t) (iblk1 V c 1 t) (iblk1 V c 2 t) (iblk1 V c 3 t) (iblk1 V c 4 t) p.2.1 p.2.2.1 p.2.2.2.1 p.2.2.2.2 hc0 hc1

end Cert.KernelIdeal.Hand

end
-- ==== Proof.KI.FlashBlocks.lean ====
/-
  The attention launch's windows, read as entries of the arrays, and its result array from its tiles.

  At the grid point `t` (query tile `t / 16`, key/value block `t % 16`) the query window shows rows `1024 (t / 16) + r` of
  the projection's result in its first column third; the key and value windows show rows `512 (t % 16) + s` in the second
  and third column thirds; the output weight and bias windows show their arrays whole. The result window is written back
  at the last block of each query tile, rows `1024 (t / 16) + r`; the eight tiles cover the result array, so it ends
  holding one function `G` as soon as every written-back tile holds its rows of `G`.
-/
import proofs.«422776_j21586505630422_3_alg».proof.Proof.KI.Flash
import proofs.«422776_j21586505630422_3_alg».proof.Proof.Spec
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.Spec

variable {F : FTy → Type} [FloatOps F]
variable (V : (c : Dev nD) → (b : Ref sig .tc) → Buf (Elt F) ((c : Thread nD τ).loc b))

/-- The array row behind row `r` of the query tile of point `t`. -/
def tileRow (t : Fin cfg1.N) (r : Fin 1024) : Fin 8192 :=
  ⟨1024 * (t.val / 16) + r.val, by have := t.isLt; have h : cfg1.N = 128 := N_1; have := r.isLt; omega⟩

/-- The printed index maps over the grid: the query and result blocks move with the query tile `t / 16`, the key and
    value blocks with the block `t % 16`, in the second and third column thirds; the output weight and bias blocks
    never move. -/
theorem attn_index_facts : ∀ t : Fin cfg1.N,
    win1_0.index t (0 : Fin 2) = t.val / 16 ∧ win1_0.index t (1 : Fin 2) = 0
    ∧ win1_1.index t (0 : Fin 2) = t.val % 16 ∧ win1_1.index t (1 : Fin 2) = 1
    ∧ win1_2.index t (0 : Fin 2) = t.val % 16 ∧ win1_2.index t (1 : Fin 2) = 2
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val / 16 ∧ win1_5.index t (1 : Fin 2) = 0 :=
  (by decide +kernel : ∀ t : Fin grid1.N, _)

theorem qblk_apply (c : Dev nD) (t : Fin cfg1.N) (r d : Fin 1024) :
    (iblk1 V c 0 t : S1024x1024.Idx → Elt F .bf16) (ix2 r d) = (V c main_v3 : S8192x3072.Idx → Elt F .bf16) (ix2 (tileRow t r) (qcol d)) := by
  obtain ⟨e0, e1, -⟩ := attn_index_facts t
  show V c main_v3 (((cfg1.win 0).blk t).view.emb (ix2 r d)) = V c main_v3 (ix2 (tileRow t r) (qcol d))
  refine congrArg _ (funext fun a => Fin.ext ?_)
  match a with
  | ⟨0, _⟩ => show win1_0.index t (0 : Fin 2) * 1024 + 1 * r.val = 1024 * (t.val / 16) + r.val; omega
  | ⟨1, _⟩ => show win1_0.index t (1 : Fin 2) * 1024 + 1 * d.val = d.val; omega

theorem kblk_apply (c : Dev nD) (t : Fin cfg1.N) (s : Fin 512) (d : Fin 1024) :
    (iblk1 V c 1 t : S512x1024.Idx → Elt F .bf16) (ix2 s d) = (V c main_v3 : S8192x3072.Idx → Elt F .bf16) (ix2 (colOf (t.val % 16) s) (kcol d)) := by
  obtain ⟨-, -, e0, e1, -⟩ := attn_index_facts t
  have hs := s.isLt
  show V c main_v3 (((cfg1.win 1).blk t).view.emb (ix2 s d)) = V c main_v3 (ix2 (colOf (t.val % 16) s) (kcol d))
  refine congrArg _ (funext fun a => Fin.ext ?_)
  match a with
  | ⟨0, _⟩ => show win1_1.index t (0 : Fin 2) * 512 + 1 * s.val = (512 * (t.val % 16) + s.val) % 8192; omega
  | ⟨1, _⟩ => show win1_1.index t (1 : Fin 2) * 1024 + 1 * d.val = 1024 + d.val; omega

theorem vblk_apply (c : Dev nD) (t : Fin cfg1.N) (s : Fin 512) (d : Fin 1024) :
    (iblk1 V c 2 t : S512x1024.Idx → Elt F .bf16) (ix2 s d) = (V c main_v3 : S8192x3072.Idx → Elt F .bf16) (ix2 (colOf (t.val % 16) s) (vcol d)) := by
  obtain ⟨-, -, -, -, e0, e1, -⟩ := attn_index_facts t
  have hs := s.isLt
  show V c main_v3 (((cfg1.win 2).blk t).view.emb (ix2 s d)) = V c main_v3 (ix2 (colOf (t.val % 16) s) (vcol d))
  refine congrArg _ (funext fun a => Fin.ext ?_)
  match a with
  | ⟨0, _⟩ => show win1_2.index t (0 : Fin 2) * 512 + 1 * s.val = (512 * (t.val % 16) + s.val) % 8192; omega
  | ⟨1, _⟩ => show win1_2.index t (1 : Fin 2) * 1024 + 1 * d.val = 2048 + d.val; omega

theorem woblk_apply (c : Dev nD) (t : Fin cfg1.N) (n d : Fin 1024) :
    (iblk1 V c 3 t : S1024x1024.Idx → Elt F .bf16) (ix2 n d) = (V c main_v1 : S1024x1024.Idx → Elt F .bf16) (ix2 n d) := by
  obtain ⟨-, -, -, -, -, -, e0, e1, -⟩ := attn_index_facts t
  show V c main_v1 (((cfg1.win 3).blk t).view.emb (ix2 n d)) = V c main_v1 (ix2 n d)
  refine congrArg _ (funext fun a => Fin.ext ?_)
  match a with
  | ⟨0, _⟩ => show win1_3.index t (0 : Fin 2) * 1024 + 1 * n.val = n.val; omega
  | ⟨1, _⟩ => show win1_3.index t (1 : Fin 2) * 1024 + 1 * d.val = d.val; omega

theorem boblk_apply (c : Dev nD) (t : Fin cfg1.N) (n : Fin 1024) :
    (iblk1 V c 4 t : S1x1024.Idx → Elt F .f32) (ix2 (0 : Fin 1) n) = (V c main_v4 : S1x1024.Idx → Elt F .f32) (ix2 (0 : Fin 1) n) := by
  obtain ⟨-, -, -, -, -, -, -, -, e0, e1, -⟩ := attn_index_facts t
  show V c main_v4 (((cfg1.win 4).blk t).view.emb (ix2 (0 : Fin 1) n)) = V c main_v4 (ix2 (0 : Fin 1) n)
  refine congrArg _ (funext fun a => Fin.ext ?_)
  match a with
  | ⟨0, _⟩ => show win1_4.index t (0 : Fin 2) * 1 + 1 * (0 : Fin 1).val = (0 : Fin 1).val; rw [e0]; rfl
  | ⟨1, _⟩ => show win1_4.index t (1 : Fin 2) * 1024 + 1 * n.val = n.val; omega

/-- WHAT A LAST-BLOCK POINT WRITES BACK is its tile of `G`, when the output buffer there holds the tile's rows of `G`. -/
theorem result_tile_written (c : Dev nD) (G : S8192x1024.Idx → Elt F .f32) (t : Fin cfg1.N)
    (hG : ∀ r n : Fin 1024,
      ((outsAt1 V c t.val t.isLt).1 : S1024x1024.Idx → Elt F .f32) (ix2 r n) = G (ix2 (tileRow t r) n)) :
    (dat1 V c).flushed 5 t = ((cfg1.win 5).blk t).view.read (Elt F) G := by
  show (cfg1.win 5).cut (grid1.coords t) ((dat1 V c).after 5 t) = _
  rw [after1_5]
  obtain ⟨-, -, -, -, -, -, -, -, -, -, e0, e1⟩ := attn_index_facts t
  funext y
  show ((outsAt1 V c t.val t.isLt).1 : S1024x1024.Idx → Elt F .f32) y = G (((cfg1.win 5).blk t).view.emb y)
  have hemb : ((cfg1.win 5).blk t).view.emb y = ix2 (tileRow t (y 0)) (y 1) := funext fun a => Fin.ext (by
    match a with
    | ⟨0, _⟩ => show win1_5.index t (0 : Fin 2) * 1024 + 1 * (y 0).val = 1024 * (t.val / 16) + (y 0).val; omega
    | ⟨1, _⟩ => show win1_5.index t (1 : Fin 2) * 1024 + 1 * (y 1).val = (y 1).val; omega)
  rw [hemb]
  exact (congrArg ((outsAt1 V c t.val t.isLt).1 : S1024x1024.Idx → Elt F .f32) (eq_ix2 y)).trans (hG (y 0) (y 1))

/-- An index of the result is in point `t`'s tile iff each coordinate is in the tile's range on its axis. -/
theorem mem_result_tile (t : Fin cfg1.N) (i : S8192x1024.Idx) :
    i ∈ ((cfg1.win 5).blk t).view.set ↔ ∀ a : Fin 2, win1_5.index t a * S1024x1024.size a ≤ (i a).val ∧ (i a).val < win1_5.index t a * S1024x1024.size a + S1024x1024.size a := by
  show i ∈ ((View.whole main_v5).slice (win1_5.rect t)).set ↔ _
  rw [View.set_slice_whole, Rect.mem_set_unit]
  exact Iff.rfl

/-- THE WRITTEN-BACK TILES COVER THE RESULT: row `i` is in the tile of the last block of query tile `i / 1024`. -/
theorem result_tiles_cover (i : S8192x1024.Idx) :
    ∃ t : Fin cfg1.N, (cfg1.win 5).flush t = true ∧ i ∈ ((cfg1.win 5).blk t).view.set := by
  have hi0 : (i 0).val < 8192 := (i 0).isLt
  have hi1 : (i 1).val < 1024 := (i 1).isLt
  have hN : cfg1.N = 128 := N_1
  let t : Fin cfg1.N := ⟨16 * ((i 0).val / 1024) + 15, by omega⟩
  have htv : t.val = 16 * ((i 0).val / 1024) + 15 := rfl
  obtain ⟨-, -, -, -, -, -, -, -, -, -, e0, e1⟩ := attn_index_facts t
  refine ⟨t, (flush1_5 t).mpr (by omega), ?_⟩
  rw [mem_result_tile]
  intro a
  match a with
  | ⟨0, _⟩ => show win1_5.index t (0 : Fin 2) * 1024 ≤ (i 0).val ∧ (i 0).val < win1_5.index t (0 : Fin 2) * 1024 + 1024; omega
  | ⟨1, _⟩ => show win1_5.index t (1 : Fin 2) * 1024 ≤ (i 1).val ∧ (i 1).val < win1_5.index t (1 : Fin 2) * 1024 + 1024; omega

/-- The result array after the launch is `G`, as soon as at every last-block point the output buffer holds the point's
    rows of `G`. -/
theorem out_final (c : Dev nD) (G : S8192x1024.Idx → Elt F .f32)
    (hG : ∀ t : Fin cfg1.N, t.val % 16 = 15 → ∀ r n : Fin 1024,
      ((outsAt1 V c t.val t.isLt).1 : S1024x1024.Idx → Elt F .f32) (ix2 r n) = G (ix2 (tileRow t r) n)) :
    ((dat1 V c).arrAt 5 cfg1.N : S8192x1024.Idx → Elt F .f32) = G :=
  (dat1 V c).arrAt_eq_of_cover 5 G
    (fun t hf => result_tile_written V c G t (hG t ((flush1_5 t).mp hf))) result_tiles_cover

end Cert.KernelIdeal.Hand

end
-- ==== Proof.KI.FlashStep.lean ====
/-
  One block of the attention kernel's arithmetic, over the reals.

  The kernel's body is a handful of pure functions of what it loads (the generated payloads): the block of scores is the
  scaled query tile against the key block; the new running maximum is the old one against the block's row maxima; the
  old denominator and numerator are rescaled by the exponential of the old maximum minus the new, and the block's
  exponentials (against the value block, for the numerator) are added; at the end the numerator is divided by the
  denominator, multiplied into the output weight and the bias added. This module reads each of those payloads at an index
  when everything loaded is real, and finds the specification's `step` there (the first block and the output tile are read
  in a sibling module).
  No grid, no memory: functions of vectors only.
-/
import proofs.«422776_j21586505630422_3_alg».proof.Proof.Gen.KernelIdeal.Skeleton
import proofs.«422776_j21586505630422_3_alg».proof.Proof.Spec
import Idealize.ShloMosaic.Lib.ValueIdx
import Idealize.ShloMosaic.Lib.ValueLayout
import Idealize.ShloMosaic.Lib.Pipeline.Value
import Idealize.ShloMosaic.PureOps.Ideal.Laws
import Mathlib.Data.EReal.Basic
import Mathlib.Data.EReal.Operations
import Mathlib.Algebra.BigOperators.Group.Finset.Basic
import Mathlib.Data.Finset.Lattice.Fold

set_option maxRecDepth 16384

noncomputable section

namespace Cert.KernelIdeal.Val

open Idealize.ShloMosaic Idealize.ShloMosaic.ValueIdx
open Cert.KernelIdeal Cert.KernelIdeal.Gen Cert.Spec

/-! ## The constants the kernel spells -/

/-- The pattern `0x3D000000` is `2⁻⁵ = 1/32`. -/
theorem ofBits_inv32 : Ideal.ofBits .f32 0x3D000000#32 = ((1 / 32 : ℝ) : EReal) := by
  simp [Ideal.ofBits, Ideal.ieee, -EReal.coe_mul]; norm_num

/-- The pattern `0xFF800000` is `-∞`. -/
theorem ofBits_negInf : Ideal.ofBits .f32 0xFF800000#32 = ⊥ := by
  simp [Ideal.ofBits, Ideal.ieee]

/-! ## Sums and maxima of reals, read in the extended reals -/

/-- A finite sum of reals, read in the extended reals, is the sum of the terms read there. -/
theorem coe_finsum {ι : Type} (s : Finset ι) (f : ι → ℝ) :
    ∑ k ∈ s, ((f k : ℝ) : EReal) = ((∑ k ∈ s, f k : ℝ) : EReal) := by
  classical
  refine Finset.induction_on s ?_ ?_
  · rw [Finset.sum_empty, Finset.sum_empty, EReal.coe_zero]
  · intro a s ha ih
    rw [Finset.sum_insert ha, Finset.sum_insert ha, ih, EReal.coe_add]

/-- Reading a real in the extended reals keeps the larger of two. -/
theorem coe_max_real (a b : ℝ) : ((max a b : ℝ) : EReal) = max (a : EReal) (b : EReal) :=
  EReal.coe_strictMono.monotone.map_max

/-- The fold of `max` from `-∞` over a nonempty family of reals is the family's largest member. -/
theorem fold_max_coe {ι : Type} (s : Finset ι) (hs : s.Nonempty) (f : ι → ℝ) :
    s.fold max (⊥ : EReal) (fun i => ((f i : ℝ) : EReal)) = ((s.sup' hs f : ℝ) : EReal) := by
  induction hs using Finset.Nonempty.cons_induction with
  | singleton a =>
    rw [Finset.fold_singleton, Finset.sup'_singleton]
    exact max_eq_left bot_le
  | cons a s ha hs ih =>
    rw [Finset.fold_cons, ih, Finset.sup'_cons hs, coe_max_real]

/-! ## The column forms of a shape cast and of a broadcast -/

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : Nat) = if (1 : Nat) = 1 then 0 else _
    rw [if_pos rfl]

/-! ## The two reductions along a row -/

/-- The block's row maximum: the fold of `max` from `-∞` over the row. -/
theorem rowMax_apply (src : FVec Ideal S1024x512 .f32) (hφ : FKind.Formats .f32)
    (hacc : (0xFF800000#32 : BitVec 32) = FKind.maximumf.neutral .f32 hφ) (r : Fin 1024) :
    multiReduction (F := Ideal) .maximumf [1] S1024 src 0xFF800000#32 reduces_S1024x512_S1024 hφ hacc (ix1 r)
      = (Finset.univ : Finset (Fin 512)).fold max (⊥ : EReal) (fun s => src (ix2 r s)) := by
  refine (Ideal.multiReduction_maximumf_single src _ reduces_S1024x512_S1024 hφ hacc (ix1 r)).trans ?_
  show (Finset.univ : Finset (Fin 512)).fold max (Ideal.ofBits .f32 0xFF800000#32) (src ∘ reduces_S1024x512_S1024.lift (ix1 r)) = _
  rw [ofBits_negInf]
  refine Finset.fold_congr fun s _ => congrArg src (funext fun a => Fin.ext ?_)
  match a with
  | ⟨0, _⟩ => rfl
  | ⟨1, _⟩ => rfl

/-- The block's row sum: the sum over the row. -/
theorem rowSum_apply (src : FVec Ideal S1024x512 .f32) (hφ : FKind.Formats .f32)
    (hacc : (0x00000000#32 : BitVec 32) = FKind.add.neutral .f32 hφ) (r : Fin 1024) :
    multiReduction (F := Ideal) .add [1] S1024 src 0x00000000#32 reduces_S1024x512_S1024 hφ hacc (ix1 r)
      = ∑ s : Fin 512, src (ix2 r s) := by
  refine (Ideal.multiReduction_add_single src _ reduces_S1024x512_S1024 hφ hacc (ix1 r)).trans ?_
  show ∑ s : Fin 512, src (reduces_S1024x512_S1024.lift (ix1 r) s) = _
  refine Finset.sum_congr rfl fun s _ => congrArg src (funext fun a => Fin.ext ?_)
  match a with
  | ⟨0, _⟩ => rfl
  | ⟨1, _⟩ => rfl

/-! ## The two products of one block -/

/-- The score product's left operand is read at the result's row … -/
theorem lhs_scores_0 (i : S1024x512.Idx) (q : dot_S1024x1024_S512x1024_S1024x512_1_1_0_0_n_n.contr.Idx) :
    (dot_S1024x1024_S512x1024_S1024x512_1_1_0_0_n_n.lhsIdx i q 0).val = (i 0).val := by
  unfold DotDims.lhsIdx
  rw [dif_neg (show ¬(0 : Fin S1024x1024.rank) ∈ dot_S1024x1024_S512x1024_S1024x512_1_1_0_0_n_n.lhsBatch by decide), dif_pos (show (0 : Fin S1024x1024.rank) ∈ dot_S1024x1024_S512x1024_S1024x512_1_1_0_0_n_n.lhsNonContracting by decide)]
  rfl
/-- … and at the contraction position; -/
theorem lhs_scores_1 (i : S1024x512.Idx) (q : dot_S1024x1024_S512x1024_S1024x512_1_1_0_0_n_n.contr.Idx) :
    (dot_S1024x1024_S512x1024_S1024x512_1_1_0_0_n_n.lhsIdx i q 1).val = (q ⟨0, by decide⟩).val :=
  dot_S1024x1024_S512x1024_S1024x512_1_1_0_0_n_n.lhsIdx_val_of_single rfl i q
/-- the right operand at the result's column, as ITS row (the keys are contracted along their second axis too) … -/
theorem rhs_scores_0 (i : S1024x512.Idx) (q : dot_S1024x1024_S512x1024_S1024x512_1_1_0_0_n_n.contr.Idx) :
    (dot_S1024x1024_S512x1024_S1024x512_1_1_0_0_n_n.rhsIdx i q 0).val = (i 1).val := by
  unfold DotDims.rhsIdx
  rw [dif_neg (show ¬(0 : Fin S512x1024.rank) ∈ dot_S1024x1024_S512x1024_S1024x512_1_1_0_0_n_n.rhsBatch by decide), dif_pos (show (0 : Fin S512x1024.rank) ∈ dot_S1024x1024_S512x1024_S1024x512_1_1_0_0_n_n.rhsNonContracting by decide)]
  rfl
/-- … and at the contraction position. -/
theorem rhs_scores_1 (i : S1024x512.Idx) (q : dot_S1024x1024_S512x1024_S1024x512_1_1_0_0_n_n.contr.Idx) :
    (dot_S1024x1024_S512x1024_S1024x512_1_1_0_0_n_n.rhsIdx i q 1).val = (q ⟨0, by decide⟩).val :=
  dot_S1024x1024_S512x1024_S1024x512_1_1_0_0_n_n.rhsIdx_val_of_single rfl i q

/-- The score product into the zero accumulator, at row `r` and column `s`: row `r` of the queries against row `s`
    of the keys. -/
theorem matmul_scores_apply (a : FVec Ideal S1024x1024 .bf16) (b : FVec Ideal S512x1024 .bf16) (r : Fin 1024) (s : Fin 512) :
    (matmul dot_S1024x1024_S512x1024_S1024x512_1_1_0_0_n_n none a b (constant S1024x512 .f32 0x00000000#32) : FVec Ideal S1024x512 .f32) (ix2 r s)
      = ∑ k : Fin 1024, a (ix2 r k) * b (ix2 s k) := by
  refine (Ideal.matmul_constant_zero_apply dot_S1024x1024_S512x1024_S1024x512_1_1_0_0_n_n none a b (ix2 r s)).trans ?_
  rw [← Equiv.sum_comp (ValueIdx.contrEquiv1 dot_S1024x1024_S512x1024_S1024x512_1_1_0_0_n_n 1024 rfl rfl).symm]
  refine Finset.sum_congr rfl fun k _ => ?_
  have hk := ValueIdx.contrEquiv1_symm_val dot_S1024x1024_S512x1024_S1024x512_1_1_0_0_n_n 1024 rfl rfl k
  have el : dot_S1024x1024_S512x1024_S1024x512_1_1_0_0_n_n.lhsIdx (ix2 r s) ((ValueIdx.contrEquiv1 dot_S1024x1024_S512x1024_S1024x512_1_1_0_0_n_n 1024 rfl rfl).symm k) = ix2 r k := funext fun a => Fin.ext (by
    match a with
    | ⟨0, _⟩ => exact lhs_scores_0 _ _
    | ⟨1, _⟩ => exact (lhs_scores_1 _ _).trans hk)
  have er : dot_S1024x1024_S512x1024_S1024x512_1_1_0_0_n_n.rhsIdx (ix2 r s) ((ValueIdx.contrEquiv1 dot_S1024x1024_S512x1024_S1024x512_1_1_0_0_n_n 1024 rfl rfl).symm k) = ix2 s k := funext fun a => Fin.ext (by
    match a with
    | ⟨0, _⟩ => exact rhs_scores_0 _ _
    | ⟨1, _⟩ => exact (rhs_scores_1 _ _).trans hk)
  rw [el, er]

/-- The weights-times-values product's left operand is read at the result's row … -/
theorem lhs_pv_0 (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
/-- … and at the contraction position; -/
theorem lhs_pv_1 (i : S1024x1024.Idx) (q : dot_S1024x512_S512x1024_S1024x1024_1_0_0_1_n_n.contr.Idx) :
    (dot_S1024x512_S512x1024_S1024x1024_1_0_0_1_n_n.lhsIdx i q 1).val = (q ⟨0, by decide⟩).val :=
  dot_S1024x512_S512x1024_S1024x1024_1_0_0_1_n_n.lhsIdx_val_of_single rfl i q
/-- the right operand at the contraction position … -/
theorem rhs_pv_0 (i : S1024x1024.Idx) (q : dot_S1024x512_S512x1024_S1024x1024_1_0_0_1_n_n.contr.Idx) :
    (dot_S1024x512_S512x1024_S1024x1024_1_0_0_1_n_n.rhsIdx i q 0).val = (q ⟨0, by decide⟩).val :=
  dot_S1024x512_S512x1024_S1024x1024_1_0_0_1_n_n.rhsIdx_val_of_single rfl i q
/-- … and at the result's column. -/
theorem rhs_pv_1 (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- The weights-times-values product into the zero accumulator, at row `r` and column `d`: row `r` of the weights
    against column `d` of the values. -/
theorem matmul_pv_apply (a : FVec Ideal S1024x512 .bf16) (b : FVec Ideal S512x1024 .bf16) (r : Fin 1024) (d : Fin 1024) :
    (matmul dot_S1024x512_S512x1024_S1024x1024_1_0_0_1_n_n none a b (constant S1024x1024 .f32 0x00000000#32) : FVec Ideal S1024x1024 .f32) (ix2 r d)
      = ∑ k : Fin 512, a (ix2 r k) * b (ix2 k d) := by
  refine (Ideal.matmul_constant_zero_apply dot_S1024x512_S512x1024_S1024x1024_1_0_0_1_n_n none a b (ix2 r d)).trans ?_
  rw [← Equiv.sum_comp (ValueIdx.contrEquiv1 dot_S1024x512_S512x1024_S1024x1024_1_0_0_1_n_n 512 rfl rfl).symm]
  refine Finset.sum_congr rfl fun k _ => ?_
  have hk := ValueIdx.contrEquiv1_symm_val dot_S1024x512_S512x1024_S1024x1024_1_0_0_1_n_n 512 rfl rfl k
  have el : dot_S1024x512_S512x1024_S1024x1024_1_0_0_1_n_n.lhsIdx (ix2 r d) ((ValueIdx.contrEquiv1 dot_S1024x512_S512x1024_S1024x1024_1_0_0_1_n_n 512 rfl rfl).symm k) = ix2 r k := funext fun a => Fin.ext (by
    match a with
    | ⟨0, _⟩ => exact lhs_pv_0 _ _
    | ⟨1, _⟩ => exact (lhs_pv_1 _ _).trans hk)
  have er : dot_S1024x512_S512x1024_S1024x1024_1_0_0_1_n_n.rhsIdx (ix2 r d) ((ValueIdx.contrEquiv1 dot_S1024x512_S512x1024_S1024x1024_1_0_0_1_n_n 512 rfl rfl).symm k) = ix2 k d := funext fun a => Fin.ext (by
    match a with
    | ⟨0, _⟩ => exact (rhs_pv_0 _ _).trans hk
    | ⟨1, _⟩ => exact rhs_pv_1 _ _)
  rw [el, er]

/-! ## The payloads of one block at an index, whatever is loaded -/

section Payloads
variable (qs : Vec Ideal S1024x1024 .bf16) (kb vb : Vec Ideal S512x1024 .bf16)
  (mo mo' lo : Vec Ideal S1024x1 .f32) (acco : Vec Ideal S1024x1024 .f32)

/-- The block of scores at `(r, s)`: row `r` of the scaled queries against row `s` of the keys. -/
theorem pay8_apply (r : Fin 1024) (s : Fin 512) :
    k1_pay8 (F := Ideal) qs kb (ix2 r s) = ∑ d : Fin 1024, (qs (ix2 r d) : EReal) * (kb (ix2 s d) : EReal) := by
  unfold k1_pay8
  simp only [shapeCast_self]
  exact matmul_scores_apply qs kb r s

/-- The new running maximum of row `r`: the old one against the largest score of the row. -/
theorem pay9_apply (r : Fin 1024) :
    k1_pay9 (F := Ideal) qs kb mo (ix2 r (0 : Fin 1))
      = max (mo (ix2 r (0 : Fin 1)) : EReal)
          ((Finset.univ : Finset (Fin 512)).fold max (⊥ : EReal) (fun s => (k1_pay8 (F := Ideal) qs kb (ix2 r s) : EReal))) := by
  unfold k1_pay9
  refine (maximumf_apply _ _ _).trans ?_
  refine congrArg (max (mo (ix2 r (0 : Fin 1)) : EReal)) ?_
  refine (shapeCast_a_a1_apply _ shapeCasts_S1024_S1024x1 r (0 : Fin 1)).trans ?_
  exact rowMax_apply (k1_pay8 (F := Ideal) qs kb) _ _ r

/-- The rescaling factor of row `r`: the exponential of a maximum (`mo'`) minus the new one. -/
theorem pay10_apply (r : Fin 1024) :
    k1_pay10 (F := Ideal) qs kb mo mo' (ix2 r (0 : Fin 1))
      = Ideal.exp ((mo' (ix2 r (0 : Fin 1)) : EReal) - (k1_pay9 (F := Ideal) qs kb mo (ix2 r (0 : Fin 1)) : EReal)) := rfl

/-- The block's exponentials at `(r, s)`: of the score minus the row's new maximum. -/
theorem pay11_apply (r : Fin 1024) (s : Fin 512) :
    k1_pay11 (F := Ideal) qs kb mo (ix2 r s)
      = Ideal.exp ((k1_pay8 (F := Ideal) qs kb (ix2 r s) : EReal) - (k1_pay9 (F := Ideal) qs kb mo (ix2 r (0 : Fin 1)) : EReal)) := by
  unfold k1_pay11
  exact congrArg (fun x : EReal => Ideal.exp ((k1_pay8 (F := Ideal) qs kb (ix2 r s) : EReal) - x))
    (broadcastTo_a1_ab_apply (k1_pay9 (F := Ideal) qs kb mo) broadcasts_S1024x1_S1024x512 r s)

/-- The new denominator of row `r`: the old one rescaled, plus the row's exponentials. -/
theorem pay12_apply (r : Fin 1024) :
    k1_pay12 (F := Ideal) qs kb mo mo' lo (ix2 r (0 : Fin 1))
      = (k1_pay10 (F := Ideal) qs kb mo mo' (ix2 r (0 : Fin 1)) : EReal) * (lo (ix2 r (0 : Fin 1)) : EReal)
        + ∑ s : Fin 512, (k1_pay11 (F := Ideal) qs kb mo (ix2 r s) : EReal) := by
  unfold k1_pay12
  simp only [shapeCast_self]
  refine (addf_apply _ _ _).trans ?_
  refine congrArg₂ (fun x y : EReal => x + y) (mulf_apply _ _ _) ?_
  refine (shapeCast_a_a1_apply _ shapeCasts_S1024_S1024x1 r (0 : Fin 1)).trans ?_
  exact rowSum_apply (k1_pay11 (F := Ideal) qs kb mo) _ _ r

/-- The new numerator at `(r, d)`: the old one rescaled, plus the row's exponentials against column `d` of the values. -/
theorem pay13_apply (r d : Fin 1024) :
    k1_pay13 (F := Ideal) qs kb vb mo mo' acco (ix2 r d)
      = (k1_pay10 (F := Ideal) qs kb mo mo' (ix2 r (0 : Fin 1)) : EReal) * (acco (ix2 r d) : EReal)
        + ∑ s : Fin 512, (k1_pay11 (F := Ideal) qs kb mo (ix2 r s) : EReal) * (vb (ix2 s d) : EReal) := by
  unfold k1_pay13
  simp only [shapeCast_self]
  refine (addf_apply _ _ _).trans ?_
  refine congrArg₂ (fun x y : EReal => x + y) ?_ ?_
  · refine (mulf_apply _ _ _).trans ?_
    exact congrArg (fun x : EReal => x * (acco (ix2 r d) : EReal))
      (broadcastTo_a1_ab_apply (k1_pay10 (F := Ideal) qs kb mo mo') broadcasts_S1024x1_S1024x1024 r d)
  · exact (matmul_pv_apply (truncf .bf16 (k1_pay11 (F := Ideal) qs kb mo) bitsLt_bf16_f32) vb r d).trans
      (Finset.sum_congr rfl fun s _ => rfl)

end Payloads

variable (qkv : Mat 8192 3072) (row : Fin 1024 → Fin 8192)

/-- The scaled query tile: the query block times `1/32`. -/
theorem qs_value (qb : Vec Ideal S1024x1024 .bf16) (hq : ∀ r d, qb (ix2 r d) = ((qkv (row r) (qcol d) : ℝ) : EReal))
    (r d : Fin 1024) : k1_pay7 (F := Ideal) qb (ix2 r d) = ((qkv (row r) (qcol d) * (1 / 32) : ℝ) : EReal) := by
  unfold k1_pay7
  simp only [shapeCast_self]
  show (qb (ix2 r d) : EReal) * Ideal.ofBits .f32 0x3D000000#32 = _
  rw [hq r d, ofBits_inv32]
  exact (EReal.coe_mul _ _).symm

variable (b : ℕ) (qs : Vec Ideal S1024x1024 .bf16) (kb vb : Vec Ideal S512x1024 .bf16)
  (hqs : ∀ r d, qs (ix2 r d) = ((qkv (row r) (qcol d) * (1 / 32) : ℝ) : EReal))
  (hk : ∀ s d, kb (ix2 s d) = ((qkv (colOf b s) (kcol d) : ℝ) : EReal))
  (hv : ∀ s d, vb (ix2 s d) = ((qkv (colOf b s) (vcol d) : ℝ) : EReal))

/-- The block of scores. -/
theorem scores_value (hqs : ∀ r d, qs (ix2 r d) = ((qkv (row r) (qcol d) * (1 / 32) : ℝ) : EReal))
    (hk : ∀ s d, kb (ix2 s d) = ((qkv (colOf b s) (kcol d) : ℝ) : EReal)) (r : Fin 1024) (s : Fin 512) :
    k1_pay8 (F := Ideal) qs kb (ix2 r s) = ((score qkv (row r) (colOf b s) : ℝ) : EReal) := by
  refine (pay8_apply qs kb r s).trans ?_
  have hterm : ∀ d : Fin 1024, (qs (ix2 r d) : EReal) * (kb (ix2 s d) : EReal)
      = ((qkv (row r) (qcol d) * (1 / 32) * qkv (colOf b s) (kcol d) : ℝ) : EReal) := fun d => by
    rw [hqs r d, hk s d]
    exact (EReal.coe_mul _ _).symm
  rw [Finset.sum_congr rfl (fun d _ => hterm d), coe_finsum]
  refine congrArg Real.toEReal ?_
  unfold score
  rw [Finset.sum_div]
  refine Finset.sum_congr rfl fun d _ => ?_
  ring

/-! ## A later block: the state before it is real -/

section Step
variable (st : Fin 1024 → St) (mo lo : Vec Ideal S1024x1 .f32) (acco : Vec Ideal S1024x1024 .f32)

/-- The new running maximum is the specification's. -/
theorem newMax_value (hqs : ∀ r d, qs (ix2 r d) = ((qkv (row r) (qcol d) * (1 / 32) : ℝ) : EReal))
    (hk : ∀ s d, kb (ix2 s d) = ((qkv (colOf b s) (kcol d) : ℝ) : EReal))
    (hm : ∀ r, mo (ix2 r (0 : Fin 1)) = (((st r).M : ℝ) : EReal)) (r : Fin 1024) :
    k1_pay9 (F := Ideal) qs kb mo (ix2 r (0 : Fin 1)) = ((max (st r).M (bmax qkv (row r) b) : ℝ) : EReal) := by
  refine (pay9_apply qs kb mo r).trans ?_
  have hrow : (fun s : Fin 512 => (k1_pay8 (F := Ideal) qs kb (ix2 r s) : EReal))
      = fun s : Fin 512 => ((score qkv (row r) (colOf b s) : ℝ) : EReal) :=
    funext fun s => scores_value qkv row b qs kb hqs hk r s
  rw [hrow, hm r, coe_max_real]
  exact congrArg (max (((st r).M : ℝ) : EReal))
    (fold_max_coe Finset.univ Finset.univ_nonempty (fun s : Fin 512 => score qkv (row r) (colOf b s)))

/-- The rescaling factor is the exponential of the old maximum minus the new. -/
theorem rescale_value (hqs : ∀ r d, qs (ix2 r d) = ((qkv (row r) (qcol d) * (1 / 32) : ℝ) : EReal))
    (hk : ∀ s d, kb (ix2 s d) = ((qkv (colOf b s) (kcol d) : ℝ) : EReal))
    (hm : ∀ r, mo (ix2 r (0 : Fin 1)) = (((st r).M : ℝ) : EReal)) (r : Fin 1024) :
    k1_pay10 (F := Ideal) qs kb mo mo (ix2 r (0 : Fin 1))
      = ((Real.exp ((st r).M - max (st r).M (bmax qkv (row r) b)) : ℝ) : EReal) := by
  refine (pay10_apply qs kb mo mo r).trans ?_
  rw [newMax_value qkv row b qs kb st mo hqs hk hm r, hm r, ← EReal.coe_sub]
  rfl

/-- The block's exponentials are those of the scores minus the new maximum. -/
theorem weights_value (hqs : ∀ r d, qs (ix2 r d) = ((qkv (row r) (qcol d) * (1 / 32) : ℝ) : EReal))
    (hk : ∀ s d, kb (ix2 s d) = ((qkv (colOf b s) (kcol d) : ℝ) : EReal))
    (hm : ∀ r, mo (ix2 r (0 : Fin 1)) = (((st r).M : ℝ) : EReal)) (r : Fin 1024) (s : Fin 512) :
    k1_pay11 (F := Ideal) qs kb mo (ix2 r s)
      = ((Real.exp (score qkv (row r) (colOf b s) - max (st r).M (bmax qkv (row r) b)) : ℝ) : EReal) := by
  refine (pay11_apply qs kb mo r s).trans ?_
  rw [newMax_value qkv row b qs kb st mo hqs hk hm r, scores_value qkv row b qs kb hqs hk r s, ← EReal.coe_sub]
  rfl

theorem step_M (hqs : ∀ r d, qs (ix2 r d) = ((qkv (row r) (qcol d) * (1 / 32) : ℝ) : EReal))
    (hk : ∀ s d, kb (ix2 s d) = ((qkv (colOf b s) (kcol d) : ℝ) : EReal))
    (hm : ∀ r, mo (ix2 r (0 : Fin 1)) = (((st r).M : ℝ) : EReal)) (r : Fin 1024) :
    k1_pay2 (F := Ideal) (k1_pay9 qs kb mo) (ix2 r (0 : Fin 1)) = (((step qkv (row r) b (st r)).M : ℝ) : EReal) := by
  unfold k1_pay2
  simp only [shapeCast_self]
  exact newMax_value qkv row b qs kb st mo hqs hk hm r

theorem step_L (hqs : ∀ r d, qs (ix2 r d) = ((qkv (row r) (qcol d) * (1 / 32) : ℝ) : EReal))
    (hk : ∀ s d, kb (ix2 s d) = ((qkv (colOf b s) (kcol d) : ℝ) : EReal))
    (hm : ∀ r, mo (ix2 r (0 : Fin 1)) = (((st r).M : ℝ) : EReal)) (hl : ∀ r, lo (ix2 r (0 : Fin 1)) = (((st r).L : ℝ) : EReal))
    (r : Fin 1024) :
    k1_pay12 (F := Ideal) qs kb mo mo lo (ix2 r (0 : Fin 1)) = (((step qkv (row r) b (st r)).L : ℝ) : EReal) := by
  refine (pay12_apply qs kb mo mo lo r).trans ?_
  have hsum : ∑ s : Fin 512, (k1_pay11 (F := Ideal) qs kb mo (ix2 r s) : EReal)
      = ((∑ s : Fin 512, Real.exp (score qkv (row r) (colOf b s) - max (st r).M (bmax qkv (row r) b)) : ℝ) : EReal) := by
    rw [← coe_finsum]
    exact Finset.sum_congr rfl fun s _ => weights_value qkv row b qs kb st mo hqs hk hm r s
  rw [hsum, rescale_value qkv row b qs kb st mo hqs hk hm r, hl r, ← EReal.coe_mul, ← EReal.coe_add]
  rfl

theorem step_A (hqs : ∀ r d, qs (ix2 r d) = ((qkv (row r) (qcol d) * (1 / 32) : ℝ) : EReal))
    (hk : ∀ s d, kb (ix2 s d) = ((qkv (colOf b s) (kcol d) : ℝ) : EReal))
    (hv : ∀ s d, vb (ix2 s d) = ((qkv (colOf b s) (vcol d) : ℝ) : EReal))
    (hm : ∀ r, mo (ix2 r (0 : Fin 1)) = (((st r).M : ℝ) : EReal))
    (ha : ∀ r d, acco (ix2 r d) = (((st r).A d : ℝ) : EReal)) (r d : Fin 1024) :
    k1_pay1 (F := Ideal) (k1_pay13 qs kb vb mo mo acco) (ix2 r d) = (((step qkv (row r) b (st r)).A d : ℝ) : EReal) := by
  unfold k1_pay1
  simp only [shapeCast_self]
  refine (pay13_apply qs kb vb mo mo acco r d).trans ?_
  have hsum : ∑ s : Fin 512, (k1_pay11 (F := Ideal) qs kb mo (ix2 r s) : EReal) * (vb (ix2 s d) : EReal)
      = ((∑ s : Fin 512, Real.exp (score qkv (row r) (colOf b s) - max (st r).M (bmax qkv (row r) b))
          * qkv (colOf b s) (vcol d) : ℝ) : EReal) := by
    rw [← coe_finsum]
    refine Finset.sum_congr rfl fun s _ => ?_
    rw [weights_value qkv row b qs kb st mo hqs hk hm r s, hv s d]
    exact (EReal.coe_mul _ _).symm
  rw [hsum, rescale_value qkv row b qs kb st mo hqs hk hm r, ha r d, ← EReal.coe_mul, ← EReal.coe_add]
  rfl

end Step

end Cert.KernelIdeal.Val

end
-- ==== Proof.KI.FlashFirst.lean ====
/-
  The first block and the output tile of the attention kernel, over the reals.

  At the first key/value block the running maximum starts at `-∞` and the running sums at zero: the new maximum is then the
  block's own, and the rescaling factor `exp (-∞ - M)` is `0`, so the old terms vanish and the state is the specification's
  `first`. At the last block the numerator is divided by the (positive) denominator, multiplied into the output weight
  and the bias added.
-/
import proofs.«422776_j21586505630422_3_alg».proof.Proof.KI.FlashStep

set_option maxRecDepth 16384

noncomputable section

namespace Cert.KernelIdeal.Val

open Idealize.ShloMosaic Idealize.ShloMosaic.ValueIdx
open Cert.KernelIdeal Cert.KernelIdeal.Gen Cert.Spec

namespace FirstAux

/-! ## Sums and maxima of real values inside the extended reals -/

/-- A finite sum of reals, taken in the extended reals, is the real sum. -/
theorem coe_sum {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The running maximum from `-∞` over a nonempty finite set of reals is the largest of them. -/
theorem fold_max_coe {ι : Type} (s : Finset ι) (hs : s.Nonempty) (f : ι → ℝ) :
    s.fold max (⊥ : EReal) (fun k => ((f k : ℝ) : EReal)) = ((s.sup' hs f : ℝ) : EReal) := by
  classical
  induction hs using Finset.Nonempty.cons_induction with
  | singleton a => rw [Finset.fold_singleton, Finset.sup'_singleton, max_eq_left bot_le]
  | cons a s ha hs ih =>
    rw [Finset.fold_cons, ih, Finset.sup'_cons hs]
    exact (EReal.coe_strictMono.monotone.map_max).symm

/-! ## The keepdims column forms of the layout operations, read at an index -/

/-- An `[a]` array cast to the column `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The literals -/

/-- The word the running maximum starts from denotes `-∞`. -/
theorem ofBits_negInf : Ideal.ofBits .f32 0xFF800000#32 = ⊥ := by
  simp [Ideal.ofBits, Ideal.ieee]

/-! ## The lane reductions of a `1024 × 512` block, kept as a column -/

/-- The index a lane reduction inserts its coordinate at. -/
theorem lift_ix (r : Fin 1024) (k : Fin 512) : reduces_S1024x512_S1024.lift (ix1 r) k = ix2 r k :=
  funext fun a => Fin.ext (match a with | ⟨0, _⟩ => rfl | ⟨1, _⟩ => rfl)

/-- The row sums as a column. -/
theorem rowSum_apply (x : FVec Ideal S1024x512 .f32) (r : Fin 1024) (u : Fin 1) :
    shapeCast S1024x1 (multiReduction (F := Ideal) .add [1] S1024 x 0x00000000#32 reduces_S1024x512_S1024 (.inl rfl) rfl) shapeCasts_S1024_S1024x1 (ix2 r u)
      = ∑ k : Fin 512, x (ix2 r k) := by
  refine (shapeCast_a_a1_apply _ _ r u).trans ?_
  refine (Ideal.multiReduction_add_single x _ reduces_S1024x512_S1024 _ _ (ix1 r)).trans ?_
  exact Finset.sum_congr rfl fun k _ => congrArg x (lift_ix r k)

/-- The row maxima as a column: the running maximum from `-∞` along the row. -/
theorem rowMax_apply (x : FVec Ideal S1024x512 .f32) (r : Fin 1024) (u : Fin 1) :
    shapeCast S1024x1 (multiReduction (F := Ideal) .maximumf [1] S1024 x 0xFF800000#32 reduces_S1024x512_S1024 (.inl rfl) rfl) shapeCasts_S1024_S1024x1 (ix2 r u)
      = (Finset.univ : Finset (Fin 512)).fold max (⊥ : EReal) (fun k => x (ix2 r k)) := by
  refine (shapeCast_a_a1_apply _ _ r u).trans ?_
  refine (Ideal.multiReduction_maximumf_single x _ reduces_S1024x512_S1024 _ _ (ix1 r)).trans ?_
  have e : (x ∘ reduces_S1024x512_S1024.lift (ix1 r)) = fun k : Fin 512 => x (ix2 r k) :=
    funext fun k => congrArg x (lift_ix r k)
  rw [e]
  exact congrArg (fun b => (Finset.univ : Finset (Fin 512)).fold max b (fun k => x (ix2 r k))) ofBits_negInf

/-! ## The two matrix products read at an index -/

theorem lhs_pv_0 (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem lhs_pv_1 (i : S1024x1024.Idx) (q : dot_S1024x512_S512x1024_S1024x1024_1_0_0_1_n_n.contr.Idx) :
    (dot_S1024x512_S512x1024_S1024x1024_1_0_0_1_n_n.lhsIdx i q 1).val = (q ⟨0, by decide⟩).val :=
  dot_S1024x512_S512x1024_S1024x1024_1_0_0_1_n_n.lhsIdx_val_of_single rfl i q
theorem rhs_pv_0 (i : S1024x1024.Idx) (q : dot_S1024x512_S512x1024_S1024x1024_1_0_0_1_n_n.contr.Idx) :
    (dot_S1024x512_S512x1024_S1024x1024_1_0_0_1_n_n.rhsIdx i q 0).val = (q ⟨0, by decide⟩).val :=
  dot_S1024x512_S512x1024_S1024x1024_1_0_0_1_n_n.rhsIdx_val_of_single rfl i q
theorem rhs_pv_1 (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- The weights against the value block: entry `(r, d)` sums over the block's rows. -/
theorem pv_apply (p : FVec Ideal S1024x512 .bf16) (v : FVec Ideal S512x1024 .bf16) (r d : Fin 1024) :
    matmul dot_S1024x512_S512x1024_S1024x1024_1_0_0_1_n_n none p v (constant (F := Ideal) S1024x1024 .f32 0x00000000#32) (ix2 r d)
      = ∑ s : Fin 512, p (ix2 r s) * v (ix2 s d) := by
  simp only [matmul]
  rw [Ideal.matmul_constant_zero_apply, ← Equiv.sum_comp (contrEquiv1 dot_S1024x512_S512x1024_S1024x1024_1_0_0_1_n_n 512 rfl rfl).symm]
  refine Finset.sum_congr rfl fun k _ => ?_
  have hk := contrEquiv1_symm_val dot_S1024x512_S512x1024_S1024x1024_1_0_0_1_n_n 512 rfl rfl k
  have el : dot_S1024x512_S512x1024_S1024x1024_1_0_0_1_n_n.lhsIdx (ix2 r d) ((contrEquiv1 dot_S1024x512_S512x1024_S1024x1024_1_0_0_1_n_n 512 rfl rfl).symm k) = ix2 r k := funext fun a => Fin.ext (by
    match a with
    | ⟨0, _⟩ => exact lhs_pv_0 _ _
    | ⟨1, _⟩ => exact (lhs_pv_1 _ _).trans hk)
  have er : dot_S1024x512_S512x1024_S1024x1024_1_0_0_1_n_n.rhsIdx (ix2 r d) ((contrEquiv1 dot_S1024x512_S512x1024_S1024x1024_1_0_0_1_n_n 512 rfl rfl).symm k) = ix2 k d := funext fun a => Fin.ext (by
    match a with
    | ⟨0, _⟩ => exact (rhs_pv_0 _ _).trans hk
    | ⟨1, _⟩ => exact rhs_pv_1 _ _)
  rw [el, er]

theorem lhs_wo_0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem lhs_wo_1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
theorem rhs_wo_0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rhs_wo_1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The context against the rows of the output weight: entry `(r, n)` sums over the features. -/
theorem wo_apply (c : FVec Ideal S1024x1024 .bf16) (w : FVec Ideal S1024x1024 .bf16) (r n : Fin 1024) :
    matmul dot_S1024x1024_S1024x1024_S1024x1024_1_1_0_0_n_n none c w (constant (F := Ideal) S1024x1024 .f32 0x00000000#32) (ix2 r n)
      = ∑ d : Fin 1024, c (ix2 r d) * w (ix2 n d) := by
  simp only [matmul]
  rw [Ideal.matmul_constant_zero_apply, ← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 r n) ((contrEquiv1 dot_S1024x1024_S1024x1024_S1024x1024_1_1_0_0_n_n 1024 rfl rfl).symm k) = ix2 r k := funext fun a => Fin.ext (by
    match a with
    | ⟨0, _⟩ => exact lhs_wo_0 _ _
    | ⟨1, _⟩ => exact (lhs_wo_1 _ _).trans hk)
  have er : dot_S1024x1024_S1024x1024_S1024x1024_1_1_0_0_n_n.rhsIdx (ix2 r n) ((contrEquiv1 dot_S1024x1024_S1024x1024_S1024x1024_1_1_0_0_n_n 1024 rfl rfl).symm k) = ix2 n k := funext fun a => Fin.ext (by
    match a with
    | ⟨0, _⟩ => exact rhs_wo_0 _ _
    | ⟨1, _⟩ => exact (rhs_wo_1 _ _).trans hk)
  rw [el, er]

/-! ## The payloads of the first block, read at an index -/

section
variable (qkv : Mat 8192 3072) (row : Fin 1024 → Fin 8192)
variable (qs : Vec Ideal S1024x1024 .bf16) (kb vb : Vec Ideal S512x1024 .bf16)

/-- The starting maximum is `-∞` everywhere. -/
theorem negInf_apply (r : Fin 1024) (u : Fin 1) : k1_pay4 (F := Ideal) (ix2 r u) = ⊥ := by
  unfold k1_pay4
  refine (congrFun (shapeCast_self _ _) _).trans ?_
  exact ofBits_negInf

/-- The starting denominator is zero everywhere. -/
theorem zeroCol_apply (r : Fin 1024) (u : Fin 1) : k1_pay5 (F := Ideal) (ix2 r u) = 0 := by
  unfold k1_pay5
  refine (congrFun (shapeCast_self _ _) _).trans ?_
  exact Ideal.ofBits_zero_f32

/-- The starting numerator is zero everywhere. -/
theorem zeroAcc_apply (r d : Fin 1024) : k1_pay6 (F := Ideal) (ix2 r d) = 0 := by
  unfold k1_pay6
  refine (congrFun (shapeCast_self _ _) _).trans ?_
  exact Ideal.ofBits_zero_f32

/-- From `-∞` the new maximum is the block's own row maximum. -/
theorem newMax_apply (hqs : ∀ r d, qs (ix2 r d) = ((qkv (row r) (qcol d) * (1 / 32) : ℝ) : EReal))
    (hk : ∀ s d, kb (ix2 s d) = ((qkv (colOf 0 s) (kcol d) : ℝ) : EReal)) (r : Fin 1024) (u : Fin 1) :
    k1_pay9 qs kb (k1_pay4 (F := Ideal)) (ix2 r u) = ((bmax qkv (row r) 0 : ℝ) : EReal) := by
  unfold k1_pay9
  refine (congrArg₂ max (negInf_apply r u) (rowMax_apply (k1_pay8 qs kb) r u)).trans ?_
  rw [max_eq_right bot_le]
  have e : (fun k : Fin 512 => k1_pay8 (F := Ideal) qs kb (ix2 r k)) = fun k => ((score qkv (row r) (colOf 0 k) : ℝ) : EReal) :=
    funext fun k => scores_value qkv row 0 qs kb hqs hk r k
  rw [e]
  exact fold_max_coe Finset.univ Finset.univ_nonempty _

/-- The rescaling factor of the old state is `exp (-∞ - M) = 0`. -/
theorem rescale_apply (hqs : ∀ r d, qs (ix2 r d) = ((qkv (row r) (qcol d) * (1 / 32) : ℝ) : EReal))
    (hk : ∀ s d, kb (ix2 s d) = ((qkv (colOf 0 s) (kcol d) : ℝ) : EReal)) (r : Fin 1024) (u : Fin 1) :
    k1_pay10 qs kb (k1_pay4 (F := Ideal)) (k1_pay4 (F := Ideal)) (ix2 r u) = 0 := by
  unfold k1_pay10
  show Ideal.exp (k1_pay4 (F := Ideal) (ix2 r u) - k1_pay9 qs kb (k1_pay4 (F := Ideal)) (ix2 r u)) = 0
  rw [negInf_apply r u, newMax_apply qkv row qs kb hqs hk r u, sub_eq_add_neg, EReal.bot_add, Ideal.exp_bot]

/-- The block's weights: the exponential of the score less the block's row maximum. -/
theorem weight_apply (hqs : ∀ r d, qs (ix2 r d) = ((qkv (row r) (qcol d) * (1 / 32) : ℝ) : EReal))
    (hk : ∀ s d, kb (ix2 s d) = ((qkv (colOf 0 s) (kcol d) : ℝ) : EReal)) (r : Fin 1024) (s : Fin 512) :
    k1_pay11 qs kb (k1_pay4 (F := Ideal)) (ix2 r s)
      = ((Real.exp (score qkv (row r) (colOf 0 s) - bmax qkv (row r) 0) : ℝ) : EReal) := by
  unfold k1_pay11
  show Ideal.exp (k1_pay8 (F := Ideal) qs kb (ix2 r s)
      - broadcastTo S1024x512 (k1_pay9 qs kb (k1_pay4 (F := Ideal))) broadcasts_S1024x1_S1024x512 (ix2 r s)) = _
  rw [broadcastTo_a1_ab_apply, scores_value qkv row 0 qs kb hqs hk r s, newMax_apply qkv row qs kb hqs hk r 0,
    ← EReal.coe_sub, Ideal.exp_coe]

end

end FirstAux

variable (qkv : Mat 8192 3072) (row : Fin 1024 → Fin 8192)
variable (qs : Vec Ideal S1024x1024 .bf16) (kb vb : Vec Ideal S512x1024 .bf16)

/-! ## The first block: the old maximum is `-∞`, the old sums are zero -/

section First

theorem first_M (hqs : ∀ r d, qs (ix2 r d) = ((qkv (row r) (qcol d) * (1 / 32) : ℝ) : EReal))
    (hk : ∀ s d, kb (ix2 s d) = ((qkv (colOf 0 s) (kcol d) : ℝ) : EReal)) (r : Fin 1024) :
    k1_pay2 (F := Ideal) (k1_pay9 qs kb (k1_pay4 (F := Ideal))) (ix2 r (0 : Fin 1)) = (((first qkv (row r)).M : ℝ) : EReal) := by
  show _ = ((bmax qkv (row r) 0 : ℝ) : EReal)
  unfold k1_pay2
  refine (congrFun (shapeCast_self _ _) _).trans ?_
  exact FirstAux.newMax_apply qkv row qs kb hqs hk r 0

theorem first_L (hqs : ∀ r d, qs (ix2 r d) = ((qkv (row r) (qcol d) * (1 / 32) : ℝ) : EReal))
    (hk : ∀ s d, kb (ix2 s d) = ((qkv (colOf 0 s) (kcol d) : ℝ) : EReal)) (r : Fin 1024) :
    k1_pay12 (F := Ideal) qs kb (k1_pay4 (F := Ideal)) (k1_pay4 (F := Ideal)) (k1_pay5 (F := Ideal)) (ix2 r (0 : Fin 1)) = (((first qkv (row r)).L : ℝ) : EReal) := by
  show _ = ((∑ s : Fin 512, Real.exp (score qkv (row r) (colOf 0 s) - bmax qkv (row r) 0) : ℝ) : EReal)
  unfold k1_pay12
  refine (congrFun (shapeCast_self _ _) _).trans ?_
  refine (congrArg₂ (· + ·)
    (congrArg₂ (· * ·) (FirstAux.rescale_apply qkv row qs kb hqs hk r 0) (FirstAux.zeroCol_apply r 0))
    (FirstAux.rowSum_apply (k1_pay11 qs kb (k1_pay4 (F := Ideal))) r 0)).trans ?_
  rw [mul_zero, zero_add]
  refine (Finset.sum_congr rfl fun k _ => FirstAux.weight_apply qkv row qs kb hqs hk r k).trans ?_
  exact FirstAux.coe_sum Finset.univ _

theorem first_A (hqs : ∀ r d, qs (ix2 r d) = ((qkv (row r) (qcol d) * (1 / 32) : ℝ) : EReal))
    (hk : ∀ s d, kb (ix2 s d) = ((qkv (colOf 0 s) (kcol d) : ℝ) : EReal))
    (hv : ∀ s d, vb (ix2 s d) = ((qkv (colOf 0 s) (vcol d) : ℝ) : EReal)) (r d : Fin 1024) :
    k1_pay1 (F := Ideal) (k1_pay13 qs kb vb (k1_pay4 (F := Ideal)) (k1_pay4 (F := Ideal)) (k1_pay6 (F := Ideal))) (ix2 r d) = (((first qkv (row r)).A d : ℝ) : EReal) := by
  show _ = ((∑ s : Fin 512, Real.exp (score qkv (row r) (colOf 0 s) - bmax qkv (row r) 0) * qkv (colOf 0 s) (vcol d) : ℝ) : EReal)
  unfold k1_pay1
  refine (congrFun (shapeCast_self _ _) _).trans ?_
  unfold k1_pay13
  refine (congrArg₂ (· + ·)
    (congrArg₂ (· * ·)
      ((FirstAux.broadcastTo_a1_ab_apply _ _ r d).trans (FirstAux.rescale_apply qkv row qs kb hqs hk r 0)) (FirstAux.zeroAcc_apply r d))
    (FirstAux.pv_apply _ _ r d)).trans ?_
  rw [mul_zero, zero_add]
  refine (Finset.sum_congr rfl fun s _ => ?_).trans (FirstAux.coe_sum Finset.univ _)
  refine (congrArg₂ (· * ·) (FirstAux.weight_apply qkv row qs kb hqs hk r s)
    ((congrFun (shapeCast_self _ _) _).trans (hv s d))).trans ?_
  exact (EReal.coe_mul _ _).symm

end First

/-! ## The output tile -/

theorem out_value (acc : Vec Ideal S1024x1024 .f32) (l : Vec Ideal S1024x1 .f32) (wob : Vec Ideal S1024x1024 .bf16) (bob : Vec Ideal S1x1024 .f32)
    (A : Fin 1024 → Fin 1024 → ℝ) (Lr : Fin 1024 → ℝ) (wo : Mat 1024 1024) (bo : Fin 1024 → ℝ)
    (hLpos : ∀ r, 0 < Lr r) (ha : ∀ r d, acc (ix2 r d) = ((A r d : ℝ) : EReal)) (hl : ∀ r, l (ix2 r (0 : Fin 1)) = ((Lr r : ℝ) : EReal))
    (hwo : ∀ n d, wob (ix2 n d) = ((wo n d : ℝ) : EReal)) (hbo : ∀ n, bob (ix2 (0 : Fin 1) n) = ((bo n : ℝ) : EReal))
    (r n : Fin 1024) :
    k1_pay3 (F := Ideal) acc l wob bob (ix2 r n) = (((∑ d, (A r d / Lr r) * wo n d) + bo n : ℝ) : EReal) := by
  unfold k1_pay3
  refine (congrArg₂ (· + ·) (FirstAux.wo_apply _ _ r n)
    ((broadcastTo_1b_ab_apply _ _ r n).trans
      ((congrFun (shapeCast_self _ _) _).trans ((congrFun (shapeCast_self _ _) _).trans (hbo n))))).trans ?_
  rw [EReal.coe_add]
  refine congrArg (· + ((bo n : ℝ) : EReal)) ?_
  refine (Finset.sum_congr rfl fun d _ => ?_).trans (FirstAux.coe_sum Finset.univ _)
  refine (congrArg₂ (· * ·)
    (congrArg₂ Ideal.div (ha r d) ((FirstAux.broadcastTo_a1_ab_apply _ _ r d).trans (hl r)))
    ((congrFun (shapeCast_self _ _) _).trans (hwo n d))).trans ?_
  rw [Ideal.div_coe (hLpos r).ne', ← EReal.coe_mul, ← EReal.coe_mul, mul_one_div]

end Cert.KernelIdeal.Val

end
-- ==== Proof.KI.FlashValue.lean ====
/-
  The attention launch's result, read over the reals.

  Along the grid the kernel's carried state follows the specification's online recurrence: at the point `t` (query tile
  `t / 16`, block `t % 16`), row `r` of the scratch buffers holds the running maximum, denominator and numerator of
  array row `1024 (t / 16) + r` after blocks `0 … t % 16`, and the scaled query tile holds that row's queries over 32 —
  by induction on the point: a first-block point starts the recurrence from its blocks, every other point steps it from
  what the point before left (same tile, one block earlier). At a last-block point the output buffer then holds numerator
  over denominator through the output projection, which is the soft-max attention output because the online recurrence
  ends at the soft-max context. The eight written-back tiles cover the result array.
-/
import proofs.«422776_j21586505630422_3_alg».proof.Proof.KI.FlashPieces
import proofs.«422776_j21586505630422_3_alg».proof.Proof.KI.FlashBlocks
import proofs.«422776_j21586505630422_3_alg».proof.Proof.KI.FlashFirst
import Mathlib.Algebra.BigOperators.Group.Finset.Basic
import Mathlib.Data.EReal.Basic

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand Cert.Spec

variable (V : (c : Dev nD) → (b : Ref sig .tc) → Buf (Elt Ideal) ((c : Thread nD τ).loc b)) (c : Dev nD)
  (qkv : Mat 8192 3072) (wo : Mat 1024 1024) (bo : Fin 1024 → ℝ)

/-! ## The invariant -/

/-- The state `p` holds, row by row, the online recurrence's state of the array rows `row r` after block `b`, and
    those rows' queries over 32. -/
def Holds (row : Fin 1024 → Fin 8192) (b : ℕ) (p : St1 Ideal) : Prop :=
  (∀ r : Fin 1024, (p.2.1 : S1024x1.Idx → EReal) (ix2 r (0 : Fin 1)) = (((onl qkv (row r) b).M : ℝ) : EReal))
  ∧ (∀ r : Fin 1024, (p.2.2.1 : S1024x1.Idx → EReal) (ix2 r (0 : Fin 1)) = (((onl qkv (row r) b).L : ℝ) : EReal))
  ∧ (∀ r d : Fin 1024, (p.2.2.2.1 : S1024x1024.Idx → EReal) (ix2 r d) = (((onl qkv (row r) b).A d : ℝ) : EReal))
  ∧ (∀ r d : Fin 1024, (p.2.2.2.2 : S1024x1024.Idx → EReal) (ix2 r d) = ((qkv (row r) (qcol d) * (1 / 32) : ℝ) : EReal))

/-- A later block's state is one step from the block before. -/
theorem onl_pred (i : Fin 8192) (b : ℕ) (hb : ¬b = 0) : onl qkv i b = step qkv i b (onl qkv i (b - 1)) := by
  obtain ⟨k, rfl⟩ := Nat.exists_eq_succ_of_ne_zero hb
  exact onl_succ qkv i k

/-- The point before a later-block point is in the same query tile. -/
theorem tileRow_pred (t : Fin cfg1.N) (h0 : ¬t.val % 16 = 0) (hlt : t.val - 1 < cfg1.N) :
    tileRow ⟨t.val - 1, hlt⟩ = tileRow t := by
  funext r
  apply Fin.ext
  show 1024 * ((t.val - 1) / 16) + r.val = 1024 * (t.val / 16) + r.val
  omega

/-! ## The blocks a point reads -/

section Reads
variable (hQKV : ∀ i j, (V c main_v3 : S8192x3072.Idx → EReal) (ix2 i j) = ((qkv i j : ℝ) : EReal)) (t : Fin cfg1.N)
include hQKV

theorem qread (r d : Fin 1024) :
    (iblk1 V c 0 t : S1024x1024.Idx → EReal) (ix2 r d) = ((qkv (tileRow t r) (qcol d) : ℝ) : EReal) :=
  (qblk_apply V c t r d).trans (hQKV _ _)

theorem kread (s : Fin 512) (d : Fin 1024) :
    (iblk1 V c 1 t : S512x1024.Idx → EReal) (ix2 s d) = ((qkv (colOf (t.val % 16) s) (kcol d) : ℝ) : EReal) :=
  (kblk_apply V c t s d).trans (hQKV _ _)

theorem vread (s : Fin 512) (d : Fin 1024) :
    (iblk1 V c 2 t : S512x1024.Idx → EReal) (ix2 s d) = ((qkv (colOf (t.val % 16) s) (vcol d) : ℝ) : EReal) :=
  (vblk_apply V c t s d).trans (hQKV _ _)

end Reads

/-! ## Case by case -/

section Cases
variable (hQKV : ∀ i j, (V c main_v3 : S8192x3072.Idx → EReal) (ix2 i j) = ((qkv i j : ℝ) : EReal)) (t : Fin cfg1.N)
include hQKV

/-- A first-block point starts the recurrence. -/
theorem holds_stA (h0 : t.val % 16 = 0) (hc0 : cond1_0 (grid1.coords t)) (hc1 : ¬cond1_1 (grid1.coords t)) :
    Holds qkv (tileRow t) (t.val % 16) (stA V c t hc0 hc1) := by
  have hqs : ∀ r d : Fin 1024, k1_pay7 (F := Ideal) (iblk1 V c 0 t) (ix2 r d) = ((qkv (tileRow t r) (qcol d) * (1 / 32) : ℝ) : EReal) :=
    qs_value qkv (tileRow t) (iblk1 V c 0 t) (qread V c qkv hQKV t)
  have hk := kread V c qkv hQKV t
  have hv := vread V c qkv hQKV t
  rw [h0] at hk hv ⊢
  rw [stA_eq V c t hc0 hc1]
  refine ⟨fun r => ?_, fun r => ?_, fun r d => ?_, fun r d => ?_⟩
  · exact first_M qkv (tileRow t) _ _ hqs hk r
  · exact first_L qkv (tileRow t) _ _ hqs hk r
  · exact first_A qkv (tileRow t) _ _ _ hqs hk hv r d
  · exact hqs r d

/-- A middle-block point steps the recurrence from what the point before left. -/
theorem holds_stB (h0 : ¬t.val % 16 = 0) (hc0 : ¬cond1_0 (grid1.coords t)) (hc1 : ¬cond1_1 (grid1.coords t))
    (p : St1 Ideal) (ih : Holds qkv (tileRow t) (t.val % 16 - 1) p) :
    Holds qkv (tileRow t) (t.val % 16) (stB V c t hc0 hc1 p) := by
  have hk := kread V c qkv hQKV t
  have hv := vread V c qkv hQKV t
  obtain ⟨ihM, ihL, ihA, ihQ⟩ := ih
  rw [stB_eq V c t hc0 hc1 p]
  refine ⟨fun r => ?_, fun r => ?_, fun r d => ?_, ihQ⟩
  · rw [onl_pred qkv _ _ h0]
    exact step_M qkv (tileRow t) (t.val % 16) p.2.2.2.2 (iblk1 V c 1 t)
      (fun r => onl qkv (tileRow t r) (t.val % 16 - 1)) p.2.1 ihQ hk ihM r
  · rw [onl_pred qkv _ _ h0]
    exact step_L qkv (tileRow t) (t.val % 16) p.2.2.2.2 (iblk1 V c 1 t)
      (fun r => onl qkv (tileRow t r) (t.val % 16 - 1)) p.2.1 p.2.2.1 ihQ hk ihM ihL r
  · rw [onl_pred qkv _ _ h0]
    exact step_A qkv (tileRow t) (t.val % 16) p.2.2.2.2 (iblk1 V c 1 t) (iblk1 V c 2 t)
      (fun r => onl qkv (tileRow t r) (t.val % 16 - 1)) p.2.1 p.2.2.2.1 ihQ hk hv ihM ihA r d

/-- A last-block point steps the recurrence in the same way. -/
theorem holds_stC (h0 : ¬t.val % 16 = 0) (hc0 : ¬cond1_0 (grid1.coords t)) (hc1 : cond1_1 (grid1.coords t))
    (p : St1 Ideal) (ih : Holds qkv (tileRow t) (t.val % 16 - 1) p) :
    Holds qkv (tileRow t) (t.val % 16) (stC V c t hc0 hc1 p) := by
  have hk := kread V c qkv hQKV t
  have hv := vread V c qkv hQKV t
  obtain ⟨ihM, ihL, ihA, ihQ⟩ := ih
  rw [stC_eq V c t hc0 hc1 p]
  refine ⟨fun r => ?_, fun r => ?_, fun r d => ?_, ihQ⟩
  · rw [onl_pred qkv _ _ h0]
    exact step_M qkv (tileRow t) (t.val % 16) p.2.2.2.2 (iblk1 V c 1 t)
      (fun r => onl qkv (tileRow t r) (t.val % 16 - 1)) p.2.1 ihQ hk ihM r
  · rw [onl_pred qkv _ _ h0]
    exact step_L qkv (tileRow t) (t.val % 16) p.2.2.2.2 (iblk1 V c 1 t)
      (fun r => onl qkv (tileRow t r) (t.val % 16 - 1)) p.2.1 p.2.2.1 ihQ hk ihM ihL r
  · rw [onl_pred qkv _ _ h0]
    exact step_A qkv (tileRow t) (t.val % 16) p.2.2.2.2 (iblk1 V c 1 t) (iblk1 V c 2 t)
      (fun r => onl qkv (tileRow t r) (t.val % 16 - 1)) p.2.1 p.2.2.2.1 ihQ hk hv ihM ihA r d

end Cases

/-! ## Along the grid -/

/-- At every position the carried state follows the recurrence: by induction on the position. -/
theorem state_all
    (hQKV : ∀ i j, (V c main_v3 : S8192x3072.Idx → EReal) (ix2 i j) = ((qkv i j : ℝ) : EReal)) :
    ∀ (n : ℕ) (hn : n < cfg1.N), Holds qkv (tileRow ⟨n, hn⟩) (n % 16) (outsAt1 V c n hn) := by
  intro n
  induction n with
  | zero =>
    intro hn
    have h0 : (⟨0, hn⟩ : Fin cfg1.N).val % 16 = 0 := Nat.zero_mod _
    have hc0 : cond1_0 (grid1.coords ⟨0, hn⟩) := (hcond1_0 ⟨0, hn⟩).mpr h0
    have hc1 : ¬cond1_1 (grid1.coords ⟨0, hn⟩) := fun h => absurd ((hcond1_1 ⟨0, hn⟩).mp h) (by omega)
    have e : outsAt1 V c 0 hn = stA V c ⟨0, hn⟩ hc0 hc1 := outsAt1_A V c ⟨0, hn⟩ h0 hc0 hc1
    rw [e]
    exact holds_stA V c qkv hQKV ⟨0, hn⟩ h0 hc0 hc1
  | succ n ih =>
    intro hn
    by_cases h0 : (⟨n + 1, hn⟩ : Fin cfg1.N).val % 16 = 0
    · have hc0 : cond1_0 (grid1.coords ⟨n + 1, hn⟩) := (hcond1_0 ⟨n + 1, hn⟩).mpr h0
      have hc1 : ¬cond1_1 (grid1.coords ⟨n + 1, hn⟩) := fun h => absurd ((hcond1_1 ⟨n + 1, hn⟩).mp h) (by omega)
      have e : outsAt1 V c (n + 1) hn = stA V c ⟨n + 1, hn⟩ hc0 hc1 := outsAt1_A V c ⟨n + 1, hn⟩ h0 hc0 hc1
      rw [e]
      exact holds_stA V c qkv hQKV ⟨n + 1, hn⟩ h0 hc0 hc1
    · have hc0 : ¬cond1_0 (grid1.coords ⟨n + 1, hn⟩) := fun h => h0 ((hcond1_0 ⟨n + 1, hn⟩).mp h)
      have hn' : n < cfg1.N := Nat.lt_of_succ_lt hn
      -- what the point before left, read in this point's tile and block count
      have ihp : Holds qkv (tileRow ⟨n + 1, hn⟩) ((⟨n + 1, hn⟩ : Fin cfg1.N).val % 16 - 1) (outsAt1 V c n hn') := by
        have e1 : tileRow ⟨n, hn'⟩ = tileRow ⟨n + 1, hn⟩ := tileRow_pred ⟨n + 1, hn⟩ h0 hn'
        have e2 : n % 16 = (⟨n + 1, hn⟩ : Fin cfg1.N).val % 16 - 1 := by
          show n % 16 = (n + 1) % 16 - 1
          have : ¬(n + 1) % 16 = 0 := h0
          omega
        have := ih hn'
        rw [e1, e2] at this
        exact this
      by_cases h1 : (⟨n + 1, hn⟩ : Fin cfg1.N).val % 16 = 15
      · have hc1 : cond1_1 (grid1.coords ⟨n + 1, hn⟩) := (hcond1_1 ⟨n + 1, hn⟩).mpr h1
        have e : outsAt1 V c (n + 1) hn = stC V c ⟨n + 1, hn⟩ hc0 hc1 (outsAt1 V c n hn') :=
          outsAt1_C V c ⟨n + 1, hn⟩ h0 h1 hc0 hc1
        rw [e]
        exact holds_stC V c qkv hQKV ⟨n + 1, hn⟩ h0 hc0 hc1 _ ihp
      · have hc1 : ¬cond1_1 (grid1.coords ⟨n + 1, hn⟩) := fun h => h1 ((hcond1_1 ⟨n + 1, hn⟩).mp h)
        have e : outsAt1 V c (n + 1) hn = stB V c ⟨n + 1, hn⟩ hc0 hc1 (outsAt1 V c n hn') :=
          outsAt1_B V c ⟨n + 1, hn⟩ h0 h1 hc0 hc1
        rw [e]
        exact holds_stB V c qkv hQKV ⟨n + 1, hn⟩ h0 hc0 hc1 _ ihp

/-- The carried state after point `t` is the online recurrence's state of the tile's rows after block `t % 16`. -/
theorem state_at
    (hQKV : ∀ i j, (V c main_v3 : S8192x3072.Idx → EReal) (ix2 i j) = ((qkv i j : ℝ) : EReal)) (t : Fin cfg1.N) :
    (∀ r : Fin 1024, ((outsAt1 V c t.val t.isLt).2.1 : S1024x1.Idx → EReal) (ix2 r (0 : Fin 1)) = (((onl qkv (tileRow t r) (t.val % 16)).M : ℝ) : EReal))
    ∧ (∀ r : Fin 1024, ((outsAt1 V c t.val t.isLt).2.2.1 : S1024x1.Idx → EReal) (ix2 r (0 : Fin 1)) = (((onl qkv (tileRow t r) (t.val % 16)).L : ℝ) : EReal))
    ∧ (∀ r d : Fin 1024, ((outsAt1 V c t.val t.isLt).2.2.2.1 : S1024x1024.Idx → EReal) (ix2 r d) = (((onl qkv (tileRow t r) (t.val % 16)).A d : ℝ) : EReal))
    ∧ (∀ r d : Fin 1024, ((outsAt1 V c t.val t.isLt).2.2.2.2 : S1024x1024.Idx → EReal) (ix2 r d) = ((qkv (tileRow t r) (qcol d) * (1 / 32) : ℝ) : EReal)) :=
  state_all V c qkv hQKV t.val t.isLt

/-- At a last-block point the output buffer holds the tile's rows of the attention output. -/
theorem out_at
    (hQKV : ∀ i j, (V c main_v3 : S8192x3072.Idx → EReal) (ix2 i j) = ((qkv i j : ℝ) : EReal))
    (hWO : ∀ n d, (V c main_v1 : S1024x1024.Idx → EReal) (ix2 n d) = ((wo n d : ℝ) : EReal))
    (hBO : ∀ n, (V c main_v4 : S1x1024.Idx → EReal) (ix2 (0 : Fin 1) n) = ((bo n : ℝ) : EReal))
    (t : Fin cfg1.N) (h15 : t.val % 16 = 15) (r n : Fin 1024) :
    ((outsAt1 V c t.val t.isLt).1 : S1024x1024.Idx → EReal) (ix2 r n) = ((out qkv wo bo (tileRow t r) n : ℝ) : EReal) := by
  have h0 : ¬t.val % 16 = 0 := by omega
  have hc0 : ¬cond1_0 (grid1.coords t) := fun h => h0 ((hcond1_0 t).mp h)
  have hc1 : cond1_1 (grid1.coords t) := (hcond1_1 t).mpr h15
  -- numerator and denominator after the sixteenth block
  obtain ⟨-, hL, hA, -⟩ := state_at V c qkv hQKV t
  rw [outsAt1_C V c t h0 h15 hc0 hc1, stC_eq V c t hc0 hc1] at hL hA ⊢
  rw [h15] at hL hA
  refine (out_value _ _ (iblk1 V c 3 t) (iblk1 V c 4 t)
    (fun r d => (onl qkv (tileRow t r) 15).A d) (fun r => (onl qkv (tileRow t r) 15).L) wo bo
    (fun r => onl_L_pos qkv _ 15) hA hL
    (fun n d => (woblk_apply V c t n d).trans (hWO n d)) (fun n => (boblk_apply V c t n).trans (hBO n)) r n).trans ?_
  -- numerator over denominator is the soft-max context
  refine congrArg Real.toEReal ?_
  show (∑ d, (onl qkv (tileRow t r) 15).A d / (onl qkv (tileRow t r) 15).L * wo n d) + bo n
    = (∑ d, ctx qkv (tileRow t r) d * wo n d) + bo n
  refine congrArg (· + bo n) (Finset.sum_congr rfl fun d _ => ?_)
  rw [onl_final]

/-- The attention launch's result array is the specification's attention output, entry by entry, when the three arrays
    it reads have real entries. -/
theorem flash_value
    (hQKV : ∀ i j, (V c main_v3 : S8192x3072.Idx → EReal) (ix2 i j) = ((qkv i j : ℝ) : EReal))
    (hWO : ∀ n d, (V c main_v1 : S1024x1024.Idx → EReal) (ix2 n d) = ((wo n d : ℝ) : EReal))
    (hBO : ∀ n, (V c main_v4 : S1x1024.Idx → EReal) (ix2 (0 : Fin 1) n) = ((bo n : ℝ) : EReal))
    (i : Fin 8192) (n : Fin 1024) :
    ((dat1 (F := Ideal) V c).arrAt 5 cfg1.N : S8192x1024.Idx → EReal) (ix2 i n) = ((out qkv wo bo i n : ℝ) : EReal) := by
  -- the written-back tiles hold their rows of the attention output, and they cover the result
  have h := out_final V c
    (fun idx : S8192x1024.Idx => (((out qkv wo bo (idx 0 : Fin 8192) (idx 1 : Fin 1024) : ℝ) : EReal)))
    (fun t h15 r n => out_at V c qkv wo bo hQKV hWO hBO t h15 r n)
  exact congrFun h (ix2 i n)

end Cert.KernelIdeal.Val

end
-- ==== Proof.RefValue.lean ====
/-
  The reference program read over the reals.

  Under the hypothesis that every entry of the five argument arrays is a real number, the reference's result at the index
  `(i, n)` is the real number the specification computes: the projection `x · wᵀ + b`, its three column thirds, the scores
  divided by 32, the row maximum, the exponentials of the differences, their sum, the quotient, the weighted sum of value
  rows, and the output projection. Every stage is read at an index through the program's own stage lemmas; the only
  stage read by hand is the row maximum, a fold of `max` from `-∞`, which over real entries is the real supremum.
-/
import proofs.«422776_j21586505630422_3_alg».proof.Proof.Gen.ReferenceIdeal.Read
import proofs.«422776_j21586505630422_3_alg».proof.Proof.Spec
import Idealize.ShloMosaic.Lib.ValueIdx
import Idealize.ShloMosaic.PureOps.Ideal.Laws
import Idealize.ShloMosaic.PureOps.Reduce
import Mathlib.Data.EReal.Basic
import Mathlib.Data.EReal.Operations
import Mathlib.Data.Finset.Lattice.Fold

noncomputable section

namespace Cert.ReferenceIdeal.RefValue

open Idealize.ShloMosaic Idealize.ShloMosaic.ValueIdx Cert.ReferenceIdeal Cert.ReferenceIdeal.Read

/-! ## Real numbers inside the extended reals -/

/-- A finite sum of real numbers, taken in the extended reals, is the real sum. -/
theorem coe_sum {ι : Type} (s : Finset ι) (f : ι → ℝ) :
    ∑ k ∈ s, ((f k : ℝ) : EReal) = ((∑ k ∈ s, f k : ℝ) : EReal) := by
  classical
  induction s using Finset.induction_on with
  | empty => rw [Finset.sum_empty, Finset.sum_empty, EReal.coe_zero]
  | insert a s ha ih => rw [Finset.sum_insert ha, Finset.sum_insert ha, ih, EReal.coe_add]

/-- A finite sum of products of real numbers, taken in the extended reals, is the real sum of products. -/
theorem coe_sum_mul {ι : Type} (s : Finset ι) (f g : ι → ℝ) :
    ∑ k ∈ s, ((f k : ℝ) : EReal) * ((g k : ℝ) : EReal) = ((∑ k ∈ s, f k * g k : ℝ) : EReal) := by
  rw [← coe_sum]
  exact Finset.sum_congr rfl fun k _ => (EReal.coe_mul _ _).symm

/-- The maximum from `-∞` over a nonempty finite family of real numbers is their real supremum. -/
theorem fold_max_coe {ι : Type} (s : Finset ι) (hs : s.Nonempty) (f : ι → ℝ) :
    s.fold max (⊥ : EReal) (fun k => ((f k : ℝ) : EReal)) = ((s.sup' hs f : ℝ) : EReal) := by
  have e1 : ((s.sup' hs f : ℝ) : EReal) = s.sup' hs (fun k => ((f k : ℝ) : EReal)) :=
    Finset.comp_sup'_eq_sup'_comp hs (fun r : ℝ => (r : EReal)) (fun _ _ => EReal.coe_strictMono.monotone.map_max)
  rw [e1, Finset.sup'_eq_sup]
  rfl

/-- Dividing an extended real by a nonzero real number is multiplying by its reciprocal. -/
theorem div_coe_coe (a b : ℝ) (hb : b ≠ 0) : Ideal.div ((a : ℝ) : EReal) ((b : ℝ) : EReal) = ((a / b : ℝ) : EReal) := by
  rw [Ideal.div_coe hb, ← EReal.coe_mul, mul_one_div]

/-! ## The constants -/

/-- The pattern `0x42000000` denotes the real number 32. -/
theorem ofBits_32 : Ideal.ofBits .f32 0x42000000#32 = ((32 : ℝ) : EReal) := by
  simp [Ideal.ofBits, Ideal.ieee, -EReal.coe_mul]; norm_num

/-- The pattern `0xFF800000` denotes `-∞`. -/
theorem ofBits_negInf : Ideal.ofBits .f32 0xFF800000#32 = (⊥ : EReal) := by
  simp [Ideal.ofBits, Ideal.ieee]

/-! ## The stages -/

section stages

variable (X : (⟨S8192x1024, .f32⟩ : BufTy).Contents (Elt Ideal)) (WQ : (⟨S3072x1024, .f32⟩ : BufTy).Contents (Elt Ideal))
  (BQ : (⟨S3072, .f32⟩ : BufTy).Contents (Elt Ideal)) (WO : (⟨S1024x1024, .f32⟩ : BufTy).Contents (Elt Ideal))
  (BO : (⟨S1024, .f32⟩ : BufTy).Contents (Elt Ideal))
  (x : Cert.Spec.Mat 8192 1024) (wq : Cert.Spec.Mat 3072 1024) (bq : Fin 3072 → ℝ) (wo : Cert.Spec.Mat 1024 1024) (bo : Fin 1024 → ℝ)

/-- The projection before the bias: row `i` of `x` against row `j` of `w`. -/
theorem v1_eq (hX : ∀ i k, X (ix2 i k) = ((x i k : ℝ) : EReal)) (hWQ : ∀ j k, WQ (ix2 j k) = ((wq j k : ℝ) : EReal))
    (i : Fin 8192) (j : Fin 3072) :
    val_main_v1 (F := Ideal) X WQ (ix2 i j) = ((∑ k, x i k * wq j k : ℝ) : EReal) := by
  rw [val_main_v1_apply, ← coe_sum_mul]
  refine Finset.sum_congr rfl fun k _ => ?_
  rw [val_main_v0_apply]
  have e1 : lidx_main_v1 (ix2 i j) k = ix2 i k := funext fun a => match a with | ⟨0, _⟩ => rfl | ⟨1, _⟩ => rfl
  have e2 : idx_main_v0 (ridx_main_v1 (ix2 i j) k) = ix2 j k := funext fun a => match a with | ⟨0, _⟩ => rfl | ⟨1, _⟩ => rfl
  rw [e1, e2, hX, hWQ]

/-- The bias, broadcast down the rows. -/
theorem v3_eq (hBQ : ∀ j, BQ (ix1 j) = ((bq j : ℝ) : EReal)) (i : Fin 8192) (j : Fin 3072) :
    val_main_v3 (F := Ideal) BQ (ix2 i j) = ((bq j : ℝ) : EReal) := by
  rw [val_main_v3_apply, val_main_v2_apply]
  have e : idx_main_v2 (idx_main_v3 (ix2 i j)) = ix1 j := funext fun a => match a with | ⟨0, _⟩ => rfl
  rw [e, hBQ]

/-- The fused projection. -/
theorem v4_eq (hX : ∀ i k, X (ix2 i k) = ((x i k : ℝ) : EReal)) (hWQ : ∀ j k, WQ (ix2 j k) = ((wq j k : ℝ) : EReal))
    (hBQ : ∀ j, BQ (ix1 j) = ((bq j : ℝ) : EReal)) (i : Fin 8192) (j : Fin 3072) :
    val_main_v4 (F := Ideal) X WQ BQ (ix2 i j) = ((Cert.Spec.lin x wq bq i j : ℝ) : EReal) := by
  rw [val_main_v4_apply, v1_eq X WQ x wq hX hWQ, v3_eq BQ bq hBQ, Ideal.addf_def, ← EReal.coe_add]
  rfl

end stages

section stages2

variable (X : (⟨S8192x1024, .f32⟩ : BufTy).Contents (Elt Ideal)) (WQ : (⟨S3072x1024, .f32⟩ : BufTy).Contents (Elt Ideal))
  (BQ : (⟨S3072, .f32⟩ : BufTy).Contents (Elt Ideal))
  (qkv : Cert.Spec.Mat 8192 3072)
  (h4 : ∀ i j, val_main_v4 (F := Ideal) X WQ BQ (ix2 i j) = ((qkv i j : ℝ) : EReal))
include h4

/-- The query third of the projection's columns. -/
theorem v5_eq (i : Fin 8192) (d : Fin 1024) :
    val_main_v5 (F := Ideal) X WQ BQ (ix2 i d) = ((qkv i (Cert.Spec.qcol d) : ℝ) : EReal) := by
  rw [val_main_v5_apply]
  have e : idx_main_v5 (ix2 i d) = ix2 i (Cert.Spec.qcol d) := funext fun a => match a with | ⟨0, _⟩ => rfl | ⟨1, _⟩ => rfl
  rw [e, h4]

/-- The key third. -/
theorem v6_eq (i : Fin 8192) (d : Fin 1024) :
    val_main_v6 (F := Ideal) X WQ BQ (ix2 i d) = ((qkv i (Cert.Spec.kcol d) : ℝ) : EReal) := by
  rw [val_main_v6_apply]
  have e : idx_main_v6 (ix2 i d) = ix2 i (Cert.Spec.kcol d) := funext fun a => match a with | ⟨0, _⟩ => rfl | ⟨1, _⟩ => rfl
  rw [e, h4]

/-- The value third. -/
theorem v7_eq (i : Fin 8192) (d : Fin 1024) :
    val_main_v7 (F := Ideal) X WQ BQ (ix2 i d) = ((qkv i (Cert.Spec.vcol d) : ℝ) : EReal) := by
  rw [val_main_v7_apply]
  have e : idx_main_v7 (ix2 i d) = ix2 i (Cert.Spec.vcol d) := funext fun a => match a with | ⟨0, _⟩ => rfl | ⟨1, _⟩ => rfl
  rw [e, h4]

/-- The unscaled scores: query row `i` against key row `j`. -/
theorem v9_eq (i j : Fin 8192) :
    val_main_v9 (F := Ideal) X WQ BQ (ix2 i j)
      = ((∑ d, qkv i (Cert.Spec.qcol d) * qkv j (Cert.Spec.kcol d) : ℝ) : EReal) := by
  rw [val_main_v9_apply, ← coe_sum_mul]
  refine Finset.sum_congr rfl fun k _ => ?_
  rw [val_main_v8_apply]
  have e1 : lidx_main_v9 (ix2 i j) k = ix2 i k := funext fun a => match a with | ⟨0, _⟩ => rfl | ⟨1, _⟩ => rfl
  have e2 : idx_main_v8 (ridx_main_v9 (ix2 i j) k) = ix2 j k := funext fun a => match a with | ⟨0, _⟩ => rfl | ⟨1, _⟩ => rfl
  rw [e1, e2, v5_eq X WQ BQ qkv h4, v6_eq X WQ BQ qkv h4]

omit h4 in
/-- The divisor of the scores is the real number 32. -/
theorem v10_eq (j : S8192x8192.Idx) : val_main_v10 (F := Ideal) j = ((32 : ℝ) : EReal) := by
  rw [val_main_v10_apply, val_main_cst_apply, Ideal.ofBits_def, ofBits_32]

/-- The scaled scores. -/
theorem v11_eq (i j : Fin 8192) :
    val_main_v11 (F := Ideal) X WQ BQ (ix2 i j) = ((Cert.Spec.score qkv i j : ℝ) : EReal) := by
  rw [val_main_v11_apply, v9_eq X WQ BQ qkv h4, v10_eq, Ideal.hostDivf_def, div_coe_coe _ _ (by norm_num)]
  rfl

end stages2

section stages3

variable (X : (⟨S8192x1024, .f32⟩ : BufTy).Contents (Elt Ideal)) (WQ : (⟨S3072x1024, .f32⟩ : BufTy).Contents (Elt Ideal))
  (BQ : (⟨S3072, .f32⟩ : BufTy).Contents (Elt Ideal))
  (qkv : Cert.Spec.Mat 8192 3072)

/-- The reduced index `i` with the column `k` put back is `(i, k)`. -/
theorem lift_ix1 (h : S8192x8192.Reduces [1] S8192) (i : Fin 8192) (k : Fin (S8192x8192.size 1)) :
    h.lift (ix1 i) k = ix2 i (⟨k.val, k.isLt⟩ : Fin 8192) := by
  funext c; apply Fin.ext
  fin_cases c <;> rfl

/-- The reduce of a row by `max` from `-∞` is the fold of `max` from `-∞` over the row's entries. -/
theorem v12_fold (i : Fin 8192) :
    val_main_v12 (F := Ideal) X WQ BQ (ix1 i)
      = (Finset.univ : Finset (Fin 8192)).fold max (⊥ : EReal) (fun k => val_main_v11 (F := Ideal) X WQ BQ (ix2 i k)) := by
  unfold val_main_v12
  generalize val_main_v11 (F := Ideal) X WQ BQ = y
  have h : S8192x8192.Reduces [1] S8192 := by decide
  have key := Host.reduce_eq_fold_single (α := Ideal .f32) (s := S8192x8192) (t := S8192) (a := 1) (u := S_)
    (FloatOps.maximumf (F := Ideal) (φ := .f32)) y (val_main_cst_0 (F := Ideal)) Gen.reducesTo_S8192x8192_S8192_d1 h Gen.h_S_ (ix1 i)
  refine key.trans ?_
  have hi : val_main_cst_0 (F := Ideal) (Shape.Idx.first Gen.h_S_) = (⊥ : EReal) := by
    rw [val_main_cst_0_apply, Ideal.ofBits_def, ofBits_negInf]
  rw [hi]
  have hf : (y ∘ h.lift (ix1 i)) = fun k : Fin 8192 => y (ix2 i k) := funext fun k => congrArg y (lift_ix1 h i k)
  exact congrArg (fun f => Finset.fold max (⊥ : EReal) f (Finset.univ : Finset (Fin 8192))) hf

variable (h11 : ∀ i j, val_main_v11 (F := Ideal) X WQ BQ (ix2 i j) = ((Cert.Spec.score qkv i j : ℝ) : EReal))
include h11

/-- The row maximum. -/
theorem v12_eq (i : Fin 8192) :
    val_main_v12 (F := Ideal) X WQ BQ (ix1 i) = ((Cert.Spec.rowMax qkv i : ℝ) : EReal) := by
  rw [v12_fold]
  have e : (fun k => val_main_v11 (F := Ideal) X WQ BQ (ix2 i k)) = fun k => ((Cert.Spec.score qkv i k : ℝ) : EReal) :=
    funext fun k => h11 i k
  rw [e, fold_max_coe Finset.univ Finset.univ_nonempty]
  rfl

/-- The row maximum, after the maximum with `-∞`. -/
theorem v14_eq (i : Fin 8192) :
    val_main_v14 (F := Ideal) X WQ BQ (ix1 i) = ((Cert.Spec.rowMax qkv i : ℝ) : EReal) := by
  rw [val_main_v14_apply, val_main_v13_apply, val_main_cst_1_apply, Ideal.ofBits_def, ofBits_negInf,
    v12_eq X WQ BQ qkv h11, Ideal.maximumf_def]
  exact max_eq_right bot_le

/-- The row maximum, broadcast along its row. -/
theorem v16_eq (i j : Fin 8192) :
    val_main_v16 (F := Ideal) X WQ BQ (ix2 i j) = ((Cert.Spec.rowMax qkv i : ℝ) : EReal) := by
  rw [val_main_v16_apply, val_main_v15_apply]
  have e : idx_main_v15 (idx_main_v16 (ix2 i j)) = ix1 i := funext fun a => match a with | ⟨0, _⟩ => rfl
  rw [e, v14_eq X WQ BQ qkv h11]

/-- The soft-max numerator. -/
theorem v18_eq (i j : Fin 8192) :
    val_main_v18 (F := Ideal) X WQ BQ (ix2 i j) = ((Cert.Spec.wexp qkv i j : ℝ) : EReal) := by
  rw [val_main_v18_apply, val_main_v17_apply, h11, v16_eq X WQ BQ qkv h11, Ideal.subf_def, ← EReal.coe_sub,
    Ideal.hostUnary_exp_def, Ideal.exp_coe]
  rfl

/-- The soft-max denominator. -/
theorem v19_eq (i : Fin 8192) :
    val_main_v19 (F := Ideal) X WQ BQ (ix1 i) = ((Cert.Spec.denom qkv i : ℝ) : EReal) := by
  rw [val_main_v19_apply, val_main_cst_2_apply, Ideal.ofBits_def, Ideal.ofBits_zero_f32, zero_add]
  have e : (fun k => val_main_v18 (F := Ideal) X WQ BQ (idx_main_v19 (ix1 i) k))
      = fun k => ((Cert.Spec.wexp qkv i k : ℝ) : EReal) := funext fun k => by
    have e1 : idx_main_v19 (ix1 i) k = ix2 i k := funext fun a => match a with | ⟨0, _⟩ => rfl | ⟨1, _⟩ => rfl
    rw [e1, v18_eq X WQ BQ qkv h11]
  rw [e, coe_sum]
  rfl

/-- The soft-max weight. -/
theorem v22_eq (i j : Fin 8192) :
    val_main_v22 (F := Ideal) X WQ BQ (ix2 i j)
      = ((Cert.Spec.wexp qkv i j / Cert.Spec.denom qkv i : ℝ) : EReal) := by
  rw [val_main_v22_apply, v18_eq X WQ BQ qkv h11, val_main_v21_apply, val_main_v20_apply]
  have e : idx_main_v20 (idx_main_v21 (ix2 i j)) = ix1 i := funext fun a => match a with | ⟨0, _⟩ => rfl
  have hpos : 0 < Cert.Spec.denom qkv i :=
    Finset.sum_pos (fun _ _ => Real.exp_pos _) (Finset.univ_nonempty (α := Fin 8192))
  rw [e, v19_eq X WQ BQ qkv h11, Ideal.hostDivf_def, div_coe_coe _ _ hpos.ne']

end stages3

section stages4

variable (X : (⟨S8192x1024, .f32⟩ : BufTy).Contents (Elt Ideal)) (WQ : (⟨S3072x1024, .f32⟩ : BufTy).Contents (Elt Ideal))
  (BQ : (⟨S3072, .f32⟩ : BufTy).Contents (Elt Ideal)) (WO : (⟨S1024x1024, .f32⟩ : BufTy).Contents (Elt Ideal))
  (BO : (⟨S1024, .f32⟩ : BufTy).Contents (Elt Ideal))
  (qkv : Cert.Spec.Mat 8192 3072) (wo : Cert.Spec.Mat 1024 1024) (bo : Fin 1024 → ℝ)

/-- The attention context: the soft-max weights of row `i` against the value rows. -/
theorem v23_eq (h4 : ∀ i j, val_main_v4 (F := Ideal) X WQ BQ (ix2 i j) = ((qkv i j : ℝ) : EReal))
    (h22 : ∀ i j, val_main_v22 (F := Ideal) X WQ BQ (ix2 i j)
      = ((Cert.Spec.wexp qkv i j / Cert.Spec.denom qkv i : ℝ) : EReal))
    (i : Fin 8192) (d : Fin 1024) :
    val_main_v23 (F := Ideal) X WQ BQ (ix2 i d) = ((Cert.Spec.ctx qkv i d : ℝ) : EReal) := by
  rw [val_main_v23_apply]
  have e : (fun k => val_main_v22 (F := Ideal) X WQ BQ (lidx_main_v23 (ix2 i d) k)
        * val_main_v7 (F := Ideal) X WQ BQ (ridx_main_v23 (ix2 i d) k))
      = fun k => ((Cert.Spec.wexp qkv i k / Cert.Spec.denom qkv i : ℝ) : EReal)
        * ((qkv k (Cert.Spec.vcol d) : ℝ) : EReal) := funext fun k => by
    have e1 : lidx_main_v23 (ix2 i d) k = ix2 i k := funext fun a => match a with | ⟨0, _⟩ => rfl | ⟨1, _⟩ => rfl
    have e2 : ridx_main_v23 (ix2 i d) k = ix2 k d := funext fun a => match a with | ⟨0, _⟩ => rfl | ⟨1, _⟩ => rfl
    rw [e1, e2, h22, v7_eq X WQ BQ qkv h4]
  rw [e, coe_sum_mul]
  rfl

/-- The output projection before the bias. -/
theorem v25_eq (hWO : ∀ n d, WO (ix2 n d) = ((wo n d : ℝ) : EReal))
    (h23 : ∀ i d, val_main_v23 (F := Ideal) X WQ BQ (ix2 i d) = ((Cert.Spec.ctx qkv i d : ℝ) : EReal))
    (i : Fin 8192) (n : Fin 1024) :
    val_main_v25 (F := Ideal) X WQ BQ WO (ix2 i n) = ((∑ d, Cert.Spec.ctx qkv i d * wo n d : ℝ) : EReal) := by
  rw [val_main_v25_apply, ← coe_sum_mul]
  refine Finset.sum_congr rfl fun k _ => ?_
  rw [val_main_v24_apply]
  have e1 : lidx_main_v25 (ix2 i n) k = ix2 i k := funext fun a => match a with | ⟨0, _⟩ => rfl | ⟨1, _⟩ => rfl
  have e2 : idx_main_v24 (ridx_main_v25 (ix2 i n) k) = ix2 n k := funext fun a => match a with | ⟨0, _⟩ => rfl | ⟨1, _⟩ => rfl
  rw [e1, e2, h23, hWO]

/-- The output bias, broadcast down the rows. -/
theorem v27_eq (hBO : ∀ n, BO (ix1 n) = ((bo n : ℝ) : EReal)) (i : Fin 8192) (n : Fin 1024) :
    val_main_v27 (F := Ideal) BO (ix2 i n) = ((bo n : ℝ) : EReal) := by
  rw [val_main_v27_apply, val_main_v26_apply]
  have e : idx_main_v26 (idx_main_v27 (ix2 i n)) = ix1 n := funext fun a => match a with | ⟨0, _⟩ => rfl
  rw [e, hBO]

end stages4

/-- The reference's result at `(i, n)` is the specification's, when the arguments' entries are real. -/
theorem ref_value
    (X : (⟨S8192x1024, .f32⟩ : BufTy).Contents (Elt Ideal)) (WQ : (⟨S3072x1024, .f32⟩ : BufTy).Contents (Elt Ideal))
    (BQ : (⟨S3072, .f32⟩ : BufTy).Contents (Elt Ideal)) (WO : (⟨S1024x1024, .f32⟩ : BufTy).Contents (Elt Ideal))
    (BO : (⟨S1024, .f32⟩ : BufTy).Contents (Elt Ideal))
    (x : Cert.Spec.Mat 8192 1024) (wq : Cert.Spec.Mat 3072 1024) (bq : Fin 3072 → ℝ) (wo : Cert.Spec.Mat 1024 1024) (bo : Fin 1024 → ℝ)
    (hX : ∀ i k, X (ix2 i k) = ((x i k : ℝ) : EReal)) (hWQ : ∀ j k, WQ (ix2 j k) = ((wq j k : ℝ) : EReal))
    (hBQ : ∀ j, BQ (ix1 j) = ((bq j : ℝ) : EReal)) (hWO : ∀ n d, WO (ix2 n d) = ((wo n d : ℝ) : EReal))
    (hBO : ∀ n, BO (ix1 n) = ((bo n : ℝ) : EReal)) (i : Fin 8192) (n : Fin 1024) :
    val_main_v28 (F := Ideal) X WQ BQ WO BO (ix2 i n)
      = ((Cert.Spec.out (Cert.Spec.lin x wq bq) wo bo i n : ℝ) : EReal) := by
  have h4 := v4_eq X WQ BQ x wq bq hX hWQ hBQ
  have h11 := v11_eq X WQ BQ (Cert.Spec.lin x wq bq) h4
  have h22 := v22_eq X WQ BQ (Cert.Spec.lin x wq bq) h11
  have h23 := v23_eq X WQ BQ (Cert.Spec.lin x wq bq) h4 h22
  rw [val_main_v28_apply, v25_eq X WQ BQ WO (Cert.Spec.lin x wq bq) wo hWO h23, v27_eq BO bo hBO, Ideal.addf_def,
    ← EReal.coe_add]
  rfl

end Cert.ReferenceIdeal.RefValue

end
-- ==== Proof.Finite.lean ====
/-
  Finite inputs are real inputs.

  The precondition says that the absolute value of every entry of every argument array is below `+∞`. An extended real
  whose absolute value is below `+∞` is neither infinity, hence the coercion of a real number; choosing that number entry
  by entry gives real matrices of which the argument arrays are the coercions.
-/
import proofs.«422776_j21586505630422_3_alg».proof.Proof.Gen.Pre_finite_inputs
import proofs.«422776_j21586505630422_3_alg».proof.Proof.Spec
import Idealize.ShloMosaic.Lib.ValueIdx
import Idealize.ShloMosaic.Lib.ReduceAll

noncomputable section

namespace Cert.Finite

open Idealize.ShloMosaic Idealize.ShloMosaic.ValueIdx Cert.Pre_finite_inputs

/-- The scalar shape has one index. -/
instance : Subsingleton S_.Idx := ⟨fun a b => funext fun d => d.elim0⟩

/-- The word `0x7F800000` denotes `+∞`. -/
theorem ofBits_inf : Ideal.ofBits .f32 0x7F800000#32 = (⊤ : EReal) := by simp [Ideal.ofBits, Ideal.ieee]

/-- An extended real whose absolute value `max x (-x)` compares below `+∞` is a real number: `⊤` fails the bound
    itself, `⊥` fails it through its negation. -/
theorem real_of_abs_lt_inf (x : EReal)
    (h : FloatOps.cmpf .olt (FloatOps.hostAbsf (x : Ideal .f32)) (FloatOps.ofBits (F := Ideal) .f32 0x7F800000#32) = 1#1) :
    ∃ r : ℝ, x = (r : EReal) := by
  have h' : Ideal.cmp .olt (max x (-x)) (Ideal.ofBits .f32 0x7F800000#32) = 1#1 := h
  rw [ofBits_inf] at h'
  induction x using EReal.rec with
  | bot => simp [Ideal.cmp] at h'
  | coe r => exact ⟨r, rfl⟩
  | top => simp [Ideal.cmp] at h'

/-- One `jnp.all(|A| < +∞)` read back, at any shape: if the reduction by `and` of the comparison of `|A|` with the
    broadcast `+∞` is 1, every entry of `A` is a real number. -/
theorem entries_real {s : Shape} {axes : List (Fin s.rank)} (A : FVec Ideal s .f32)
    (hb : S_.BroadcastsInDim s (![] : Fin 0 → Fin s.rank)) (hr : s.ReducesTo axes S_) (hu : 0 < S_.numel)
    (e : Host.reduce IntOp.andi
          (cmpf .olt (Host.absf A) (broadcastInDim s ![] hb (constant (F := Ideal) S_ .f32 0x7F800000#32)))
          (constantI S_ 1 1#1) hr hu ix0 = 1#1)
    (i : s.Idx) : ∃ r : ℝ, A i = (r : EReal) :=
  real_of_abs_lt_inf (A i) (Host.reduce_andi_all _ _ hr hu ix0 e i)

/-- From the precondition (the printed predicate is all ones) to real witnesses of every entry. -/
theorem real_of_pre
    (X : FVec Ideal S8192x1024 .f32) (WQ : FVec Ideal S3072x1024 .f32) (BQ : FVec Ideal S3072 .f32)
    (WO : FVec Ideal S1024x1024 .f32) (BO : FVec Ideal S1024 .f32)
    (h : Cert.Pre_finite_inputs.fn (F := Ideal) X WQ BQ WO BO = fun _ => 1#1) :
    ∃ (x : Cert.Spec.Mat 8192 1024) (wq : Cert.Spec.Mat 3072 1024) (bq : Fin 3072 → ℝ) (wo : Cert.Spec.Mat 1024 1024) (bo : Fin 1024 → ℝ),
      (∀ i k, X (ix2 i k) = ((x i k : ℝ) : EReal)) ∧ (∀ j k, WQ (ix2 j k) = ((wq j k : ℝ) : EReal))
      ∧ (∀ j, BQ (ix1 j) = ((bq j : ℝ) : EReal)) ∧ (∀ n d, WO (ix2 n d) = ((wo n d : ℝ) : EReal))
      ∧ (∀ n, BO (ix1 n) = ((bo n : ℝ) : EReal)) := by
  -- the predicate at its one index is the conjunction of five reductions, one per array
  have h0 := congrFun h ix0
  dsimp only [Cert.Pre_finite_inputs.fn, Cert.Pre_finite_inputs.fn_part1, andi] at h0
  simp only [IntOp.andi_eq_one] at h0
  obtain ⟨⟨⟨⟨hX, hWQ⟩, hBQ⟩, hWO⟩, hBO⟩ := h0
  -- each reduction makes every entry of its array real; choose the witnesses entry by entry
  choose x hx using fun i k => entries_real X _ _ _ hX (ix2 i k)
  choose wq hwq using fun j k => entries_real WQ _ _ _ hWQ (ix2 j k)
  choose bq hbq using fun j => entries_real BQ _ _ _ hBQ (ix1 j)
  choose wo hwo using fun n d => entries_real WO _ _ _ hWO (ix2 n d)
  choose bo hbo using fun n => entries_real BO _ _ _ hBO (ix1 n)
  exact ⟨x, wq, bq, wo, bo, hx, hwq, hbq, hwo, hbo⟩

end Cert.Finite

end
-- ==== Proof.lean ====
/-
  Fused QKV projection, single-head soft-max attention and output projection: the tiled kernel against the plain
  reference, over the extended reals.

  The kernel is two launches. The first computes `qkv = x · wᵀ + b` tile by tile. The second walks, for each tile of 1024
  query rows, the sixteen blocks of 512 key/value rows, keeping a running maximum, a running denominator and a running
  numerator that it rescales at every block (the online soft-max), with the scale `1/32 = 1/√1024` folded into the query
  tile; at the last block it divides numerator by denominator and applies the output projection. The reference computes
  the whole score matrix, divides it by 32, soft-maxes each row and multiplies by the values, then projects.

  Over the extended reals the two agree wherever the inputs are finite — which the precondition grants: every entry is
  then a real number, every intermediate of both programs is real, the products with `1/32` are the quotients by `32`,
  and the online recurrence's rescalings telescope (`exp (s - M) · exp (M - M') = exp (s - M')`), so that after the last
  block numerator over denominator is the soft-max-weighted sum of value rows. Both programs' results are therefore the
  one function `Spec.out (Spec.lin x w b) wo bo` of the real inputs, entry by entry. The frames (every execution ends,
  nothing faults, the arguments are left alone) come from running each launch point by point: the first launch's body is
  one matmul per point; the second's is taken in its three cases (first, middle, last block of a query tile), its four
  scratch buffers followed from point to point. The idealized kernel is the printed kernel read at exact arithmetic
  (nothing was rewritten), so there is nothing to preserve.
-/
import proofs.«422776_j21586505630422_3_alg».proof.Defs
import proofs.«422776_j21586505630422_3_alg».proof.Proof.Gen.Kernel
import proofs.«422776_j21586505630422_3_alg».proof.Proof.Gen.KernelIdeal
import proofs.«422776_j21586505630422_3_alg».proof.Proof.Gen.ReferenceIdeal
import proofs.«422776_j21586505630422_3_alg».proof.Proof.Gen.Pre_finite_inputs
import proofs.«422776_j21586505630422_3_alg».proof.Proof.Gen.ReferenceIdeal.Run
import proofs.«422776_j21586505630422_3_alg».proof.Proof.Gen.ReferenceIdeal.Read
import proofs.«422776_j21586505630422_3_alg».proof.Proof.K.Run
import proofs.«422776_j21586505630422_3_alg».proof.Proof.KI.Run
import proofs.«422776_j21586505630422_3_alg».proof.Proof.KI.Boundary
import proofs.«422776_j21586505630422_3_alg».proof.Proof.KI.LinValue
import proofs.«422776_j21586505630422_3_alg».proof.Proof.KI.FlashValue
import proofs.«422776_j21586505630422_3_alg».proof.Proof.RefValue
import proofs.«422776_j21586505630422_3_alg».proof.Proof.Finite
import Idealize.ShloMosaic.Adequacy
import Idealize.ShloMosaic.Init

noncomputable section

namespace Cert.Proof

open Idealize.ShloMosaic Idealize.ShloMosaic.TcCoe Idealize.ShloMosaic.ValueIdx Idealize.SL.Sem

/-- The common result: the specification's attention output of real inputs, as an array over the extended reals. -/
def outArr (x : Cert.Spec.Mat 8192 1024) (wq : Cert.Spec.Mat 3072 1024) (bq : Fin 3072 → ℝ) (wo : Cert.Spec.Mat 1024 1024)
    (bo : Fin 1024 → ℝ) : Cert.KernelIdeal.S8192x1024.Idx → EReal :=
  fun idx => ((Cert.Spec.out (Cert.Spec.lin x wq bq) wo bo (idx 0) (idx 1) : ℝ) : EReal)

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

/-- Nothing was rewritten when the kernel was idealized. -/
theorem preserves : Cert.preserves_Kernel_KernelIdeal := trivial

/-- Both programs end holding `outArr` of the real inputs the precondition provides. -/
theorem algebraic : Cert.algebraic_KernelIdeal_ReferenceIdeal := by
  intro m ρ m' ρ' hpre hagree
  have hreal := fun c => Cert.Finite.real_of_pre _ _ _ _ _ (hpre c)
  choose x wq bq wo bo hX hWQ hBQ hWO hBO using hreal
  refine ⟨fun c => outArr (x c) (wq c) (bq c) (wo c) (bo c), ?_, ?_⟩
  · -- the kernel: the attention launch's result array, over the projection launch's
    refine (θ_run Cert.KernelIdeal.defs _ _).mono (fun r h c => ⟨(h c).1.trans ?_, (h c).2⟩)
      (Cert.KernelIdeal.Hand.run_value (F := Ideal) m ρ)
    funext idx
    obtain ⟨i, n, rfl⟩ : ∃ (i : Fin 8192) (n : Fin 1024), idx = ix2 i n := ⟨idx 0, idx 1, eq_ix2 idx⟩
    refine Cert.KernelIdeal.Val.flash_value (Cert.KernelIdeal.Hand.U3 m) c (Cert.Spec.lin (x c) (wq c) (bq c)) (wo c) (bo c)
      (fun i j => ?_) (fun n d => (Cert.KernelIdeal.Val.U3_wo m c n d).trans (hWO c n d))
      (fun n => (Cert.KernelIdeal.Val.U3_bo m c n).trans (hBO c n)) i n
    rw [Cert.KernelIdeal.Val.U3_qkv m c]
    exact Cert.KernelIdeal.Val.lin_value (Cert.KernelIdeal.Hand.U1 m) c (x c) (wq c) (bq c)
      (fun i k => (Cert.KernelIdeal.Val.U1_x m c i k).trans (hX c i k))
      (fun j k => (Cert.KernelIdeal.Val.U1_w m c j k).trans (hWQ c j k))
      (fun j => (Cert.KernelIdeal.Val.U1_b m c j).trans (hBQ c j)) i j
  · -- the reference: its run's term, stage by stage
    refine (θ_run Cert.ReferenceIdeal.defs _ _).mono (fun r h c => ⟨(h c).1.trans ?_, (h c).2⟩)
      (Cert.ReferenceIdeal.Value.run (F := Ideal) m' ρ')
    rw [Cert.ReferenceIdeal.Read.val_main_v28_eq, (hagree c).1, (hagree c).2.1, (hagree c).2.2.1, (hagree c).2.2.2.1, (hagree c).2.2.2.2]
    funext idx
    obtain ⟨i, n, rfl⟩ : ∃ (i : Fin 8192) (n : Fin 1024), idx = ix2 i n := ⟨idx 0, idx 1, eq_ix2 idx⟩
    exact Cert.ReferenceIdeal.RefValue.ref_value _ _ _ _ _ (x c) (wq c) (bq c) (wo c) (bo c)
      (hX c) (hWQ c) (hBQ c) (hWO c) (hBO c) i n

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
